-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x25x25 : Shape := ⟨4, ![1024, 128, 25, 25]⟩
abbrev S1024x25x25 : Shape := ⟨3, ![1024, 25, 25]⟩
abbrev S1024x6x25x25 : Shape := ⟨4, ![1024, 6, 25, 25]⟩
abbrev S1024 : Shape := ⟨1, ![1024]⟩
abbrev S_ : Shape := ⟨0, ![]⟩

class Facts : Prop where
  bcast_S_S1024x128x25x25 : S_.BroadcastsInDim S1024x128x25x25 (![] : Fin 0 → Fin S1024x128x25x25.rank)
  reducesTo_S1024x128x25x25_S_d0_1_2_3 : S1024x128x25x25.ReducesTo [0, 1, 2, 3] S_
  h_S_ : 0 < S_.numel
  bcast_S_S1024x25x25 : S_.BroadcastsInDim S1024x25x25 (![] : Fin 0 → Fin S1024x25x25.rank)
  reducesTo_S1024x25x25_S_d0_1_2 : S1024x25x25.ReducesTo [0, 1, 2] S_
  bcast_S_S1024x6x25x25 : S_.BroadcastsInDim S1024x6x25x25 (![] : Fin 0 → Fin S1024x6x25x25.rank)
  reducesTo_S1024x6x25x25_S_d0_1_2_3 : S1024x6x25x25.ReducesTo [0, 1, 2, 3] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg10 : IVec S1024 32) (main_v48 : IVec S_ 1) (main_v50 : IVec S1024 1) : IVec S_ 1 :=
  let main_c_19 : IVec S_ 32 := constantI S_ 32 6#32
  let main_v51 : IVec S1024 32 := broadcastInDim S1024 ![] bcast_S_S1024 main_c_19
  let main_v52 : IVec S1024 1 := cmpi .slt main_arg10 main_v51
  let main_v53 : IVec S1024 1 := andi main_v50 main_v52
  let main_c_20 : IVec S_ 1 := constantI S_ 1 1#1
  let main_v54 : IVec S_ 1 := (fun x v => Host.reduce IntOp.andi x v reducesTo_S1024_S_d0 h_S_) main_v53 main_c_20
  let main_v55 : IVec S_ 1 := andi main_v48 main_v54
  main_v55

def fn_part2 {F : FTy → Type} [FloatOps F] (main_arg7 : FVec F S1024x6x25x25 .f32) (main_arg8 : FVec F S1024x25x25 .f32) (main_arg9 : FVec F S1024x25x25 .f32) (main_arg10 : IVec S1024 32) (main_v33 : IVec S_ 1) : IVec S_ 1 :=
  let main_v34 : FVec F S1024x6x25x25 .f32 := Host.absf main_arg7
  let main_cst_12 : FVec F S_ .f32 := constant S_ .f32 0x7F800000#32
  let main_v35 : FVec F S1024x6x25x25 .f32 := broadcastInDim S1024x6x25x25 ![] bcast_S_S1024x6x25x25 main_cst_12
  let main_v36 : IVec S1024x6x25x25 1 := cmpf .olt main_v34 main_v35
  let main_c_13 : IVec S_ 1 := constantI S_ 1 1#1
  let main_v37 : IVec S_ 1 := (fun x v => Host.reduce IntOp.andi x v reducesTo_S1024x6x25x25_S_d0_1_2_3 h_S_) main_v36 main_c_13
  let main_v38 : IVec S_ 1 := andi main_v33 main_v37
  let main_v39 : FVec F S1024x25x25 .f32 := Host.absf main_arg8
  let main_cst_14 : FVec F S_ .f32 := constant S_ .f32 0x7F800000#32
  let main_v40 : FVec F S1024x25x25 .f32 := broadcastInDim S1024x25x25 ![] bcast_S_S1024x25x25 main_cst_14
  let main_v41 : IVec S1024x25x25 1 := cmpf .olt main_v39 main_v40
  let main_c_15 : IVec S_ 1 := constantI S_ 1 1#1
  let main_v42 : IVec S_ 1 := (fun x v => Host.reduce IntOp.andi x v reducesTo_S1024x25x25_S_d0_1_2 h_S_) main_v41 main_c_15
  let main_v43 : IVec S_ 1 := andi main_v38 main_v42
  let main_v44 : FVec F S1024x25x25 .f32 := Host.absf main_arg9
  let main_cst_16 : FVec F S_ .f32 := constant S_ .f32 0x7F800000#32
  let main_v45 : FVec F S1024x25x25 .f32 := broadcastInDim S1024x25x25 ![] bcast_S_S1024x25x25 main_cst_16
  let main_v46 : IVec S1024x25x25 1 := cmpf .olt main_v44 main_v45
  let main_c_17 : IVec S_ 1 := constantI S_ 1 1#1
  let main_v47 : IVec S_ 1 := (fun x v => Host.reduce IntOp.andi x v reducesTo_S1024x25x25_S_d0_1_2 h_S_) main_v46 main_c_17
  let main_v48 : IVec S_ 1 := andi main_v43 main_v47
  let main_c_18 : IVec S_ 32 := constantI S_ 32 0#32
  let main_v49 : IVec S1024 32 := broadcastInDim S1024 ![] bcast_S_S1024 main_c_18
  let main_v50 : IVec S1024 1 := cmpi .sge main_arg10 main_v49
  fn_part3 (F := F) main_arg10 main_v48 main_v50

def fn_part1 {F : FTy → Type} [FloatOps F] (main_arg4 : FVec F S1024x25x25 .f32) (main_arg5 : FVec F S1024x6x25x25 .f32) (main_arg6 : FVec F S1024x6x25x25 .f32) (main_arg7 : FVec F S1024x6x25x25 .f32) (main_arg8 : FVec F S1024x25x25 .f32) (main_arg9 : FVec F S1024x25x25 .f32) (main_arg10 : IVec S1024 32) (main_v13 : IVec S_ 1) (main_v16 : IVec S1024x25x25 1) : IVec S_ 1 :=
  let main_c_5 : IVec S_ 1 := constantI S_ 1 1#1
  let main_v17 : IVec S_ 1 := (fun x v => Host.reduce IntOp.andi x v reducesTo_S1024x25x25_S_d0_1_2 h_S_) main_v16 main_c_5
  let main_v18 : IVec S_ 1 := andi main_v13 main_v17
  let main_v19 : FVec F S1024x25x25 .f32 := Host.absf main_arg4
  let main_cst_6 : FVec F S_ .f32 := constant S_ .f32 0x7F800000#32
  let main_v20 : FVec F S1024x25x25 .f32 := broadcastInDim S1024x25x25 ![] bcast_S_S1024x25x25 main_cst_6
  let main_v21 : IVec S1024x25x25 1 := cmpf .olt main_v19 main_v20
  let main_c_7 : IVec S_ 1 := constantI S_ 1 1#1
  let main_v22 : IVec S_ 1 := (fun x v => Host.reduce IntOp.andi x v reducesTo_S1024x25x25_S_d0_1_2 h_S_) main_v21 main_c_7
  let main_v23 : IVec S_ 1 := andi main_v18 main_v22
  let main_v24 : FVec F S1024x6x25x25 .f32 := Host.absf main_arg5
  let main_cst_8 : FVec F S_ .f32 := constant S_ .f32 0x7F800000#32
  let main_v25 : FVec F S1024x6x25x25 .f32 := broadcastInDim S1024x6x25x25 ![] bcast_S_S1024x6x25x25 main_cst_8
  let main_v26 : IVec S1024x6x25x25 1 := cmpf .olt main_v24 main_v25
  let main_c_9 : IVec S_ 1 := constantI S_ 1 1#1
  let main_v27 : IVec S_ 1 := (fun x v => Host.reduce IntOp.andi x v reducesTo_S1024x6x25x25_S_d0_1_2_3 h_S_) main_v26 main_c_9
  let main_v28 : IVec S_ 1 := andi main_v23 main_v27
  let main_v29 : FVec F S1024x6x25x25 .f32 := Host.absf main_arg6
  let main_cst_10 : FVec F S_ .f32 := constant S_ .f32 0x7F800000#32
  let main_v30 : FVec F S1024x6x25x25 .f32 := broadcastInDim S1024x6x25x25 ![] bcast_S_S1024x6x25x25 main_cst_10
  let main_v31 : IVec S1024x6x25x25 1 := cmpf .olt main_v29 main_v30
  let main_c_11 : IVec S_ 1 := constantI S_ 1 1#1
  let main_v32 : IVec S_ 1 := (fun x v => Host.reduce IntOp.andi x v reducesTo_S1024x6x25x25_S_d0_1_2_3 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x128x25x25 .f32) (main_arg1 : FVec F S1024x128x25x25 .f32) (main_arg2 : FVec F S1024x25x25 .f32) (main_arg3 : FVec F S1024x25x25 .f32) (main_arg4 : FVec F S1024x25x25 .f32) (main_arg5 : FVec F S1024x6x25x25 .f32) (main_arg6 : FVec F S1024x6x25x25 .f32) (main_arg7 : FVec F S1024x6x25x25 .f32) (main_arg8 : FVec F S1024x25x25 .f32) (main_arg9 : FVec F S1024x25x25 .f32) (main_arg10 : IVec S1024 32) : IVec S_ 1 :=
  let main_v0 : FVec F S1024x128x25x25 .f32 := Host.absf main_arg0
  let main_cst : FVec F S_ .f32 := constant S_ .f32 0x7F800000#32
  let main_v1 : FVec F S1024x128x25x25 .f32 := broadcastInDim S1024x128x25x25 ![] bcast_S_S1024x128x25x25 main_cst
  let main_v2 : IVec S1024x128x25x25 1 := cmpf .olt main_v0 main_v1
  let main_c : IVec S_ 1 := constantI S_ 1 1#1
  let main_v3 : IVec S_ 1 := (fun x v => Host.reduce IntOp.andi x v reducesTo_S1024x128x25x25_S_d0_1_2_3 h_S_) main_v2 main_c
  let main_v4 : FVec F S1024x128x25x25 .f32 := Host.absf main_arg1
  let main_cst_0 : FVec F S_ .f32 := constant S_ .f32 0x7F800000#32
  let main_v5 : FVec F S1024x128x25x25 .f32 := broadcastInDim S1024x128x25x25 ![] bcast_S_S1024x128x25x25 main_cst_0
  let main_v6 : IVec S1024x128x25x25 1 := cmpf .olt main_v4 main_v5
  let main_c_1 : IVec S_ 1 := constantI S_ 1 1#1
  let main_v7 : IVec S_ 1 := (fun x v => Host.reduce IntOp.andi x v reducesTo_S1024x128x25x25_S_d0_1_2_3 h_S_) main_v6 main_c_1
  let main_v8 : IVec S_ 1 := andi main_v3 main_v7
  let main_v9 : FVec F S1024x25x25 .f32 := Host.absf main_arg2
  let main_cst_2 : FVec F S_ .f32 := constant S_ .f32 0x7F800000#32
  let main_v10 : FVec F S1024x25x25 .f32 := broadcastInDim S1024x25x25 ![] bcast_S_S1024x25x25 main_cst_2
  let main_v11 : IVec S1024x25x25 1 := cmpf .olt main_v9 main_v10
  let main_c_3 : IVec S_ 1 := constantI S_ 1 1#1
  let main_v12 : IVec S_ 1 := (fun x v => Host.reduce IntOp.andi x v reducesTo_S1024x25x25_S_d0_1_2 h_S_) main_v11 main_c_3
  let main_v13 : IVec S_ 1 := andi main_v8 main_v12
  let main_v14 : FVec F S1024x25x25 .f32 := Host.absf main_arg3
  let main_cst_4 : FVec F S_ .f32 := constant S_ .f32 0x7F800000#32
  let main_v15 : FVec F S1024x25x25 .f32 := broadcastInDim S1024x25x25 ![] bcast_S_S1024x25x25 main_cst_4
  let main_v16 : IVec S1024x25x25 1 := cmpf .olt main_v14 main_v15
  fn_part1 (F := F) main_arg4 main_arg5 main_arg6 main_arg7 main_arg8 main_arg9 main_arg10 main_v13 main_v16
-- ==== Kernel.lean ====
abbrev S1024x128x25x25 : Shape := ⟨4, ![1024, 128, 25, 25]⟩
abbrev S1024x25x25 : Shape := ⟨3, ![1024, 25, 25]⟩
abbrev S1024x6x25x25 : Shape := ⟨4, ![1024, 6, 25, 25]⟩
abbrev S1024 : Shape := ⟨1, ![1024]⟩
abbrev S1024x128x625 : Shape := ⟨3, ![1024, 128, 625]⟩
abbrev S1024x1x625 : Shape := ⟨3, ![1024, 1, 625]⟩
abbrev S1024x6x625 : Shape := ⟨3, ![1024, 6, 625]⟩
abbrev S1024x1 : Shape := ⟨2, ![1024, 1]⟩
abbrev S1024x161x625 : Shape := ⟨3, ![1024, 161, 625]⟩
abbrev S8x128x625 : Shape := ⟨3, ![8, 128, 625]⟩
abbrev S8x1x625 : Shape := ⟨3, ![8, 1, 625]⟩
abbrev S8x6x625 : Shape := ⟨3, ![8, 6, 625]⟩
abbrev S8x1 : Shape := ⟨2, ![8, 1]⟩
abbrev S8x161x625 : Shape := ⟨3, ![8, 161, 625]⟩
abbrev S8x1x1 : Shape := ⟨3, ![8, 1, 1]⟩
abbrev S8x5x625 : Shape := ⟨3, ![8, 5, 625]⟩
abbrev S8x2x625 : Shape := ⟨3, ![8, 2, 625]⟩
abbrev S8x4x625 : Shape := ⟨3, ![8, 4, 625]⟩
abbrev S8x3x625 : Shape := ⟨3, ![8, 3, 625]⟩
abbrev S8x625 : Shape := ⟨2, ![8, 625]⟩
abbrev S8x154x625 : Shape := ⟨3, ![8, 154, 625]⟩
abbrev S1024x161x25x25 : Shape := ⟨4, ![1024, 161, 25, 25]⟩

abbrev nBuf : Space → Nat
  | .hbm => 24
  | .vmem => 24
  | .smem => 0
  | _ => 0

abbrev bufTy : (tb : Table) → Fin (tcTables nBuf tb) → BufTy
  | .hbm, ⟨0, _⟩ => ⟨S1024x128x25x25, .f32⟩
  | .hbm, ⟨1, _⟩ => ⟨S1024x128x25x25, .f32⟩
  | .hbm, ⟨2, _⟩ => ⟨S1024x25x25, .f32⟩
  | .hbm, ⟨3, _⟩ => ⟨S1024x25x25, .f32⟩
  | .hbm, ⟨4, _⟩ => ⟨S1024x25x25, .f32⟩
  | .hbm, ⟨5, _⟩ => ⟨S1024x6x25x25, .f32⟩
  | .hbm, ⟨6, _⟩ => ⟨S1024x6x25x25, .f32⟩
  | .hbm, ⟨7, _⟩ => ⟨S1024x6x25x25, .f32⟩
  | .hbm, ⟨8, _⟩ => ⟨S1024x25x25, .f32⟩
  | .hbm, ⟨9, _⟩ => ⟨S1024x25x25, .f32⟩
  | .hbm, ⟨10, _⟩ => ⟨S1024, .i32⟩
  | .hbm, ⟨11, _⟩ => ⟨S1024x128x625, .f32⟩
  | .hbm, ⟨12, _⟩ => ⟨S1024x128x625, .f32⟩
  | .hbm, ⟨13, _⟩ => ⟨S1024x1x625, .f32⟩
  | .hbm, ⟨14, _⟩ => ⟨S1024x1x625, .f32⟩
  | .hbm, ⟨15, _⟩ => ⟨S1024x1x625, .f32⟩
  | .hbm, ⟨16, _⟩ => ⟨S1024x6x625, .f32⟩
  | .hbm, ⟨17, _⟩ => ⟨S1024x6x625, .f32⟩
  | .hbm, ⟨18, _⟩ => ⟨S1024x6x625, .f32⟩
  | .hbm, ⟨19, _⟩ => ⟨S1024x1x625, .f32⟩
  | .hbm, ⟨20, _⟩ => ⟨S1024x1x625, .f32⟩
  | .hbm, ⟨21, _⟩ => ⟨S1024x1, .i32⟩
  | .hbm, ⟨22, _⟩ => ⟨S1024x161x625, .f32⟩
  | .hbm, ⟨23, _⟩ => ⟨S1024x161x25x25, .f32⟩
  | .local _ .vmem, ⟨0, _⟩ => ⟨S8x128x625, .f32⟩
  | .local _ .vmem, ⟨1, _⟩ => ⟨S8x128x625, .f32⟩
  | .local _ .vmem, ⟨2, _⟩ => ⟨S8x128x625, .f32⟩
  | .local _ .vmem, ⟨3, _⟩ => ⟨S8x128x625, .f32⟩
  | .local _ .vmem, ⟨4, _⟩ => ⟨S8x1x625, .f32⟩
  | .local _ .vmem, ⟨5, _⟩ => ⟨S8x1x625, .f32⟩
  | .local _ .vmem, ⟨6, _⟩ => ⟨S8x1x625, .f32⟩
  | .local _ .vmem, ⟨7, _⟩ => ⟨S8x1x625, .f32⟩
  | .local _ .vmem, ⟨8, _⟩ => ⟨S8x1x625, .f32⟩
  | .local _ .vmem, ⟨9, _⟩ => ⟨S8x1x625, .f32⟩
  | .local _ .vmem, ⟨10, _⟩ => ⟨S8x6x625, .f32⟩
  | .local _ .vmem, ⟨11, _⟩ => ⟨S8x6x625, .f32⟩
  | .local _ .vmem, ⟨12, _⟩ => ⟨S8x6x625, .f32⟩
  | .local _ .vmem, ⟨13, _⟩ => ⟨S8x6x625, .f32⟩
  | .local _ .vmem, ⟨14, _⟩ => ⟨S8x6x625, .f32⟩
  | .local _ .vmem, ⟨15, _⟩ => ⟨S8x6x625, .f32⟩
  | .local _ .vmem, ⟨16, _⟩ => ⟨S8x1x625, .f32⟩
  | .local _ .vmem, ⟨17, _⟩ => ⟨S8x1x625, .f32⟩
  | .local _ .vmem, ⟨18, _⟩ => ⟨S8x1x625, .f32⟩
  | .local _ .vmem, ⟨19, _⟩ => ⟨S8x1x625, .f32⟩
  | .local _ .vmem, ⟨20, _⟩ => ⟨S8x1, .i32⟩
  | .local _ .vmem, ⟨21, _⟩ => ⟨S8x1, .i32⟩
  | .local _ .vmem, ⟨22, _⟩ => ⟨S8x161x625, .f32⟩
  | .local _ .vmem, ⟨23, _⟩ => ⟨S8x161x625, .f32⟩
  | _, _ => ⟨S1024x128x25x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x625 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x625 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x625 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x625 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x625 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x6x625 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x6x625 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x6x625 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x625 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x625 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x161x625 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1024x128x25x25_S1024x128x625 : S1024x128x25x25.ShapeCasts S1024x128x625
  shapeCasts_S1024x25x25_S1024x1x625 : S1024x25x25.ShapeCasts S1024x1x625
  shapeCasts_S1024x6x25x25_S1024x6x625 : S1024x6x25x25.ShapeCasts S1024x6x625
  shapeCasts_S1024_S1024x1 : S1024.ShapeCasts S1024x1
  inb_S8x128x625_S8x128x625_0_0_0 : ∀ a, (![0, 0, 0] : Fin 3 → Nat) a + S8x128x625.size a ≤ S8x128x625.size a
  h_S8x128x625 : 0 < S8x128x625.numel
  shapeCasts_S8x128x625_S8x128x625 : S8x128x625.ShapeCasts S8x128x625
  inb_S8x1x625_S8x1x625_0_0_0 : ∀ a, (![0, 0, 0] : Fin 3 → Nat) a + S8x1x625.size a ≤ S8x1x625.size a
  h_S8x1x625 : 0 < S8x1x625.numel
  shapeCasts_S8x1x625_S8x1x625 : S8x1x625.ShapeCasts S8x1x625
  inb_S8x6x625_S8x6x625_0_0_0 : ∀ a, (![0, 0, 0] : Fin 3 → Nat) a + S8x6x625.size a ≤ S8x6x625.size a
  h_S8x6x625 : 0 < S8x6x625.numel
  shapeCasts_S8x6x625_S8x6x625 : S8x6x625.ShapeCasts S8x6x625
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1_S8x1x1 : S8x1.ShapeCasts S8x1x1
  natLt_1_32 : 1 < 32
  broadcasts_S8x1x1_S8x6x625 : S8x1x1.Broadcasts S8x6x625
  slices_S8x6x625_o0_5_0_S8x1x625 : S8x6x625.Slices ![0, 5, 0] S8x1x625
  slices_S8x6x625_o0_0_0_S8x5x625 : S8x6x625.Slices ![0, 0, 0] S8x5x625
  concatenates_S8x1x625_S8x5x625_S8x6x625_d1 : Shape.Concatenates [S8x1x625, S8x5x625] S8x6x625 1
  slices_S8x6x625_o0_4_0_S8x2x625 : S8x6x625.Slices ![0, 4, 0] S8x2x625
  slices_S8x6x625_o0_0_0_S8x4x625 : S8x6x625.Slices ![0, 0, 0] S8x4x625
  concatenates_S8x2x625_S8x4x625_S8x6x625_d1 : Shape.Concatenates [S8x2x625, S8x4x625] S8x6x625 1
  slices_S8x6x625_o0_3_0_S8x3x625 : S8x6x625.Slices ![0, 3, 0] S8x3x625
  slices_S8x6x625_o0_0_0_S8x3x625 : S8x6x625.Slices ![0, 0, 0] S8x3x625
  concatenates_S8x3x625_S8x3x625_S8x6x625_d1 : Shape.Concatenates [S8x3x625, S8x3x625] S8x6x625 1
  slices_S8x6x625_o0_2_0_S8x4x625 : S8x6x625.Slices ![0, 2, 0] S8x4x625
  slices_S8x6x625_o0_0_0_S8x2x625 : S8x6x625.Slices ![0, 0, 0] S8x2x625
  concatenates_S8x4x625_S8x2x625_S8x6x625_d1 : Shape.Concatenates [S8x4x625, S8x2x625] S8x6x625 1
  slices_S8x6x625_o0_1_0_S8x5x625 : S8x6x625.Slices ![0, 1, 0] S8x5x625
  slices_S8x6x625_o0_0_0_S8x1x625 : S8x6x625.Slices ![0, 0, 0] S8x1x625
  concatenates_S8x5x625_S8x1x625_S8x6x625_d1 : Shape.Concatenates [S8x5x625, S8x1x625] S8x6x625 1
  reduces_S8x6x625_S8x625 : S8x6x625.Reduces [1] S8x625
  shapeCasts_S8x625_S8x1x625 : S8x625.ShapeCasts S8x1x625
  concatenates_S8x128x625_S8x1x625_S8x1x625_S8x1x625_S8x6x625_S8x1x625_S8x1x625_S8x1x625_S8x6x625_S8x6x625_S8x1x625_S8x1x625_S8x154x625_d1 : Shape.Concatenates [S8x128x625, S8x1x625, S8x1x625, S8x1x625, S8x6x625, S8x1x625, S8x1x625, S8x1x625, S8x6x625, S8x6x625, S8x1x625, S8x1x625] S8x154x625 1
  broadcasts_S8x1x625_S8x154x625 : S8x1x625.Broadcasts S8x154x625
  shapeCasts_S8x1x1_S8x1x1 : S8x1x1.ShapeCasts S8x1x1
  broadcasts_S8x1x1_S8x1x625 : S8x1x1.Broadcasts S8x1x625
  concatenates_S8x1x625_S8x1x625_S8x1x625_S8x1x625_S8x1x625_S8x1x625_S8x6x625_d1 : Shape.Concatenates [S8x1x625, S8x1x625, S8x1x625, S8x1x625, S8x1x625, S8x1x625] S8x6x625 1
  concatenates_S8x154x625_S8x1x625_S8x6x625_S8x161x625_d1 : Shape.Concatenates [S8x154x625, S8x1x625, S8x6x625] S8x161x625 1
  inb_S8x161x625_S8x161x625_0_0_0 : ∀ a, (![0, 0, 0] : Fin 3 → Nat) a + S8x161x625.size a ≤ S8x161x625.size a
  h_S8x161x625 : 0 < S8x161x625.numel
  shapeCasts_S1024x161x625_S1024x161x25x25 : S1024x161x625.ShapeCasts S1024x161x25x25
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x625.size a ≤ S1024x128x625.size a
  hwx0_0 : ∀ i : grid0.Coords, EltTy.bits .f32 = 32 ∨ (Rect.block (s := S1024x128x625) S8x128x625.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x625.size a ≤ S1024x128x625.size a
  hwx0_1 : ∀ i : grid0.Coords, EltTy.bits .f32 = 32 ∨ (Rect.block (s := S1024x128x625) S8x128x625.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x625.size a ≤ S1024x1x625.size a
  hwx0_2 : ∀ i : grid0.Coords, EltTy.bits .f32 = 32 ∨ (Rect.block (s := S1024x1x625) S8x1x625.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x625.size a ≤ S1024x1x625.size a
  hwx0_3 : ∀ i : grid0.Coords, EltTy.bits .f32 = 32 ∨ (Rect.block (s := S1024x1x625) S8x1x625.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x625.size a ≤ S1024x1x625.size a
  hwx0_4 : ∀ i : grid0.Coords, EltTy.bits .f32 = 32 ∨ (Rect.block (s := S1024x1x625) S8x1x625.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x6x625.size a ≤ S1024x6x625.size a
  hwx0_5 : ∀ i : grid0.Coords, EltTy.bits .f32 = 32 ∨ (Rect.block (s := S1024x6x625) S8x6x625.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x6x625.size a ≤ S1024x6x625.size a
  hwx0_6 : ∀ i : grid0.Coords, EltTy.bits .f32 = 32 ∨ (Rect.block (s := S1024x6x625) S8x6x625.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x6x625.size a ≤ S1024x6x625.size a
  hwx0_7 : ∀ i : grid0.Coords, EltTy.bits .f32 = 32 ∨ (Rect.block (s := S1024x6x625) S8x6x625.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x1x625.size a ≤ S1024x1x625.size a
  hwx0_8 : ∀ i : grid0.Coords, EltTy.bits .f32 = 32 ∨ (Rect.block (s := S1024x1x625) S8x1x625.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1x625.size a ≤ S1024x1x625.size a
  hwx0_9 : ∀ i : grid0.Coords, EltTy.bits .f32 = 32 ∨ (Rect.block (s := S1024x1x625) S8x1x625.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1.size a ≤ S1024x1.size a
  hwx0_10 : ∀ i : grid0.Coords, EltTy.bits .i32 = 32 ∨ (Rect.block (s := S1024x1) S8x1.size (cc0_transform_10 i) (hinb0_10 i)).WholeWords (EltTy.packing .i32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x161x625.size a ≤ S1024x161x625.size a
  hwx0_11 : ∀ i : grid0.Coords, EltTy.bits .f32 = 32 ∨ (Rect.block (s := S1024x161x625) S8x161x625.size (cc0_transform_11 i) (hinb0_11 i)).WholeWords (EltTy.packing .f32)

variable [Facts₀]

abbrev win0_0 : Pipeline.Window sig grid0 :=
  Pipeline.Window.ofSpec (Memref.whole main_v0) S8x128x625.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128x625.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1x625.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1x625.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x1x625.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x6x625.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S8x6x625.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S8x6x625.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S8x1x625.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S8x1x625.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10) S8x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11) S8x161x625.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x128x25x25 : Shape := ⟨4, ![1024, 128, 25, 25]⟩
abbrev S1024x25x25 : Shape := ⟨3, ![1024, 25, 25]⟩
abbrev S1024x6x25x25 : Shape := ⟨4, ![1024, 6, 25, 25]⟩
abbrev S1024 : Shape := ⟨1, ![1024]⟩
abbrev S1024x1x25x25 : Shape := ⟨4, ![1024, 1, 25, 25]⟩
abbrev S_ : Shape := ⟨0, ![]⟩
abbrev S6 : Shape := ⟨1, ![6]⟩
abbrev S1x6 : Shape := ⟨2, ![1, 6]⟩
abbrev S1024x1 : Shape := ⟨2, ![1024, 1]⟩
abbrev S1024x6 : Shape := ⟨2, ![1024, 6]⟩
abbrev S1024x6x1x1 : Shape := ⟨4, ![1024, 6, 1, 1]⟩
abbrev S1024x6x1 : Shape := ⟨3, ![1024, 6, 1]⟩
abbrev S1 : Shape := ⟨1, ![1]⟩
abbrev S1x1x1 : Shape := ⟨3, ![1, 1, 1]⟩
abbrev S1024x140x25x25 : Shape := ⟨4, ![1024, 140, 25, 25]⟩
abbrev S1024x154x25x25 : Shape := ⟨4, ![1024, 154, 25, 25]⟩
abbrev S1024x161x25x25 : Shape := ⟨4, ![1024, 161, 25, 25]⟩

abbrev nBuf : Space → Nat
  | .hbm => 203
  | .vmem => 0
  | .smem => 0
  | _ => 0

abbrev hbmTy0_0 (i : Nat) : BufTy := match i % 128 with
  | 0 => ⟨S1024x128x25x25, .f32⟩
  | 1 => ⟨S1024x128x25x25, .f32⟩
  | 2 => ⟨S1024x25x25, .f32⟩
  | 3 => ⟨S1024x25x25, .f32⟩
  | 4 => ⟨S1024x25x25, .f32⟩
  | 5 => ⟨S1024x6x25x25, .f32⟩
  | 6 => ⟨S1024x6x25x25, .f32⟩
  | 7 => ⟨S1024x6x25x25, .f32⟩
  | 8 => ⟨S1024x25x25, .f32⟩
  | 9 => ⟨S1024x25x25, .f32⟩
  | 10 => ⟨S1024, .i32⟩
  | 11 => ⟨S1024x128x25x25, .f32⟩
  | 12 => ⟨S1024x1x25x25, .f32⟩
  | 13 => ⟨S_, .f32⟩
  | 14 => ⟨S1024x6x25x25, .f32⟩
  | 15 => ⟨S1024x6x25x25, .f32⟩
  | 16 => ⟨S_, .f32⟩
  | 17 => ⟨S1024x6x25x25, .f32⟩
  | 18 => ⟨S1024x6x25x25, .f32⟩
  | 19 => ⟨S6, .i32⟩
  | 20 => ⟨S1x6, .i32⟩
  | 21 => ⟨S1024x1, .i32⟩
  | 22 => ⟨S1024x6, .i32⟩
  | 23 => ⟨S1024x6, .i32⟩
  | 24 => ⟨S1024x6, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S1024x6, .i32⟩
  | 32 => ⟨S1024x6, .i32⟩
  | 33 => ⟨S_, .i32⟩
  | 34 => ⟨S1024x6, .i32⟩
  | 35 => ⟨S1024x6, .i1⟩
  | 36 => ⟨S_, .i32⟩
  | 37 => ⟨S1024x6, .i32⟩
  | 38 => ⟨S1024x6, .i1⟩
  | 39 => ⟨S_, .i32⟩
  | 40 => ⟨S_, .i1⟩
  | 41 => ⟨S1024x6, .i1⟩
  | 42 => ⟨S1024x6, .i1⟩
  | 43 => ⟨S1024x6, .i1⟩
  | 44 => ⟨S1024x6, .i32⟩
  | 45 => ⟨S1024x6, .i32⟩
  | 46 => ⟨S1024x6, .i32⟩
  | 47 => ⟨S1024x6x1x1, .i32⟩
  | 48 => ⟨S_, .i32⟩
  | 49 => ⟨S1024x6x1x1, .i32⟩
  | 50 => ⟨S1024x6x1x1, .i1⟩
  | 51 => ⟨S_, .i32⟩
  | 52 => ⟨S1024x6x1x1, .i32⟩
  | 53 => ⟨S1024x6x1x1, .i32⟩
  | 54 => ⟨S1024x6x1x1, .i32⟩
  | 55 => ⟨S1024x6x1, .i32⟩
  | 56 => ⟨S1, .i32⟩
  | 57 => ⟨S_, .i32⟩
  | 58 => ⟨S1024x6x1, .i32⟩
  | 59 => ⟨S1024x6x1, .i1⟩
  | 60 => ⟨S1x1x1, .i32⟩
  | 61 => ⟨S1024x6x1, .i32⟩
  | 62 => ⟨S1024x6x1, .i1⟩
  | 63 => ⟨S1024x6x1, .i1⟩
  | 64 => ⟨S_, .i1⟩
  | 65 => ⟨S1024x6, .i1⟩
  | 66 => ⟨S1024x6x25x25, .f32⟩
  | 67 => ⟨S1024x6x25x25, .i1⟩
  | 68 => ⟨S_, .f32⟩
  | 69 => ⟨S1024x6x25x25, .f32⟩
  | 70 => ⟨S1024x6x25x25, .f32⟩
  | 71 => ⟨S6, .i32⟩
  | 72 => ⟨S1x6, .i32⟩
  | 73 => ⟨S1024x1, .i32⟩
  | 74 => ⟨S1024x6, .i32⟩
  | 75 => ⟨S1024x6, .i32⟩
  | 76 => ⟨S1024x6, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S1024x6, .i32⟩
  | 84 => ⟨S1024x6, .i32⟩
  | 85 => ⟨S_, .i32⟩
  | 86 => ⟨S1024x6, .i32⟩
  | 87 => ⟨S1024x6, .i1⟩
  | 88 => ⟨S_, .i32⟩
  | 89 => ⟨S1024x6, .i32⟩
  | 90 => ⟨S1024x6, .i1⟩
  | 91 => ⟨S_, .i32⟩
  | 92 => ⟨S_, .i1⟩
  | 93 => ⟨S1024x6, .i1⟩
  | 94 => ⟨S1024x6, .i1⟩
  | 95 => ⟨S1024x6, .i1⟩
  | 96 => ⟨S1024x6, .i32⟩
  | 97 => ⟨S1024x6, .i32⟩
  | 98 => ⟨S1024x6, .i32⟩
  | 99 => ⟨S1024x6x1x1, .i32⟩
  | 100 => ⟨S_, .i32⟩
  | 101 => ⟨S1024x6x1x1, .i32⟩
  | 102 => ⟨S1024x6x1x1, .i1⟩
  | 103 => ⟨S_, .i32⟩
  | 104 => ⟨S1024x6x1x1, .i32⟩
  | 105 => ⟨S1024x6x1x1, .i32⟩
  | 106 => ⟨S1024x6x1x1, .i32⟩
  | 107 => ⟨S1024x6x1, .i32⟩
  | 108 => ⟨S1, .i32⟩
  | 109 => ⟨S_, .i32⟩
  | 110 => ⟨S1024x6x1, .i32⟩
  | 111 => ⟨S1024x6x1, .i1⟩
  | 112 => ⟨S1x1x1, .i32⟩
  | 113 => ⟨S1024x6x1, .i32⟩
  | 114 => ⟨S1024x6x1, .i1⟩
  | 115 => ⟨S1024x6x1, .i1⟩
  | 116 => ⟨S_, .i1⟩
  | 117 => ⟨S1024x6, .i1⟩
  | 118 => ⟨S1024x6x25x25, .f32⟩
  | 119 => ⟨S1024x6x25x25, .i1⟩
  | 120 => ⟨S_, .f32⟩
  | 121 => ⟨S1024x6x25x25, .f32⟩
  | 122 => ⟨S1024x6x25x25, .f32⟩
  | 123 => ⟨S6, .i32⟩
  | 124 => ⟨S1x6, .i32⟩
  | 125 => ⟨S1024x1, .i32⟩
  | 126 => ⟨S1024x6, .i32⟩
  | 127 => ⟨S1024x6, .i32⟩
  | _ => ⟨S1024x128x25x25, .f32⟩

abbrev hbmTy0_1 (i : Nat) : BufTy := match i % 128 with
  | 0 => ⟨S1024x6, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S1024x6, .i32⟩
  | 8 => ⟨S1024x6, .i32⟩
  | 9 => ⟨S_, .i32⟩
  | 10 => ⟨S1024x6, .i32⟩
  | 11 => ⟨S1024x6, .i1⟩
  | 12 => ⟨S_, .i32⟩
  | 13 => ⟨S1024x6, .i32⟩
  | 14 => ⟨S1024x6, .i1⟩
  | 15 => ⟨S_, .i32⟩
  | 16 => ⟨S_, .i1⟩
  | 17 => ⟨S1024x6, .i1⟩
  | 18 => ⟨S1024x6, .i1⟩
  | 19 => ⟨S1024x6, .i1⟩
  | 20 => ⟨S1024x6, .i32⟩
  | 21 => ⟨S1024x6, .i32⟩
  | 22 => ⟨S1024x6, .i32⟩
  | 23 => ⟨S1024x6x1x1, .i32⟩
  | 24 => ⟨S_, .i32⟩
  | 25 => ⟨S1024x6x1x1, .i32⟩
  | 26 => ⟨S1024x6x1x1, .i1⟩
  | 27 => ⟨S_, .i32⟩
  | 28 => ⟨S1024x6x1x1, .i32⟩
  | 29 => ⟨S1024x6x1x1, .i32⟩
  | 30 => ⟨S1024x6x1x1, .i32⟩
  | 31 => ⟨S1024x6x1, .i32⟩
  | 32 => ⟨S1, .i32⟩
  | 33 => ⟨S_, .i32⟩
  | 34 => ⟨S1024x6x1, .i32⟩
  | 35 => ⟨S1024x6x1, .i1⟩
  | 36 => ⟨S1x1x1, .i32⟩
  | 37 => ⟨S1024x6x1, .i32⟩
  | 38 => ⟨S1024x6x1, .i1⟩
  | 39 => ⟨S1024x6x1, .i1⟩
  | 40 => ⟨S_, .i1⟩
  | 41 => ⟨S1024x6, .i1⟩
  | 42 => ⟨S1024x6x25x25, .f32⟩
  | 43 => ⟨S1024x6x25x25, .i1⟩
  | 44 => ⟨S_, .f32⟩
  | 45 => ⟨S1024x6x25x25, .f32⟩
  | 46 => ⟨S1024x6x25x25, .f32⟩
  | 47 => ⟨S_, .f32⟩
  | 48 => ⟨S1024x25x25, .f32⟩
  | 49 => ⟨S1024x1x25x25, .f32⟩
  | 50 => ⟨S1024x1x25x25, .f32⟩
  | 51 => ⟨S1024x1x25x25, .f32⟩
  | 52 => ⟨S1024x1x25x25, .f32⟩
  | 53 => ⟨S1024x1x25x25, .f32⟩
  | 54 => ⟨S1024x140x25x25, .f32⟩
  | 55 => ⟨S_, .f32⟩
  | 56 => ⟨S1024x25x25, .f32⟩
  | 57 => ⟨S1024x1x25x25, .f32⟩
  | 58 => ⟨S_, .f32⟩
  | 59 => ⟨S1024x25x25, .f32⟩
  | 60 => ⟨S1024x1x25x25, .f32⟩
  | 61 => ⟨S1024x154x25x25, .f32⟩
  | 62 => ⟨S1024x154x25x25, .f32⟩
  | 63 => ⟨S1024x154x25x25, .f32⟩
  | 64 => ⟨S_, .f32⟩
  | 65 => ⟨S1024x1x25x25, .f32⟩
  | 66 => ⟨S1024x1, .i32⟩
  | 67 => ⟨S1x6, .i32⟩
  | 68 => ⟨S1024x6, .i32⟩
  | 69 => ⟨S1024x6, .i32⟩
  | 70 => ⟨S1024x6, .i1⟩
  | 71 => ⟨S1024x6, .f32⟩
  | 72 => ⟨S1024x6x1x1, .f32⟩
  | 73 => ⟨S1024x6x25x25, .f32⟩
  | 74 => ⟨S1024x161x25x25, .f32⟩
  | _ => ⟨S1024x128x25x25, .f32⟩

abbrev hbmTy (i : Nat) : BufTy := match i / 128 with
  | 0 => hbmTy0_0 i
  | 1 => hbmTy0_1 i
  | _ => ⟨S1024x128x25x25, .f32⟩

abbrev bufTy : (tb : Table) → Fin (tcTables nBuf tb) → BufTy
  | .hbm, ⟨i, _⟩ => hbmTy i
  | _, _ => ⟨S1024x128x25x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v12 : Ref sig .tc := ⟨.hbm, 46, rfl⟩
abbrev main_v13 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_c_1 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_1 : Ref sig .tc := ⟨.hbm, 85, rfl⟩
abbrev main_call2_v5 : Ref sig .tc := ⟨.hbm, 86, rfl⟩
abbrev main_call2_v6 : Ref sig .tc := ⟨.hbm, 87, rfl⟩
abbrev main_call2_c_2 : Ref sig .tc := ⟨.hbm, 88, rfl⟩
abbrev main_call2_v7 : Ref sig .tc := ⟨.hbm, 89, rfl⟩
abbrev main_call2_v8 : Ref sig .tc := ⟨.hbm, 90, rfl⟩
abbrev main_call2_c_3 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_v21 : Ref sig .tc := ⟨.hbm, 98, rfl⟩
abbrev main_v22 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_c_2 : Ref sig .tc := ⟨.hbm, 129, rfl⟩
abbrev main_call4_v0 : Ref sig .tc := ⟨.hbm, 130, rfl⟩
abbrev main_call4_c : Ref sig .tc := ⟨.hbm, 131, rfl⟩
abbrev main_call4_v1 : Ref sig .tc := ⟨.hbm, 132, rfl⟩
abbrev main_call4_c_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_c_1 : Ref sig .tc := ⟨.hbm, 137, rfl⟩
abbrev main_call4_v5 : Ref sig .tc := ⟨.hbm, 138, rfl⟩
abbrev main_call4_v6 : Ref sig .tc := ⟨.hbm, 139, rfl⟩
abbrev main_call4_c_2 : Ref sig .tc := ⟨.hbm, 140, rfl⟩
abbrev main_call4_v7 : Ref sig .tc := ⟨.hbm, 141, rfl⟩
abbrev main_call4_v8 : Ref sig .tc := ⟨.hbm, 142, rfl⟩
abbrev main_call4_c_3 : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_v12 : Ref sig .tc := ⟨.hbm, 147, rfl⟩
abbrev main_call4_v13 : Ref sig .tc := ⟨.hbm, 148, rfl⟩
abbrev main_call4_v14 : Ref sig .tc := ⟨.hbm, 149, rfl⟩
abbrev main_v30 : Ref sig .tc := ⟨.hbm, 150, rfl⟩
abbrev main_v31 : Ref sig .tc := ⟨.hbm, 151, rfl⟩
abbrev main_call5_c : Ref sig .tc := ⟨.hbm, 152, rfl⟩
abbrev main_call5_v0 : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_v5 : Ref sig .tc := ⟨.hbm, 159, rfl⟩
abbrev main_call5_c_1 : Ref sig .tc := ⟨.hbm, 160, rfl⟩
abbrev main_call5_c_2 : Ref sig .tc := ⟨.hbm, 161, rfl⟩
abbrev main_call5_v6 : Ref sig .tc := ⟨.hbm, 162, rfl⟩
abbrev main_call5_v7 : Ref sig .tc := ⟨.hbm, 163, rfl⟩
abbrev main_call5_v8 : Ref sig .tc := ⟨.hbm, 164, rfl⟩
abbrev main_call5_v9 : Ref sig .tc := ⟨.hbm, 165, rfl⟩
abbrev main_call5_v10 : Ref sig .tc := ⟨.hbm, 166, rfl⟩
abbrev main_call5_v11 : Ref sig .tc := ⟨.hbm, 167, rfl⟩
abbrev main_call5_c_3 : Ref sig .tc := ⟨.hbm, 168, rfl⟩
abbrev main_call5_v12 : Ref sig .tc := ⟨.hbm, 169, rfl⟩
abbrev main_call5_v13 : Ref sig .tc := ⟨.hbm, 170, rfl⟩
abbrev main_call5_v14 : Ref sig .tc := ⟨.hbm, 171, rfl⟩
abbrev main_call5_cst : Ref sig .tc := ⟨.hbm, 172, rfl⟩
abbrev main_call5_v15 : Ref sig .tc := ⟨.hbm, 173, rfl⟩
abbrev main_v32 : Ref sig .tc := ⟨.hbm, 174, rfl⟩
abbrev main_cst_3 : Ref sig .tc := ⟨.hbm, 175, rfl⟩
abbrev main_v33 : Ref sig .tc := ⟨.hbm, 176, rfl⟩
abbrev main_v34 : Ref sig .tc := ⟨.hbm, 177, rfl⟩
abbrev main_v35 : Ref sig .tc := ⟨.hbm, 178, rfl⟩
abbrev main_v36 : Ref sig .tc := ⟨.hbm, 179, rfl⟩
abbrev main_v37 : Ref sig .tc := ⟨.hbm, 180, rfl⟩
abbrev main_v38 : Ref sig .tc := ⟨.hbm, 181, rfl⟩
abbrev main_v39 : Ref sig .tc := ⟨.hbm, 182, rfl⟩
abbrev main_cst_4 : Ref sig .tc := ⟨.hbm, 183, rfl⟩
abbrev main_v40 : Ref sig .tc := ⟨.hbm, 184, rfl⟩
abbrev main_v41 : Ref sig .tc := ⟨.hbm, 185, rfl⟩
abbrev main_cst_5 : Ref sig .tc := ⟨.hbm, 186, rfl⟩
abbrev main_v42 : Ref sig .tc := ⟨.hbm, 187, rfl⟩
abbrev main_v43 : Ref sig .tc := ⟨.hbm, 188, rfl⟩
abbrev main_v44 : Ref sig .tc := ⟨.hbm, 189, rfl⟩
abbrev main_v45 : Ref sig .tc := ⟨.hbm, 190, rfl⟩
abbrev main_v46 : Ref sig .tc := ⟨.hbm, 191, rfl⟩
abbrev main_cst_6 : Ref sig .tc := ⟨.hbm, 192, rfl⟩
abbrev main_v47 : Ref sig .tc := ⟨.hbm, 193, rfl⟩
abbrev main_call6_v0 : Ref sig .tc := ⟨.hbm, 194, rfl⟩
abbrev main_call6_v1 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_v48 : Ref sig .tc := ⟨.hbm, 199, rfl⟩
abbrev main_v49 : Ref sig .tc := ⟨.hbm, 200, rfl⟩
abbrev main_v50 : Ref sig .tc := ⟨.hbm, 201, rfl⟩
abbrev main_v51 : Ref sig .tc := ⟨.hbm, 202, rfl⟩

abbrev nD : Nat := 1
abbrev τ : Topo := Topo.v7x

variable {F : FTy → Type} [FloatOps F]

class Facts₀ : Prop where
  bcast_S1024x25x25_S1024x1x25x25_0_2_3 : S1024x25x25.BroadcastsInDim S1024x1x25x25 (![0, 2, 3] : Fin 3 → Fin S1024x1x25x25.rank)
  bcast_S_S1024x6x25x25 : S_.BroadcastsInDim S1024x6x25x25 (![] : Fin 0 → Fin S1024x6x25x25.rank)
  bcast_S6_S1x6_1 : S6.BroadcastsInDim S1x6 (![1] : Fin 1 → Fin S1x6.rank)
  bcast_S1024_S1024x1_0 : S1024.BroadcastsInDim S1024x1 (![0] : Fin 1 → Fin S1024x1.rank)
  bcast_S1x6_S1024x6_0_1 : S1x6.BroadcastsInDim S1024x6 (![0, 1] : Fin 2 → Fin S1024x6.rank)
  bcast_S1024x1_S1024x6_0_1 : S1024x1.BroadcastsInDim S1024x6 (![0, 1] : Fin 2 → Fin S1024x6.rank)
  bcast_S_S1024x6 : S_.BroadcastsInDim S1024x6 (![] : Fin 0 → Fin S1024x6.rank)
  bcast_S1024x6_S1024x6x1x1_0_1 : S1024x6.BroadcastsInDim S1024x6x1x1 (![0, 1] : Fin 2 → Fin S1024x6x1x1.rank)
  bcast_S_S1024x6x1x1 : S_.BroadcastsInDim S1024x6x1x1 (![] : Fin 0 → Fin S1024x6x1x1.rank)
  shapeCasts_S1024x6x1x1_S1024x6x1 : S1024x6x1x1.ShapeCasts S1024x6x1
  bcast_S_S1024x6x1 : S_.BroadcastsInDim S1024x6x1 (![] : Fin 0 → Fin S1024x6x1.rank)
  bcast_S1_S1x1x1_2 : S1.BroadcastsInDim S1x1x1 (![2] : Fin 1 → Fin S1x1x1.rank)
  bcast_S1x1x1_S1024x6x1_0_1_2 : S1x1x1.BroadcastsInDim S1024x6x1 (![0, 1, 2] : Fin 3 → Fin S1024x6x1.rank)
  reducesTo_S1024x6x1_S1024x6_d2 : S1024x6x1.ReducesTo [2] S1024x6
  h_S_ : 0 < S_.numel
  bcast_S1024x6_S1024x6x25x25_0_1 : S1024x6.BroadcastsInDim S1024x6x25x25 (![0, 1] : Fin 2 → Fin S1024x6x25x25.rank)
  reducesTo_S1024x6x25x25_S1024x25x25_d1 : S1024x6x25x25.ReducesTo [1] S1024x25x25
  concatenates_S1024x128x25x25_S1024x1x25x25_S1024x1x25x25_S1024x1x25x25_S1024x6x25x25_S1024x1x25x25_S1024x1x25x25_S1024x1x25x25_S1024x140x25x25_d1 : Shape.Concatenates [S1024x128x25x25, S1024x1x25x25, S1024x1x25x25, S1024x1x25x25, S1024x6x25x25, S1024x1x25x25, S1024x1x25x25, S1024x1x25x25] S1024x140x25x25 1
  concatenates_S1024x140x25x25_S1024x6x25x25_S1024x6x25x25_S1024x1x25x25_S1024x1x25x25_S1024x154x25x25_d1 : Shape.Concatenates [S1024x140x25x25, S1024x6x25x25, S1024x6x25x25, S1024x1x25x25, S1024x1x25x25] S1024x154x25x25 1
  bcast_S1024x1x25x25_S1024x154x25x25_0_1_2_3 : S1024x1x25x25.BroadcastsInDim S1024x154x25x25 (![0, 1, 2, 3] : Fin 4 → Fin S1024x154x25x25.rank)
  bcast_S_S1024x1x25x25 : S_.BroadcastsInDim S1024x1x25x25 (![] : Fin 0 → Fin S1024x1x25x25.rank)
  bcast_S1024x6x1x1_S1024x6x25x25_0_1_2_3 : S1024x6x1x1.BroadcastsInDim S1024x6x25x25 (![0, 1, 2, 3] : Fin 4 → Fin S1024x6x25x25.rank)
  concatenates_S1024x154x25x25_S1024x1x25x25_S1024x6x25x25_S1024x161x25x25_d1 : Shape.Concatenates [S1024x154x25x25, S1024x1x25x25, S1024x6x25x25] S1024x161x25x25 1
  gather_S1024x6x25x25_S1024x6x1_S1024x6x25x25_23_1_0_0_1_2_112525_wf : GatherDims.WF S1024x6x25x25 S1024x6x1 S1024x6x25x25 [2, 3] [1] [0] [1] [0] 2 ![1, 1, 25, 25]

variable [Facts₀]

def gather_S1024x6x25x25_S1024x6x1_S1024x6x25x25_23_1_0_0_1_2_112525 : GatherDims S1024x6x25x25 S1024x6x1 S1024x6x25x25 where
  offsetDims := [2, 3]
  collapsedSliceDims := [1]
  operandBatchingDims := [0]
  startIndicesBatchingDims := [0]
  startIndexMap := [1]
  indexVectorDim := 2
  sliceSizes := ![1, 1, 25, 25]
  wf := gather_S1024x6x25x25_S1024x6x1_S1024x6x25x25_23_1_0_0_1_2_112525_wf

class Facts : Prop extends Facts₀ where

variable [Facts]
-- ==== Proof.Spec.lean ====
/-
  What both programs compute at ONE output element, as a function of the few input elements it depends on.
  Fix a batch entry and a grid cell. The 161 output channels are: the 128 summed embedding channels, the obstacle
  and the two observability maps, the six half-scaled visitation channels rotated cyclically by the batch entry's
  rotation `r` (channel `j` reads channel `(j - r) mod 6`), their unrotated sum, the two location maps, the six
  half-scaled and the six plain target channels rotated the same way, the sums of those two rotated groups — all
  154 multiplied by the memory-observability value — then the constant one and the six indicator planes of `r`.
-/
import Idealize.ShloMosaic.PureOps.Ideal

noncomputable section

namespace Cert.Spec

open Idealize.ShloMosaic

/-- One half, as the float word both programs carry. -/
def half : EReal := Ideal.ofBits .f32 0x3F000000#32

/-- One, as the float word both programs carry. -/
def one : EReal := Ideal.ofBits .f32 0x3F800000#32

/-- The rotation a 32-bit word in `[0, 6)` denotes (any other word is folded into the range). -/
def rotOf (w : BitVec 32) : Fin 6 := ⟨w.toNat % 6, Nat.mod_lt _ (by decide)⟩

/-- Six channels rotated cyclically by `r`: channel `j` of the result is channel `(j - r) mod 6`. -/
def rolled (x : Fin 6 → EReal) (r j : Fin 6) : EReal := x ⟨(j.val + 6 - r.val) % 6, Nat.mod_lt _ (by decide)⟩

/-- The output element of channel `ch` from the input elements at the same batch entry and grid cell. -/
def outVal (es ed : Fin 128 → EReal) (om oc omem ll fl : EReal) (pv apt pt : Fin 6 → EReal) (r : Fin 6)
    (ch : Fin 161) : EReal :=
  if h : ch.val < 128 then (es ⟨ch.val, h⟩ + ed ⟨ch.val, h⟩) * omem
  else if ch.val = 128 then om * omem
  else if ch.val = 129 then oc * omem
  else if ch.val = 130 then omem * omem
  else if ch.val < 137 then rolled (fun j => pv j * half) r ⟨(ch.val - 131) % 6, Nat.mod_lt _ (by decide)⟩ * omem
  else if ch.val = 137 then (∑ j : Fin 6, pv j) * omem
  else if ch.val = 138 then ll * omem
  else if ch.val = 139 then fl * omem
  else if ch.val < 146 then rolled (fun j => apt j * half) r ⟨(ch.val - 140) % 6, Nat.mod_lt _ (by decide)⟩ * omem
  else if ch.val < 152 then rolled pt r ⟨(ch.val - 146) % 6, Nat.mod_lt _ (by decide)⟩ * omem
  else if ch.val = 152 then (∑ j : Fin 6, rolled (fun j => apt j * half) r j) * omem
  else if ch.val = 153 then (∑ j : Fin 6, rolled pt r j) * omem
  else if ch.val = 154 then one
  else if (ch.val - 155) % 6 = r.val then 1 else 0

end Cert.Spec

end
-- ==== Proof.KerShift.lean ====
/-
  The kernel's egocentric shift of a six-channel block. The body has no gather: it forms the six cyclic rotations
  of the block by static slicing and concatenation, multiplies rotation `s` by the indicator of "this row's rotation
  word equals `s`", and adds the six products to zero. With the row's word in `[0, 6)` exactly one indicator is one,
  and on the extended reals `0 * x = 0` for every `x`, so the sum is the block rotated by the row's own rotation.
-/
import proofs.«405264_j2783138808252_1_alg».proof.Proof.Gen.KernelIdeal
import proofs.«405264_j2783138808252_1_alg».proof.Proof.Spec
import Idealize.ShloMosaic.Lib.ValueIdx
import Idealize.ShloMosaic.Lib.Pipeline.Value
import Idealize.ShloMosaic.PureOps.Ideal.Laws

noncomputable section

namespace Cert.KernelIdeal.KerShift

open Cert.KernelIdeal Cert.KernelIdeal.Gen Idealize.ShloMosaic Idealize.ShloMosaic.ValueIdx

variable {F : FTy → Type} [FloatOps F]

/-- The block rotated by one channel: channel `j` is channel `j - 1` (mod 6). -/
def roll1 (x : FVec F S8x6x625 .f32) : FVec F S8x6x625 .f32 :=
  concatenate S8x6x625 1 [⟨S8x1x625, extractStridedSlice S8x1x625 ![0, 5, 0] x slices_S8x6x625_o0_5_0_S8x1x625⟩, ⟨S8x5x625, extractStridedSlice S8x5x625 ![0, 0, 0] x slices_S8x6x625_o0_0_0_S8x5x625⟩] concatenates_S8x1x625_S8x5x625_S8x6x625_d1

/-- The block rotated by two channels. -/
def roll2 (x : FVec F S8x6x625 .f32) : FVec F S8x6x625 .f32 :=
  concatenate S8x6x625 1 [⟨S8x2x625, extractStridedSlice S8x2x625 ![0, 4, 0] x slices_S8x6x625_o0_4_0_S8x2x625⟩, ⟨S8x4x625, extractStridedSlice S8x4x625 ![0, 0, 0] x slices_S8x6x625_o0_0_0_S8x4x625⟩] concatenates_S8x2x625_S8x4x625_S8x6x625_d1

/-- The block rotated by three channels. -/
def roll3 (x : FVec F S8x6x625 .f32) : FVec F S8x6x625 .f32 :=
  concatenate S8x6x625 1 [⟨S8x3x625, extractStridedSlice S8x3x625 ![0, 3, 0] x slices_S8x6x625_o0_3_0_S8x3x625⟩, ⟨S8x3x625, extractStridedSlice S8x3x625 ![0, 0, 0] x slices_S8x6x625_o0_0_0_S8x3x625⟩] concatenates_S8x3x625_S8x3x625_S8x6x625_d1

/-- The block rotated by four channels. -/
def roll4 (x : FVec F S8x6x625 .f32) : FVec F S8x6x625 .f32 :=
  concatenate S8x6x625 1 [⟨S8x4x625, extractStridedSlice S8x4x625 ![0, 2, 0] x slices_S8x6x625_o0_2_0_S8x4x625⟩, ⟨S8x2x625, extractStridedSlice S8x2x625 ![0, 0, 0] x slices_S8x6x625_o0_0_0_S8x2x625⟩] concatenates_S8x4x625_S8x2x625_S8x6x625_d1

/-- The block rotated by five channels. -/
def roll5 (x : FVec F S8x6x625 .f32) : FVec F S8x6x625 .f32 :=
  concatenate S8x6x625 1 [⟨S8x5x625, extractStridedSlice S8x5x625 ![0, 1, 0] x slices_S8x6x625_o0_1_0_S8x5x625⟩, ⟨S8x1x625, extractStridedSlice S8x1x625 ![0, 0, 0] x slices_S8x6x625_o0_0_0_S8x1x625⟩] concatenates_S8x5x625_S8x1x625_S8x6x625_d1

/-- A per-row value spread over the row's six channels and 625 cells. -/
def spread (msk : FVec F S8x1x1 .f32) : FVec F S8x6x625 .f32 := broadcastTo S8x6x625 msk broadcasts_S8x1x1_S8x6x625

/-- The indicator, per row, of "the row's rotation word is `s`", as a float. -/
def maskOf (s : BitVec 32) (v23 : IVec S8x1x1 32) : FVec F S8x1x1 .f32 :=
  sitofp .f32 (extui 32 (cmpi .eq v23 (broadcast S8x1x1 s)) natLt_1_32)

/-- Zero plus the six masked rotations, added in the order the body adds them. -/
def shiftK (m0 m1 m2 m3 m4 m5 : FVec F S8x1x1 .f32) (x : FVec F S8x6x625 .f32) : FVec F S8x6x625 .f32 :=
  addf (addf (addf (addf (addf (addf (broadcast S8x6x625 (Scalar.ofBits .f32 0x00000000#32 : F .f32)) (mulf (spread m0) x))
    (mulf (spread m1) (roll1 x))) (mulf (spread m2) (roll2 x))) (mulf (spread m3) (roll3 x))) (mulf (spread m4) (roll4 x)))
    (mulf (spread m5) (roll5 x))

/-- The indicator at a row is one where the row's word is `s` and zero elsewhere. -/
theorem maskOf_apply (s : BitVec 32) (v23 : IVec S8x1x1 32) (b : Fin 8) :
    maskOf (F := Ideal) s v23 (ix3 b (0 : Fin 1) (0 : Fin 1)) = if v23 (ix3 b (0 : Fin 1) (0 : Fin 1)) = s then 1 else 0 := by
  show ((((IntOp.cmpi .eq (v23 (ix3 b (0 : Fin 1) (0 : Fin 1))) s).setWidth 32).toInt : ℝ) : EReal) = _
  by_cases h : v23 (ix3 b (0 : Fin 1) (0 : Fin 1)) = s
  · rw [if_pos h, IntOp.cmpi_eq.2 h]
    have : ((1#1).setWidth 32 : BitVec 32).toInt = 1 := by decide
    rw [this]; norm_num
  · have h0 : IntOp.cmpi .eq (v23 (ix3 b (0 : Fin 1) (0 : Fin 1))) s = 0#1 := by
      show BitVec.ofBool (v23 (ix3 b (0 : Fin 1) (0 : Fin 1)) == s) = 0#1
      rw [beq_eq_false_iff_ne.2 h]; rfl
    rw [if_neg h, h0]
    have : ((0#1).setWidth 32 : BitVec 32).toInt = 0 := by decide
    rw [this]; norm_num

/-- Rotation by one read at a channel: channel `j` reads channel `(j + 6 - 1) mod 6`. -/
theorem roll1_apply (x : FVec Ideal S8x6x625 .f32) (b : Fin 8) (j : Fin 6) (p : Fin 625) :
    roll1 x (ix3 b j p) = x (ix3 b ⟨(j.val + 6 - 1) % 6, Nat.mod_lt _ (by decide)⟩ p) := by
  unfold roll1
  have hj6 := j.isLt
  by_cases hj : j.val < 1
  · refine (concatenate_pair_apply_left (t := S8x6x625) (s₁ := S8x1x625) (s₂ := S8x5x625) 1 _ _
      concatenates_S8x1x625_S8x5x625_S8x6x625_d1 (ix3 b j p) rfl (ix3 b (⟨j.val, hj⟩ : Fin 1) p) (fun a => ?_)).trans ?_
    · match a with
      | ⟨0, _⟩ => rfl
      | ⟨1, _⟩ => rfl
      | ⟨2, _⟩ => rfl
    · refine extractStridedSlice_apply (s := S8x6x625) (t := S8x1x625) _ _ _ (ix3 b (⟨j.val, hj⟩ : Fin 1) p) _ (fun a => ?_)
      match a with
      | ⟨0, _⟩ => exact (Nat.zero_add _).symm
      | ⟨1, _⟩ => show (j.val + 6 - 1) % 6 = 5 + j.val; omega
      | ⟨2, _⟩ => exact (Nat.zero_add _).symm
  · refine (concatenate_pair_apply_right (t := S8x6x625) (s₁ := S8x1x625) (s₂ := S8x5x625) 1 _ _
      concatenates_S8x1x625_S8x5x625_S8x6x625_d1 (ix3 b j p) rfl rfl
      (ix3 b (⟨j.val - 1, by omega⟩ : Fin 5) p) (fun a ha => ?_) ?_).trans ?_
    · match a with
      | ⟨0, _⟩ => rfl
      | ⟨1, _⟩ => exact absurd rfl ha
      | ⟨2, _⟩ => rfl
    · show j.val - 1 + 1 = j.val; omega
    · refine extractStridedSlice_apply (s := S8x6x625) (t := S8x5x625) _ _ _ (ix3 b (⟨j.val - 1, by omega⟩ : Fin 5) p) _ (fun a => ?_)
      match a with
      | ⟨0, _⟩ => exact (Nat.zero_add _).symm
      | ⟨1, _⟩ => show (j.val + 6 - 1) % 6 = 0 + (j.val - 1); omega
      | ⟨2, _⟩ => exact (Nat.zero_add _).symm

/-- Rotation by two read at a channel: channel `j` reads channel `(j + 6 - 2) mod 6`. -/
theorem roll2_apply (x : FVec Ideal S8x6x625 .f32) (b : Fin 8) (j : Fin 6) (p : Fin 625) :
    roll2 x (ix3 b j p) = x (ix3 b ⟨(j.val + 6 - 2) % 6, Nat.mod_lt _ (by decide)⟩ p) := by
  unfold roll2
  have hj6 := j.isLt
  by_cases hj : j.val < 2
  · refine (concatenate_pair_apply_left (t := S8x6x625) (s₁ := S8x2x625) (s₂ := S8x4x625) 1 _ _
      concatenates_S8x2x625_S8x4x625_S8x6x625_d1 (ix3 b j p) rfl (ix3 b (⟨j.val, hj⟩ : Fin 2) p) (fun a => ?_)).trans ?_
    · match a with
      | ⟨0, _⟩ => rfl
      | ⟨1, _⟩ => rfl
      | ⟨2, _⟩ => rfl
    · refine extractStridedSlice_apply (s := S8x6x625) (t := S8x2x625) _ _ _ (ix3 b (⟨j.val, hj⟩ : Fin 2) p) _ (fun a => ?_)
      match a with
      | ⟨0, _⟩ => exact (Nat.zero_add _).symm
      | ⟨1, _⟩ => show (j.val + 6 - 2) % 6 = 4 + j.val; omega
      | ⟨2, _⟩ => exact (Nat.zero_add _).symm
  · refine (concatenate_pair_apply_right (t := S8x6x625) (s₁ := S8x2x625) (s₂ := S8x4x625) 1 _ _
      concatenates_S8x2x625_S8x4x625_S8x6x625_d1 (ix3 b j p) rfl rfl
      (ix3 b (⟨j.val - 2, by omega⟩ : Fin 4) p) (fun a ha => ?_) ?_).trans ?_
    · match a with
      | ⟨0, _⟩ => rfl
      | ⟨1, _⟩ => exact absurd rfl ha
      | ⟨2, _⟩ => rfl
    · show j.val - 2 + 2 = j.val; omega
    · refine extractStridedSlice_apply (s := S8x6x625) (t := S8x4x625) _ _ _ (ix3 b (⟨j.val - 2, by omega⟩ : Fin 4) p) _ (fun a => ?_)
      match a with
      | ⟨0, _⟩ => exact (Nat.zero_add _).symm
      | ⟨1, _⟩ => show (j.val + 6 - 2) % 6 = 0 + (j.val - 2); omega
      | ⟨2, _⟩ => exact (Nat.zero_add _).symm

/-- Rotation by three read at a channel: channel `j` reads channel `(j + 6 - 3) mod 6`. -/
theorem roll3_apply (x : FVec Ideal S8x6x625 .f32) (b : Fin 8) (j : Fin 6) (p : Fin 625) :
    roll3 x (ix3 b j p) = x (ix3 b ⟨(j.val + 6 - 3) % 6, Nat.mod_lt _ (by decide)⟩ p) := by
  unfold roll3
  have hj6 := j.isLt
  by_cases hj : j.val < 3
  · refine (concatenate_pair_apply_left (t := S8x6x625) (s₁ := S8x3x625) (s₂ := S8x3x625) 1 _ _
      concatenates_S8x3x625_S8x3x625_S8x6x625_d1 (ix3 b j p) rfl (ix3 b (⟨j.val, hj⟩ : Fin 3) p) (fun a => ?_)).trans ?_
    · match a with
      | ⟨0, _⟩ => rfl
      | ⟨1, _⟩ => rfl
      | ⟨2, _⟩ => rfl
    · refine extractStridedSlice_apply (s := S8x6x625) (t := S8x3x625) _ _ _ (ix3 b (⟨j.val, hj⟩ : Fin 3) p) _ (fun a => ?_)
      match a with
      | ⟨0, _⟩ => exact (Nat.zero_add _).symm
      | ⟨1, _⟩ => show (j.val + 6 - 3) % 6 = 3 + j.val; omega
      | ⟨2, _⟩ => exact (Nat.zero_add _).symm
  · refine (concatenate_pair_apply_right (t := S8x6x625) (s₁ := S8x3x625) (s₂ := S8x3x625) 1 _ _
      concatenates_S8x3x625_S8x3x625_S8x6x625_d1 (ix3 b j p) rfl rfl
      (ix3 b (⟨j.val - 3, by omega⟩ : Fin 3) p) (fun a ha => ?_) ?_).trans ?_
    · match a with
      | ⟨0, _⟩ => rfl
      | ⟨1, _⟩ => exact absurd rfl ha
      | ⟨2, _⟩ => rfl
    · show j.val - 3 + 3 = j.val; omega
    · refine extractStridedSlice_apply (s := S8x6x625) (t := S8x3x625) _ _ _ (ix3 b (⟨j.val - 3, by omega⟩ : Fin 3) p) _ (fun a => ?_)
      match a with
      | ⟨0, _⟩ => exact (Nat.zero_add _).symm
      | ⟨1, _⟩ => show (j.val + 6 - 3) % 6 = 0 + (j.val - 3); omega
      | ⟨2, _⟩ => exact (Nat.zero_add _).symm

/-- Rotation by four read at a channel: channel `j` reads channel `(j + 6 - 4) mod 6`. -/
theorem roll4_apply (x : FVec Ideal S8x6x625 .f32) (b : Fin 8) (j : Fin 6) (p : Fin 625) :
    roll4 x (ix3 b j p) = x (ix3 b ⟨(j.val + 6 - 4) % 6, Nat.mod_lt _ (by decide)⟩ p) := by
  unfold roll4
  have hj6 := j.isLt
  by_cases hj : j.val < 4
  · refine (concatenate_pair_apply_left (t := S8x6x625) (s₁ := S8x4x625) (s₂ := S8x2x625) 1 _ _
      concatenates_S8x4x625_S8x2x625_S8x6x625_d1 (ix3 b j p) rfl (ix3 b (⟨j.val, hj⟩ : Fin 4) p) (fun a => ?_)).trans ?_
    · match a with
      | ⟨0, _⟩ => rfl
      | ⟨1, _⟩ => rfl
      | ⟨2, _⟩ => rfl
    · refine extractStridedSlice_apply (s := S8x6x625) (t := S8x4x625) _ _ _ (ix3 b (⟨j.val, hj⟩ : Fin 4) p) _ (fun a => ?_)
      match a with
      | ⟨0, _⟩ => exact (Nat.zero_add _).symm
      | ⟨1, _⟩ => show (j.val + 6 - 4) % 6 = 2 + j.val; omega
      | ⟨2, _⟩ => exact (Nat.zero_add _).symm
  · refine (concatenate_pair_apply_right (t := S8x6x625) (s₁ := S8x4x625) (s₂ := S8x2x625) 1 _ _
      concatenates_S8x4x625_S8x2x625_S8x6x625_d1 (ix3 b j p) rfl rfl
      (ix3 b (⟨j.val - 4, by omega⟩ : Fin 2) p) (fun a ha => ?_) ?_).trans ?_
    · match a with
      | ⟨0, _⟩ => rfl
      | ⟨1, _⟩ => exact absurd rfl ha
      | ⟨2, _⟩ => rfl
    · show j.val - 4 + 4 = j.val; omega
    · refine extractStridedSlice_apply (s := S8x6x625) (t := S8x2x625) _ _ _ (ix3 b (⟨j.val - 4, by omega⟩ : Fin 2) p) _ (fun a => ?_)
      match a with
      | ⟨0, _⟩ => exact (Nat.zero_add _).symm
      | ⟨1, _⟩ => show (j.val + 6 - 4) % 6 = 0 + (j.val - 4); omega
      | ⟨2, _⟩ => exact (Nat.zero_add _).symm

/-- Rotation by five read at a channel: channel `j` reads channel `(j + 6 - 5) mod 6`. -/
theorem roll5_apply (x : FVec Ideal S8x6x625 .f32) (b : Fin 8) (j : Fin 6) (p : Fin 625) :
    roll5 x (ix3 b j p) = x (ix3 b ⟨(j.val + 6 - 5) % 6, Nat.mod_lt _ (by decide)⟩ p) := by
  unfold roll5
  have hj6 := j.isLt
  by_cases hj : j.val < 5
  · refine (concatenate_pair_apply_left (t := S8x6x625) (s₁ := S8x5x625) (s₂ := S8x1x625) 1 _ _
      concatenates_S8x5x625_S8x1x625_S8x6x625_d1 (ix3 b j p) rfl (ix3 b (⟨j.val, hj⟩ : Fin 5) p) (fun a => ?_)).trans ?_
    · match a with
      | ⟨0, _⟩ => rfl
      | ⟨1, _⟩ => rfl
      | ⟨2, _⟩ => rfl
    · refine extractStridedSlice_apply (s := S8x6x625) (t := S8x5x625) _ _ _ (ix3 b (⟨j.val, hj⟩ : Fin 5) p) _ (fun a => ?_)
      match a with
      | ⟨0, _⟩ => exact (Nat.zero_add _).symm
      | ⟨1, _⟩ => show (j.val + 6 - 5) % 6 = 1 + j.val; omega
      | ⟨2, _⟩ => exact (Nat.zero_add _).symm
  · refine (concatenate_pair_apply_right (t := S8x6x625) (s₁ := S8x5x625) (s₂ := S8x1x625) 1 _ _
      concatenates_S8x5x625_S8x1x625_S8x6x625_d1 (ix3 b j p) rfl rfl
      (ix3 b (⟨j.val - 5, by omega⟩ : Fin 1) p) (fun a ha => ?_) ?_).trans ?_
    · match a with
      | ⟨0, _⟩ => rfl
      | ⟨1, _⟩ => exact absurd rfl ha
      | ⟨2, _⟩ => rfl
    · show j.val - 5 + 5 = j.val; omega
    · refine extractStridedSlice_apply (s := S8x6x625) (t := S8x1x625) _ _ _ (ix3 b (⟨j.val - 5, by omega⟩ : Fin 1) p) _ (fun a => ?_)
      match a with
      | ⟨0, _⟩ => exact (Nat.zero_add _).symm
      | ⟨1, _⟩ => show (j.val + 6 - 5) % 6 = 0 + (j.val - 5); omega
      | ⟨2, _⟩ => exact (Nat.zero_add _).symm

/-- A per-row value spread over the block reads, at every channel and cell, the row's value. -/
theorem spread_apply (m : FVec Ideal S8x1x1 .f32) (b : Fin 8) (j : Fin 6) (p : Fin 625) :
    spread m (ix3 b j p) = m (ix3 b (0 : Fin 1) (0 : Fin 1)) := by
  unfold spread
  refine broadcastTo_apply (s := S8x1x1) (t := S8x6x625) _ _ (ix3 b j p) (ix3 b (0 : Fin 1) (0 : Fin 1)) (fun a => ?_)
  match a with
  | ⟨0, _⟩ => rfl
  | ⟨1, _⟩ => rfl
  | ⟨2, _⟩ => rfl

/-- A word below six is one of the six words `0, …, 5`. -/
theorem word_cases (w : BitVec 32) (hr : w.toNat < 6) :
    w = 0#32 ∨ w = 1#32 ∨ w = 2#32 ∨ w = 3#32 ∨ w = 4#32 ∨ w = 5#32 := by
  interval_cases h : w.toNat
  · exact .inl (BitVec.eq_of_toNat_eq h)
  · exact .inr (.inl (BitVec.eq_of_toNat_eq h))
  · exact .inr (.inr (.inl (BitVec.eq_of_toNat_eq h)))
  · exact .inr (.inr (.inr (.inl (BitVec.eq_of_toNat_eq h))))
  · exact .inr (.inr (.inr (.inr (.inl (BitVec.eq_of_toNat_eq h)))))
  · exact .inr (.inr (.inr (.inr (.inr (BitVec.eq_of_toNat_eq h)))))

/-- The indicator of "the word is `s`", as an extended real. -/
def ind (w s : BitVec 32) : EReal := if w = s then 1 else 0

theorem ind_self (w : BitVec 32) : ind w w = 1 := if_pos rfl

theorem ind_ne {w s : BitVec 32} (h : w ≠ s) : ind w s = 0 := if_neg h

/-- Zero plus the six rotations of six channels, each times the indicator of its own rotation, is the rotation the
    word names: one indicator is one, the other five are zero, and `0 * y = 0` for every extended real `y`. -/
theorem masked_sum (w : BitVec 32) (hr : w.toNat < 6) (y : Fin 6 → EReal) (j : Fin 6) :
    Ideal.ofBits .f32 0x00000000#32 + ind w 0#32 * y j
        + ind w 1#32 * y ⟨(j.val + 6 - 1) % 6, Nat.mod_lt _ (by decide)⟩
        + ind w 2#32 * y ⟨(j.val + 6 - 2) % 6, Nat.mod_lt _ (by decide)⟩
        + ind w 3#32 * y ⟨(j.val + 6 - 3) % 6, Nat.mod_lt _ (by decide)⟩
        + ind w 4#32 * y ⟨(j.val + 6 - 4) % 6, Nat.mod_lt _ (by decide)⟩
        + ind w 5#32 * y ⟨(j.val + 6 - 5) % 6, Nat.mod_lt _ (by decide)⟩
      = Cert.Spec.rolled y (Cert.Spec.rotOf w) j := by
  rw [Ideal.ofBits_zero_f32]
  have hj := j.isLt
  rcases word_cases w hr with rfl | rfl | rfl | rfl | rfl | rfl
  · rw [ind_self, ind_ne (by decide), ind_ne (by decide), ind_ne (by decide), ind_ne (by decide), ind_ne (by decide)]
    simp only [zero_mul, one_mul, zero_add, add_zero]
    show y j = y ⟨(j.val + 6 - 0) % 6, _⟩
    exact congrArg y (Fin.ext (by show j.val = (j.val + 6 - 0) % 6; omega))
  · rw [ind_self, ind_ne (by decide), ind_ne (by decide), ind_ne (by decide), ind_ne (by decide), ind_ne (by decide)]
    simp only [zero_mul, one_mul, zero_add, add_zero]
    rfl
  · rw [ind_self, ind_ne (by decide), ind_ne (by decide), ind_ne (by decide), ind_ne (by decide), ind_ne (by decide)]
    simp only [zero_mul, one_mul, zero_add, add_zero]
    rfl
  · rw [ind_self, ind_ne (by decide), ind_ne (by decide), ind_ne (by decide), ind_ne (by decide), ind_ne (by decide)]
    simp only [zero_mul, one_mul, zero_add, add_zero]
    rfl
  · rw [ind_self, ind_ne (by decide), ind_ne (by decide), ind_ne (by decide), ind_ne (by decide), ind_ne (by decide)]
    simp only [zero_mul, one_mul, zero_add, add_zero]
    rfl
  · rw [ind_self, ind_ne (by decide), ind_ne (by decide), ind_ne (by decide), ind_ne (by decide), ind_ne (by decide)]
    simp only [zero_mul, one_mul, zero_add, add_zero]
    rfl

/-- With the row's word in `[0, 6)` the masked sum is the block rotated by that word: channel `j` reads channel
    `(j - r) mod 6`. -/
theorem shiftK_apply (v23 : IVec S8x1x1 32) (x : FVec Ideal S8x6x625 .f32) (b : Fin 8) (j : Fin 6) (p : Fin 625)
    (hr : (v23 (ix3 b (0 : Fin 1) (0 : Fin 1))).toNat < 6) :
    shiftK (F := Ideal) (maskOf 0#32 v23) (maskOf 1#32 v23) (maskOf 2#32 v23) (maskOf 3#32 v23) (maskOf 4#32 v23)
        (maskOf 5#32 v23) x (ix3 b j p)
      = Cert.Spec.rolled (fun k => x (ix3 b k p)) (Cert.Spec.rotOf (v23 (ix3 b (0 : Fin 1) (0 : Fin 1)))) j := by
  have hm : ∀ s : BitVec 32, spread (maskOf (F := Ideal) s v23) (ix3 b j p) = ind (v23 (ix3 b (0 : Fin 1) (0 : Fin 1))) s :=
    fun s => (spread_apply _ b j p).trans (maskOf_apply s v23 b)
  rw [← masked_sum (v23 (ix3 b (0 : Fin 1) (0 : Fin 1))) hr (fun k => x (ix3 b k p)) j,
    ← hm 0#32, ← hm 1#32, ← hm 2#32, ← hm 3#32, ← hm 4#32, ← hm 5#32,
    ← roll1_apply x b j p, ← roll2_apply x b j p, ← roll3_apply x b j p, ← roll4_apply x b j p, ← roll5_apply x b j p]
  rfl

end Cert.KernelIdeal.KerShift

end
-- ==== Proof.KerValue.lean ====
/-
  The kernel body's result read at one index of the output block: the element at row `b` of the batch tile,
  channel `ch`, flattened cell `p` is the specification's `outVal` of the input blocks' elements at the same row
  and cell, when the rotation word of that row is in `[0, 6)`. The six masked, statically rolled copies of a
  six-channel block add up to the block rolled by the row's rotation, because exactly one mask is one.

  The block is a concatenation along the channel axis of three pieces: 154 channels multiplied by the
  memory-observability value, a plane of ones, and six indicator planes. The 154 channels are themselves twelve
  pieces laid end to end. Each concatenation is read at a channel by naming the piece whose span holds it; the
  per-cell channel sums are read as sums over the six channels; the identity casts are dropped; and each channel
  range is matched with the specification's case for it.
-/
import proofs.«405264_j2783138808252_1_alg».proof.Proof.Gen.KernelIdeal.Frame
import proofs.«405264_j2783138808252_1_alg».proof.Proof.Spec
import proofs.«405264_j2783138808252_1_alg».proof.Proof.KerShift
import Idealize.ShloMosaic.Lib.ValueIdx
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.ValueIdx
open Cert.KernelIdeal.KerShift

/-! ## The payloads as the masks and the masked sum of rotations (definitional) -/

section AnyInstance
variable {F : FTy → Type} [FloatOps F]

theorem pay14_eq (v21 : Vec F S8x1 .i32) : k0_pay14 (F := F) (k0_pay13 v21) = maskOf 0#32 (k0_pay12 v21) := rfl
theorem pay15_eq (v23 : IVec S8x1x1 32) : k0_pay15 (F := F) v23 = maskOf 1#32 v23 := rfl
theorem pay16_eq (v23 : IVec S8x1x1 32) : k0_pay16 (F := F) v23 = maskOf 2#32 v23 := rfl
theorem pay17_eq (v23 : IVec S8x1x1 32) : k0_pay17 (F := F) v23 = maskOf 3#32 v23 := rfl
theorem pay18_eq (v23 : IVec S8x1x1 32) : k0_pay18 (F := F) v23 = maskOf 4#32 v23 := rfl
theorem pay19_eq (v23 : IVec S8x1x1 32) : k0_pay19 (F := F) v23 = maskOf 5#32 v23 := rfl

theorem pay26_eq (m0 m1 m2 m3 m4 m5 : FVec F S8x1x1 .f32) (y : FVec F S8x6x625 .f32) :
    k0_pay26 m0 m1 m2 m3 m4 m5 y = shiftK m0 m1 m2 m3 m4 m5 y := rfl

theorem pay25_eq (m5 : FVec F S8x1x1 .f32) (y : FVec F S8x6x625 .f32) (v23 : IVec S8x1x1 32) (v25 : IVec S8x1x1 1) :
    k0_pay25 m5 (k0_pay20 y) (k0_pay22 y v23 v25) (k0_pay23 y) (k0_pay24 (F := F) v23)
      = shiftK (k0_pay14 (F := F) v25) (k0_pay15 (F := F) v23) (k0_pay16 (F := F) v23) (k0_pay17 (F := F) v23) (k0_pay18 (F := F) v23) m5 (k0_pay20 y) := rfl

end AnyInstance

/-! ## The block as two concatenations -/

section Layout
variable {F : FTy → Type} [FloatOps F]

/-- The per-cell sum over the six channels of a block, as a one-channel block. -/
def chanSum (x : FVec F S8x6x625 .f32) : FVec F S8x1x625 .f32 :=
  shapeCast S8x1x625 (multiReduction .add [1] S8x625 x 0x00000000#32 reduces_S8x6x625_S8x625 (.inl rfl) rfl) shapeCasts_S8x625_S8x1x625

/-- The 154 channels that are multiplied by the memory-observability value, laid end to end. -/
def inner (v4 : FVec F S8x128x625 .f32) (v6 v8 v10 : FVec F S8x1x625 .f32) (v85 : FVec F S8x6x625 .f32)
    (v155 v12 v14 : FVec F S8x1x625 .f32) (v119 v153 : FVec F S8x6x625 .f32) (v157 v159 : FVec F S8x1x625 .f32) :
    FVec F S8x154x625 .f32 :=
  concatenate S8x154x625 1 [⟨S8x128x625, v4⟩, ⟨S8x1x625, v6⟩, ⟨S8x1x625, v8⟩, ⟨S8x1x625, v10⟩, ⟨S8x6x625, v85⟩, ⟨S8x1x625, v155⟩, ⟨S8x1x625, v12⟩, ⟨S8x1x625, v14⟩, ⟨S8x6x625, v119⟩, ⟨S8x6x625, v153⟩, ⟨S8x1x625, v157⟩, ⟨S8x1x625, v159⟩] concatenates_S8x128x625_S8x1x625_S8x1x625_S8x1x625_S8x6x625_S8x1x625_S8x1x625_S8x1x625_S8x6x625_S8x6x625_S8x1x625_S8x1x625_S8x154x625_d1

/-- The whole block: the 154 scaled channels, the plane of ones, the six indicator planes. -/
def whole (v162 : FVec F S8x154x625 .f32) (v176 : FVec F S8x6x625 .f32) : FVec F S8x161x625 .f32 :=
  concatenate S8x161x625 1 [⟨S8x154x625, v162⟩, ⟨S8x1x625, broadcast S8x1x625 (Scalar.ofBits .f32 0x3F800000#32 : F .f32)⟩, ⟨S8x6x625, v176⟩] concatenates_S8x154x625_S8x1x625_S8x6x625_S8x161x625_d1

theorem pay2_eq (v4 : FVec F S8x128x625 .f32) (v6 v8 v10 v12 v14 : FVec F S8x1x625 .f32) (v16 v20 : FVec F S8x6x625 .f32)
    (m0 m1 m2 m3 m4 m5 : FVec F S8x1x1 .f32) (v85 v119 v176 : FVec F S8x6x625 .f32) :
    k0_pay2 v4 v6 v8 v10 v12 v14 v16 v20 m3 m4 m5 v85 v119 (k0_pay27 v20 m0 m1 m2) v176
      = whole (mulf (inner v4 v6 v8 v10 v85 (chanSum v16) v12 v14 v119 (shiftK m0 m1 m2 m3 m4 m5 v20) (chanSum v119)
          (chanSum (shiftK m0 m1 m2 m3 m4 m5 v20))) (broadcastTo S8x154x625 v10 broadcasts_S8x1x625_S8x154x625)) v176 := rfl

end Layout

/-! ## The two concatenations read at a channel -/

theorem whole_apply_lt (v162 : FVec Ideal S8x154x625 .f32) (v176 : FVec Ideal S8x6x625 .f32) (b : Fin 8) (ch : Fin 161)
    (p : Fin 625) (h : ch.val < 154) : whole v162 v176 (ix3 b ch p) = v162 (ix3 b (⟨ch.val, h⟩ : Fin 154) p) := by
  unfold whole
  refine concatenate_apply_piece _ _ _ (ix3 b ch p) 0 (by simp) S8x154x625 v162 rfl rfl 0 rfl
    (ix3 b (⟨ch.val, h⟩ : Fin 154) p) ?_ ?_
  · intro a ha
    match a, ha with
    | ⟨0, _⟩, _ => rfl
    | ⟨1, _⟩, ha => exact absurd rfl ha
    | ⟨2, _⟩, _ => rfl
  · show 0 + ch.val = ch.val
    omega

theorem whole_apply_one (v162 : FVec Ideal S8x154x625 .f32) (v176 : FVec Ideal S8x6x625 .f32) (b : Fin 8) (ch : Fin 161)
    (p : Fin 625) (h : ch.val = 154) : whole v162 v176 (ix3 b ch p) = Ideal.ofBits .f32 0x3F800000#32 := by
  unfold whole
  refine (concatenate_apply_piece _ _ _ (ix3 b ch p) 1 (by simp) S8x1x625 _ rfl rfl 154 rfl
    (ix3 b (0 : Fin 1) p) ?_ ?_).trans rfl
  · intro a ha
    match a, ha with
    | ⟨0, _⟩, _ => rfl
    | ⟨1, _⟩, ha => exact absurd rfl ha
    | ⟨2, _⟩, _ => rfl
  · show 154 + 0 = ch.val
    omega

theorem whole_apply_ge (v162 : FVec Ideal S8x154x625 .f32) (v176 : FVec Ideal S8x6x625 .f32) (b : Fin 8) (ch : Fin 161)
    (p : Fin 625) (h : 155 ≤ ch.val) :
    whole v162 v176 (ix3 b ch p) = v176 (ix3 b (⟨ch.val - 155, by have := ch.isLt; omega⟩ : Fin 6) p) := by
  unfold whole
  refine concatenate_apply_piece _ _ _ (ix3 b ch p) 2 (by simp) S8x6x625 v176 rfl rfl 155 rfl
    (ix3 b (⟨ch.val - 155, by have := ch.isLt; omega⟩ : Fin 6) p) ?_ ?_
  · intro a ha
    match a, ha with
    | ⟨0, _⟩, _ => rfl
    | ⟨1, _⟩, ha => exact absurd rfl ha
    | ⟨2, _⟩, _ => rfl
  · show 155 + (ch.val - 155) = ch.val
    omega

/-- Channels 0 to 127 of the scaled group are the first piece. -/
theorem inner_apply_0 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h : c.val < 128) :
    inner v4 v6 v8 v10 v85 v155 v12 v14 v119 v153 v157 v159 (ix3 b c p) = v4 (ix3 b (⟨c.val, h⟩ : Fin 128) p) := by
  unfold inner
  refine concatenate_apply_piece _ _ _ (ix3 b c p) 0 (by simp) S8x128x625 v4 rfl rfl 0 rfl
    (ix3 b (⟨c.val, h⟩ : Fin 128) p) ?_ ?_
  · intro a ha
    match a, ha with
    | ⟨0, _⟩, _ => rfl
    | ⟨1, _⟩, ha => exact absurd rfl ha
    | ⟨2, _⟩, _ => rfl
  · show 0 + c.val = c.val
    omega

/-- Channel 128 is the second piece. -/
theorem inner_apply_128 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h : c.val = 128) :
    inner v4 v6 v8 v10 v85 v155 v12 v14 v119 v153 v157 v159 (ix3 b c p) = v6 (ix3 b (0 : Fin 1) p) := by
  unfold inner
  refine concatenate_apply_piece _ _ _ (ix3 b c p) 1 (by simp) S8x1x625 v6 rfl rfl 128 rfl (ix3 b (0 : Fin 1) p) ?_ ?_
  · intro a ha
    match a, ha with
    | ⟨0, _⟩, _ => rfl
    | ⟨1, _⟩, ha => exact absurd rfl ha
    | ⟨2, _⟩, _ => rfl
  · show 128 + 0 = c.val
    omega

/-- Channel 129 is the third piece. -/
theorem inner_apply_129 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h : c.val = 129) :
    inner v4 v6 v8 v10 v85 v155 v12 v14 v119 v153 v157 v159 (ix3 b c p) = v8 (ix3 b (0 : Fin 1) p) := by
  unfold inner
  refine concatenate_apply_piece _ _ _ (ix3 b c p) 2 (by simp) S8x1x625 v8 rfl rfl 129 rfl (ix3 b (0 : Fin 1) p) ?_ ?_
  · intro a ha
    match a, ha with
    | ⟨0, _⟩, _ => rfl
    | ⟨1, _⟩, ha => exact absurd rfl ha
    | ⟨2, _⟩, _ => rfl
  · show 129 + 0 = c.val
    omega

/-- Channel 130 is the fourth piece. -/
theorem inner_apply_130 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h : c.val = 130) :
    inner v4 v6 v8 v10 v85 v155 v12 v14 v119 v153 v157 v159 (ix3 b c p) = v10 (ix3 b (0 : Fin 1) p) := by
  unfold inner
  refine concatenate_apply_piece _ _ _ (ix3 b c p) 3 (by simp) S8x1x625 v10 rfl rfl 130 rfl (ix3 b (0 : Fin 1) p) ?_ ?_
  · intro a ha
    match a, ha with
    | ⟨0, _⟩, _ => rfl
    | ⟨1, _⟩, ha => exact absurd rfl ha
    | ⟨2, _⟩, _ => rfl
  · show 130 + 0 = c.val
    omega

/-- Channels 131 to 136 are the fifth piece. -/
theorem inner_apply_131 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h1 : 131 ≤ c.val) (h2 : c.val < 137) :
    inner v4 v6 v8 v10 v85 v155 v12 v14 v119 v153 v157 v159 (ix3 b c p) = v85 (ix3 b (⟨c.val - 131, by omega⟩ : Fin 6) p) := by
  unfold inner
  refine concatenate_apply_piece _ _ _ (ix3 b c p) 4 (by simp) S8x6x625 v85 rfl rfl 131 rfl
    (ix3 b (⟨c.val - 131, by omega⟩ : Fin 6) p) ?_ ?_
  · intro a ha
    match a, ha with
    | ⟨0, _⟩, _ => rfl
    | ⟨1, _⟩, ha => exact absurd rfl ha
    | ⟨2, _⟩, _ => rfl
  · show 131 + (c.val - 131) = c.val
    omega

/-- Channel 137 is the sixth piece. -/
theorem inner_apply_137 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h : c.val = 137) :
    inner v4 v6 v8 v10 v85 v155 v12 v14 v119 v153 v157 v159 (ix3 b c p) = v155 (ix3 b (0 : Fin 1) p) := by
  unfold inner
  refine concatenate_apply_piece _ _ _ (ix3 b c p) 5 (by simp) S8x1x625 v155 rfl rfl 137 rfl (ix3 b (0 : Fin 1) p) ?_ ?_
  · intro a ha
    match a, ha with
    | ⟨0, _⟩, _ => rfl
    | ⟨1, _⟩, ha => exact absurd rfl ha
    | ⟨2, _⟩, _ => rfl
  · show 137 + 0 = c.val
    omega

/-- Channel 138 is the seventh piece. -/
theorem inner_apply_138 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h : c.val = 138) :
    inner v4 v6 v8 v10 v85 v155 v12 v14 v119 v153 v157 v159 (ix3 b c p) = v12 (ix3 b (0 : Fin 1) p) := by
  unfold inner
  refine concatenate_apply_piece _ _ _ (ix3 b c p) 6 (by simp) S8x1x625 v12 rfl rfl 138 rfl (ix3 b (0 : Fin 1) p) ?_ ?_
  · intro a ha
    match a, ha with
    | ⟨0, _⟩, _ => rfl
    | ⟨1, _⟩, ha => exact absurd rfl ha
    | ⟨2, _⟩, _ => rfl
  · show 138 + 0 = c.val
    omega

/-- Channel 139 is the eighth piece. -/
theorem inner_apply_139 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h : c.val = 139) :
    inner v4 v6 v8 v10 v85 v155 v12 v14 v119 v153 v157 v159 (ix3 b c p) = v14 (ix3 b (0 : Fin 1) p) := by
  unfold inner
  refine concatenate_apply_piece _ _ _ (ix3 b c p) 7 (by simp) S8x1x625 v14 rfl rfl 139 rfl (ix3 b (0 : Fin 1) p) ?_ ?_
  · intro a ha
    match a, ha with
    | ⟨0, _⟩, _ => rfl
    | ⟨1, _⟩, ha => exact absurd rfl ha
    | ⟨2, _⟩, _ => rfl
  · show 139 + 0 = c.val
    omega

/-- Channels 140 to 145 are the ninth piece. -/
theorem inner_apply_140 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h1 : 140 ≤ c.val) (h2 : c.val < 146) :
    inner v4 v6 v8 v10 v85 v155 v12 v14 v119 v153 v157 v159 (ix3 b c p) = v119 (ix3 b (⟨c.val - 140, by omega⟩ : Fin 6) p) := by
  unfold inner
  refine concatenate_apply_piece _ _ _ (ix3 b c p) 8 (by simp) S8x6x625 v119 rfl rfl 140 rfl
    (ix3 b (⟨c.val - 140, by omega⟩ : Fin 6) p) ?_ ?_
  · intro a ha
    match a, ha with
    | ⟨0, _⟩, _ => rfl
    | ⟨1, _⟩, ha => exact absurd rfl ha
    | ⟨2, _⟩, _ => rfl
  · show 140 + (c.val - 140) = c.val
    omega

/-- Channels 146 to 151 are the tenth piece. -/
theorem inner_apply_146 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h1 : 146 ≤ c.val) (h2 : c.val < 152) :
    inner v4 v6 v8 v10 v85 v155 v12 v14 v119 v153 v157 v159 (ix3 b c p) = v153 (ix3 b (⟨c.val - 146, by omega⟩ : Fin 6) p) := by
  unfold inner
  refine concatenate_apply_piece _ _ _ (ix3 b c p) 9 (by simp) S8x6x625 v153 rfl rfl 146 rfl
    (ix3 b (⟨c.val - 146, by omega⟩ : Fin 6) p) ?_ ?_
  · intro a ha
    match a, ha with
    | ⟨0, _⟩, _ => rfl
    | ⟨1, _⟩, ha => exact absurd rfl ha
    | ⟨2, _⟩, _ => rfl
  · show 146 + (c.val - 146) = c.val
    omega

/-- Channel 152 is the eleventh piece. -/
theorem inner_apply_152 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h : c.val = 152) :
    inner v4 v6 v8 v10 v85 v155 v12 v14 v119 v153 v157 v159 (ix3 b c p) = v157 (ix3 b (0 : Fin 1) p) := by
  unfold inner
  refine concatenate_apply_piece _ _ _ (ix3 b c p) 10 (by simp) S8x1x625 v157 rfl rfl 152 rfl (ix3 b (0 : Fin 1) p) ?_ ?_
  · intro a ha
    match a, ha with
    | ⟨0, _⟩, _ => rfl
    | ⟨1, _⟩, ha => exact absurd rfl ha
    | ⟨2, _⟩, _ => rfl
  · show 152 + 0 = c.val
    omega

/-- Channel 153 is the twelfth piece. -/
theorem inner_apply_153 (v4 : FVec Ideal S8x128x625 .f32) (v6 v8 v10 : FVec Ideal S8x1x625 .f32) (v85 : FVec Ideal S8x6x625 .f32)
    (v155 v12 v14 : FVec Ideal S8x1x625 .f32) (v119 v153 : FVec Ideal S8x6x625 .f32) (v157 v159 : FVec Ideal S8x1x625 .f32)
    (b : Fin 8) (c : Fin 154) (p : Fin 625) (h : c.val = 153) :
    inner v4 v6 v8 v10 v85 v155 v12 v14 v119 v153 v157 v159 (ix3 b c p) = v159 (ix3 b (0 : Fin 1) p) := by
  unfold inner
  refine concatenate_apply_piece _ _ _ (ix3 b c p) 11 (by simp) S8x1x625 v159 rfl rfl 153 rfl (ix3 b (0 : Fin 1) p) ?_ ?_
  · intro a ha
    match a, ha with
    | ⟨0, _⟩, _ => rfl
    | ⟨1, _⟩, ha => exact absurd rfl ha
    | ⟨2, _⟩, _ => rfl
  · show 153 + 0 = c.val
    omega

/-! ## The identity casts -/

theorem hz3 : (![0, 0, 0] : Fin 3 → Nat) = fun _ => 0 := funext fun a => by fin_cases a <;> rfl
theorem hz2 : (![0, 0] : Fin 2 → Nat) = fun _ => 0 := funext fun a => by fin_cases a <;> rfl

theorem pay3_eq (x0 x1 : Vec Ideal S8x128x625 .f32) : k0_pay3 (F := Ideal) x0 x1 = addf (F := Ideal) x0 x1 := by
  unfold k0_pay3
  rw [shapeCast_self, shapeCast_self]
theorem pay4_eq (x : Vec Ideal S8x1x625 .f32) : k0_pay4 (F := Ideal) x = x := by unfold k0_pay4; exact shapeCast_self _ _
theorem pay5_eq (x : Vec Ideal S8x1x625 .f32) : k0_pay5 (F := Ideal) x = x := by unfold k0_pay5; exact shapeCast_self _ _
theorem pay6_eq (x : Vec Ideal S8x1x625 .f32) : k0_pay6 (F := Ideal) x = x := by unfold k0_pay6; exact shapeCast_self _ _
theorem pay7_eq (x : Vec Ideal S8x1x625 .f32) : k0_pay7 (F := Ideal) x = x := by unfold k0_pay7; exact shapeCast_self _ _
theorem pay8_eq (x : Vec Ideal S8x1x625 .f32) : k0_pay8 (F := Ideal) x = x := by unfold k0_pay8; exact shapeCast_self _ _
theorem pay9_eq (x : Vec Ideal S8x6x625 .f32) : k0_pay9 (F := Ideal) x = x := by unfold k0_pay9; exact shapeCast_self _ _
theorem pay10_eq (x : Vec Ideal S8x6x625 .f32) : k0_pay10 (F := Ideal) x = x := by unfold k0_pay10; exact shapeCast_self _ _
theorem pay11_eq (x : Vec Ideal S8x6x625 .f32) : k0_pay11 (F := Ideal) x = x := by unfold k0_pay11; exact shapeCast_self _ _

/-- The rotation words as the body holds them: one per row, on two unit axes. -/
def rotW (x10 : Vec Ideal S8x1 .i32) : IVec S8x1x1 32 := k0_pay12 (F := Ideal) x10

/-- The body's masked sum of the six static rotations, with the six indicators of the rows' rotation words. -/
def shiftW (x10 : Vec Ideal S8x1 .i32) (y : FVec Ideal S8x6x625 .f32) : FVec Ideal S8x6x625 .f32 :=
  shiftK (maskOf 0#32 (rotW x10)) (maskOf 1#32 (rotW x10)) (maskOf 2#32 (rotW x10)) (maskOf 3#32 (rotW x10))
    (maskOf 4#32 (rotW x10)) (maskOf 5#32 (rotW x10)) y

/-- The six indicator planes. -/
def planesW (x10 : Vec Ideal S8x1 .i32) : FVec Ideal S8x6x625 .f32 :=
  k0_pay1 (maskOf 0#32 (rotW x10)) (maskOf 1#32 (rotW x10)) (maskOf 2#32 (rotW x10)) (maskOf 3#32 (rotW x10))
    (maskOf 4#32 (rotW x10)) (maskOf 5#32 (rotW x10))

/-- What the body leaves in the output block, over the input blocks themselves. -/
theorem out_eq (x0 x1 : Vec Ideal S8x128x625 .f32) (x2 x3 x4 : Vec Ideal S8x1x625 .f32)
    (x5 x6 x7 : Vec Ideal S8x6x625 .f32) (x8 x9 : Vec Ideal S8x1x625 .f32) (x10 : Vec Ideal S8x1 .i32) :
    out0_11 (F := Ideal) x0 x1 x2 x3 x4 x5 x6 x7 x8 x9 x10
      = whole (mulf (inner (addf (F := Ideal) x0 x1) x2 x3 x4 (shiftW x10 (k0_pay20 (F := Ideal) x5)) (chanSum (F := Ideal) x5) x8 x9
            (shiftW x10 (k0_pay21 (F := Ideal) x6)) (shiftW x10 x7) (chanSum (shiftW x10 (k0_pay21 (F := Ideal) x6)))
            (chanSum (shiftW x10 x7)))
          (broadcastTo S8x154x625 x4 broadcasts_S8x1x625_S8x154x625)) (planesW x10) := by
  unfold out0_11
  rw [View.canon_unit_zero hz3]
  simp only [View.ld_unit_zero (S := S8x128x625) hz3, View.ld_unit_zero (S := S8x1x625) hz3,
    View.ld_unit_zero (S := S8x6x625) hz3, View.ld_unit_zero (S := S8x1) hz2]
  simp only [pay3_eq, pay4_eq, pay5_eq, pay6_eq, pay7_eq, pay8_eq, pay9_eq, pay10_eq, pay11_eq]
  rfl

/-! ## The remaining operations read at an index -/

/-- The per-cell channel sum at a row and cell is the sum over the six channels. -/
theorem chanSum_apply (x : FVec Ideal S8x6x625 .f32) (b : Fin 8) (p : Fin 625) :
    chanSum x (ix3 b (0 : Fin 1) p) = ∑ j : Fin 6, x (ix3 b j p) := by
  unfold chanSum
  refine (shapeCast_apply _ _ (ix3 b (0 : Fin 1) p) (ix2 b p) ?_).trans ?_
  · rw [Shape.rowMajor_val_two, Shape.rowMajor_val_three]
    show b.val * 625 + p.val = (b.val * 1 + 0) * 625 + p.val
    omega
  · refine (Ideal.multiReduction_add_single x 0x00000000#32 reduces_S8x6x625_S8x625 (.inl rfl) rfl (ix2 b p)).trans ?_
    refine Finset.sum_congr rfl fun k _ => congrArg x ?_
    funext a
    match a with
    | ⟨0, _⟩ => rfl
    | ⟨1, _⟩ => rfl
    | ⟨2, _⟩ => rfl

/-- The memory-observability block spread over the 154 channels reads its one channel. -/
theorem omem_spread_apply (v10 : FVec Ideal S8x1x625 .f32) (b : Fin 8) (c : Fin 154) (p : Fin 625) :
    broadcastTo S8x154x625 v10 broadcasts_S8x1x625_S8x154x625 (ix3 b c p) = v10 (ix3 b (0 : Fin 1) p) := by
  refine broadcastTo_apply v10 _ (ix3 b c p) (ix3 b (0 : Fin 1) p) ?_
  intro a
  match a with
  | ⟨0, _⟩ => rfl
  | ⟨1, _⟩ => rfl
  | ⟨2, _⟩ => rfl

/-- The rotation word of a row, as the body holds it, is the row's word of the input block. -/
theorem rotW_apply (x10 : Vec Ideal S8x1 .i32) (b : Fin 8) :
    rotW x10 (ix3 b (0 : Fin 1) (0 : Fin 1)) = x10 (ix2 b (0 : Fin 1)) := by
  unfold rotW k0_pay12
  refine (shapeCast_apply _ _ (ix3 b (0 : Fin 1) (0 : Fin 1)) (ix2 b (0 : Fin 1)) ?_).trans ?_
  · rw [Shape.rowMajor_val_two, Shape.rowMajor_val_three]
    show b.val * 1 + 0 = (b.val * 1 + 0) * 1 + 0
    omega
  · rw [shapeCast_self]

/-- The masked sum of rotations at a row, channel and cell is the block rolled by the row's rotation. -/
theorem shiftW_apply (x10 : Vec Ideal S8x1 .i32) (y : FVec Ideal S8x6x625 .f32) (b : Fin 8) (j : Fin 6) (p : Fin 625)
    (hr : (x10 (ix2 b (0 : Fin 1))).toNat < 6) :
    shiftW x10 y (ix3 b j p) = Cert.Spec.rolled (fun k => y (ix3 b k p)) (Cert.Spec.rotOf (x10 (ix2 b (0 : Fin 1)))) j := by
  unfold shiftW
  rw [shiftK_apply (rotW x10) y b j p (by rw [rotW_apply]; exact hr), rotW_apply]

/-- The half-scaled block at an index. -/
theorem pay20_apply (y : FVec Ideal S8x6x625 .f32) (b : Fin 8) (j : Fin 6) (p : Fin 625) :
    k0_pay20 (F := Ideal) y (ix3 b j p) = y (ix3 b j p) * Cert.Spec.half := rfl
theorem pay21_apply (y : FVec Ideal S8x6x625 .f32) (b : Fin 8) (j : Fin 6) (p : Fin 625) :
    k0_pay21 (F := Ideal) y (ix3 b j p) = y (ix3 b j p) * Cert.Spec.half := rfl

/-- One mask spread over a one-channel plane reads the row's mask. -/
theorem plane_apply (m : FVec Ideal S8x1x1 .f32) (b : Fin 8) (p : Fin 625) :
    broadcastTo S8x1x625 (shapeCast S8x1x1 m shapeCasts_S8x1x1_S8x1x1) broadcasts_S8x1x1_S8x1x625 (ix3 b (0 : Fin 1) p)
      = m (ix3 b (0 : Fin 1) (0 : Fin 1)) := by
  rw [shapeCast_self]
  refine broadcastTo_apply m _ (ix3 b (0 : Fin 1) p) (ix3 b (0 : Fin 1) (0 : Fin 1)) ?_
  intro a
  match a with
  | ⟨0, _⟩ => rfl
  | ⟨1, _⟩ => rfl
  | ⟨2, _⟩ => rfl

/-! ## The six indicator planes -/

theorem planes_apply_0 (m0 m1 m2 m3 m4 m5 : FVec Ideal S8x1x1 .f32) (b : Fin 8) (j : Fin 6) (p : Fin 625) (h : j.val = 0) :
    k0_pay1 m0 m1 m2 m3 m4 m5 (ix3 b j p) = m0 (ix3 b (0 : Fin 1) (0 : Fin 1)) := by
  unfold k0_pay1
  refine (concatenate_apply_piece _ _ _ (ix3 b j p) 0 (by simp) S8x1x625 _ rfl rfl 0 rfl (ix3 b (0 : Fin 1) p) ?_ ?_).trans
    (plane_apply m0 b p)
  · intro a ha
    match a, ha with
    | ⟨0, _⟩, _ => rfl
    | ⟨1, _⟩, ha => exact absurd rfl ha
    | ⟨2, _⟩, _ => rfl
  · show 0 + 0 = j.val
    omega

theorem planes_apply_1 (m0 m1 m2 m3 m4 m5 : FVec Ideal S8x1x1 .f32) (b : Fin 8) (j : Fin 6) (p : Fin 625) (h : j.val = 1) :
    k0_pay1 m0 m1 m2 m3 m4 m5 (ix3 b j p) = m1 (ix3 b (0 : Fin 1) (0 : Fin 1)) := by
  unfold k0_pay1
  refine (concatenate_apply_piece _ _ _ (ix3 b j p) 1 (by simp) S8x1x625 _ rfl rfl 1 rfl (ix3 b (0 : Fin 1) p) ?_ ?_).trans
    (plane_apply m1 b p)
  · intro a ha
    match a, ha with
    | ⟨0, _⟩, _ => rfl
    | ⟨1, _⟩, ha => exact absurd rfl ha
    | ⟨2, _⟩, _ => rfl
  · show 1 + 0 = j.val
    omega

theorem planes_apply_2 (m0 m1 m2 m3 m4 m5 : FVec Ideal S8x1x1 .f32) (b : Fin 8) (j : Fin 6) (p : Fin 625) (h : j.val = 2) :
    k0_pay1 m0 m1 m2 m3 m4 m5 (ix3 b j p) = m2 (ix3 b (0 : Fin 1) (0 : Fin 1)) := by
  unfold k0_pay1
  refine (concatenate_apply_piece _ _ _ (ix3 b j p) 2 (by simp) S8x1x625 _ rfl rfl 2 rfl (ix3 b (0 : Fin 1) p) ?_ ?_).trans
    (plane_apply m2 b p)
  · intro a ha
    match a, ha with
    | ⟨0, _⟩, _ => rfl
    | ⟨1, _⟩, ha => exact absurd rfl ha
    | ⟨2, _⟩, _ => rfl
  · show 2 + 0 = j.val
    omega

theorem planes_apply_3 (m0 m1 m2 m3 m4 m5 : FVec Ideal S8x1x1 .f32) (b : Fin 8) (j : Fin 6) (p : Fin 625) (h : j.val = 3) :
    k0_pay1 m0 m1 m2 m3 m4 m5 (ix3 b j p) = m3 (ix3 b (0 : Fin 1) (0 : Fin 1)) := by
  unfold k0_pay1
  refine (concatenate_apply_piece _ _ _ (ix3 b j p) 3 (by simp) S8x1x625 _ rfl rfl 3 rfl (ix3 b (0 : Fin 1) p) ?_ ?_).trans
    (plane_apply m3 b p)
  · intro a ha
    match a, ha with
    | ⟨0, _⟩, _ => rfl
    | ⟨1, _⟩, ha => exact absurd rfl ha
    | ⟨2, _⟩, _ => rfl
  · show 3 + 0 = j.val
    omega

theorem planes_apply_4 (m0 m1 m2 m3 m4 m5 : FVec Ideal S8x1x1 .f32) (b : Fin 8) (j : Fin 6) (p : Fin 625) (h : j.val = 4) :
    k0_pay1 m0 m1 m2 m3 m4 m5 (ix3 b j p) = m4 (ix3 b (0 : Fin 1) (0 : Fin 1)) := by
  unfold k0_pay1
  refine (concatenate_apply_piece _ _ _ (ix3 b j p) 4 (by simp) S8x1x625 _ rfl rfl 4 rfl (ix3 b (0 : Fin 1) p) ?_ ?_).trans
    (plane_apply m4 b p)
  · intro a ha
    match a, ha with
    | ⟨0, _⟩, _ => rfl
    | ⟨1, _⟩, ha => exact absurd rfl ha
    | ⟨2, _⟩, _ => rfl
  · show 4 + 0 = j.val
    omega

theorem planes_apply_5 (m0 m1 m2 m3 m4 m5 : FVec Ideal S8x1x1 .f32) (b : Fin 8) (j : Fin 6) (p : Fin 625) (h : j.val = 5) :
    k0_pay1 m0 m1 m2 m3 m4 m5 (ix3 b j p) = m5 (ix3 b (0 : Fin 1) (0 : Fin 1)) := by
  unfold k0_pay1
  refine (concatenate_apply_piece _ _ _ (ix3 b j p) 5 (by simp) S8x1x625 _ rfl rfl 5 rfl (ix3 b (0 : Fin 1) p) ?_ ?_).trans
    (plane_apply m5 b p)
  · intro a ha
    match a, ha with
    | ⟨0, _⟩, _ => rfl
    | ⟨1, _⟩, ha => exact absurd rfl ha
    | ⟨2, _⟩, _ => rfl
  · show 5 + 0 = j.val
    omega

/-- A word in `[0, 6)` is the word of `k < 6` exactly when `k` is its rotation. -/
theorem word_eq_iff (w : BitVec 32) (k : Nat) (hk : k < 6) (hw : w.toNat < 6) :
    w = BitVec.ofNat 32 k ↔ k = (Cert.Spec.rotOf w).val := by
  show w = BitVec.ofNat 32 k ↔ k = w.toNat % 6
  constructor
  · intro h
    subst h
    rw [BitVec.toNat_ofNat] at hw ⊢
    omega
  · intro h
    apply BitVec.eq_of_toNat_eq
    rw [BitVec.toNat_ofNat]
    omega

/-- Plane `j` at a row is one where the row's rotation is `j` and zero elsewhere. -/
theorem planesW_apply (x10 : Vec Ideal S8x1 .i32) (b : Fin 8) (j : Fin 6) (p : Fin 625)
    (hr : (x10 (ix2 b (0 : Fin 1))).toNat < 6) :
    planesW x10 (ix3 b j p) = if j.val = (Cert.Spec.rotOf (x10 (ix2 b (0 : Fin 1)))).val then 1 else 0 := by
  unfold planesW
  match j with
  | ⟨0, _⟩ =>
    rw [planes_apply_0 _ _ _ _ _ _ b _ p rfl, maskOf_apply, rotW_apply]
    exact if_congr (word_eq_iff _ 0 (by omega) hr) rfl rfl
  | ⟨1, _⟩ =>
    rw [planes_apply_1 _ _ _ _ _ _ b _ p rfl, maskOf_apply, rotW_apply]
    exact if_congr (word_eq_iff _ 1 (by omega) hr) rfl rfl
  | ⟨2, _⟩ =>
    rw [planes_apply_2 _ _ _ _ _ _ b _ p rfl, maskOf_apply, rotW_apply]
    exact if_congr (word_eq_iff _ 2 (by omega) hr) rfl rfl
  | ⟨3, _⟩ =>
    rw [planes_apply_3 _ _ _ _ _ _ b _ p rfl, maskOf_apply, rotW_apply]
    exact if_congr (word_eq_iff _ 3 (by omega) hr) rfl rfl
  | ⟨4, _⟩ =>
    rw [planes_apply_4 _ _ _ _ _ _ b _ p rfl, maskOf_apply, rotW_apply]
    exact if_congr (word_eq_iff _ 4 (by omega) hr) rfl rfl
  | ⟨5, _⟩ =>
    rw [planes_apply_5 _ _ _ _ _ _ b _ p rfl, maskOf_apply, rotW_apply]
    exact if_congr (word_eq_iff _ 5 (by omega) hr) rfl rfl
  | ⟨n + 6, h⟩ => exact absurd h (by omega)

/-! ## The block read at a channel -/

/-- Channel `ch < 154` of the block is the laid-out channel times the memory-observability value of the row and cell. -/
theorem scaled_apply (I : FVec Ideal S8x154x625 .f32) (omem : FVec Ideal S8x1x625 .f32) (P : FVec Ideal S8x6x625 .f32)
    (b : Fin 8) (ch : Fin 161) (p : Fin 625) (h : ch.val < 154) :
    whole (mulf I (broadcastTo S8x154x625 omem broadcasts_S8x1x625_S8x154x625)) P (ix3 b ch p)
      = I (ix3 b (⟨ch.val, h⟩ : Fin 154) p) * omem (ix3 b (0 : Fin 1) p) := by
  rw [whole_apply_lt _ _ b ch p h, mulf_apply, omem_spread_apply]

/-- A number below six is its own remainder, as a channel of six. -/
theorem fin_mod (n : Nat) (h : n < 6) : (⟨n % 6, Nat.mod_lt _ (by decide)⟩ : Fin 6) = ⟨n, h⟩ :=
  Fin.ext (Nat.mod_eq_of_lt h)

theorem out_apply (x0 x1 : Vec Ideal S8x128x625 .f32) (x2 x3 x4 : Vec Ideal S8x1x625 .f32)
    (x5 x6 x7 : Vec Ideal S8x6x625 .f32) (x8 x9 : Vec Ideal S8x1x625 .f32) (x10 : Vec Ideal S8x1 .i32)
    (b : Fin 8) (ch : Fin 161) (p : Fin 625) (hr : (x10 (ix2 b 0)).toNat < 6) :
    out0_11 (F := Ideal) x0 x1 x2 x3 x4 x5 x6 x7 x8 x9 x10 (ix3 b ch p)
      = Cert.Spec.outVal (fun k => x0 (ix3 b k p)) (fun k => x1 (ix3 b k p)) (x2 (ix3 b 0 p)) (x3 (ix3 b 0 p))
          (x4 (ix3 b 0 p)) (x8 (ix3 b 0 p)) (x9 (ix3 b 0 p)) (fun j => x5 (ix3 b j p)) (fun j => x6 (ix3 b j p))
          (fun j => x7 (ix3 b j p)) (Cert.Spec.rotOf (x10 (ix2 b 0))) ch := by
  have hch := ch.isLt
  rw [out_eq]
  unfold Cert.Spec.outVal
  by_cases h0 : ch.val < 128
  · rw [dif_pos h0, scaled_apply _ _ _ b ch p (by omega), inner_apply_0 _ _ _ _ _ _ _ _ _ _ _ _ b (⟨ch.val, by omega⟩ : Fin 154) p h0]
    rfl
  rw [dif_neg h0]
  by_cases h1 : ch.val = 128
  · rw [if_pos h1, scaled_apply _ _ _ b ch p (by omega), inner_apply_128 _ _ _ _ _ _ _ _ _ _ _ _ b (⟨ch.val, by omega⟩ : Fin 154) p h1]
  rw [if_neg h1]
  by_cases h2 : ch.val = 129
  · rw [if_pos h2, scaled_apply _ _ _ b ch p (by omega), inner_apply_129 _ _ _ _ _ _ _ _ _ _ _ _ b (⟨ch.val, by omega⟩ : Fin 154) p h2]
  rw [if_neg h2]
  by_cases h3 : ch.val = 130
  · rw [if_pos h3, scaled_apply _ _ _ b ch p (by omega), inner_apply_130 _ _ _ _ _ _ _ _ _ _ _ _ b (⟨ch.val, by omega⟩ : Fin 154) p h3]
  rw [if_neg h3]
  by_cases h4 : ch.val < 137
  · rw [if_pos h4, scaled_apply _ _ _ b ch p (by omega),
      inner_apply_131 _ _ _ _ _ _ _ _ _ _ _ _ b (⟨ch.val, by omega⟩ : Fin 154) p (show 131 ≤ ch.val by omega) h4, shiftW_apply x10 _ b _ p hr,
      fin_mod (ch.val - 131) (by omega)]
    rfl
  rw [if_neg h4]
  by_cases h5 : ch.val = 137
  · rw [if_pos h5, scaled_apply _ _ _ b ch p (by omega), inner_apply_137 _ _ _ _ _ _ _ _ _ _ _ _ b (⟨ch.val, by omega⟩ : Fin 154) p h5, chanSum_apply]
  rw [if_neg h5]
  by_cases h6 : ch.val = 138
  · rw [if_pos h6, scaled_apply _ _ _ b ch p (by omega), inner_apply_138 _ _ _ _ _ _ _ _ _ _ _ _ b (⟨ch.val, by omega⟩ : Fin 154) p h6]
  rw [if_neg h6]
  by_cases h7 : ch.val = 139
  · rw [if_pos h7, scaled_apply _ _ _ b ch p (by omega), inner_apply_139 _ _ _ _ _ _ _ _ _ _ _ _ b (⟨ch.val, by omega⟩ : Fin 154) p h7]
  rw [if_neg h7]
  by_cases h8 : ch.val < 146
  · rw [if_pos h8, scaled_apply _ _ _ b ch p (by omega),
      inner_apply_140 _ _ _ _ _ _ _ _ _ _ _ _ b (⟨ch.val, by omega⟩ : Fin 154) p (show 140 ≤ ch.val by omega) h8, shiftW_apply x10 _ b _ p hr,
      fin_mod (ch.val - 140) (by omega)]
    rfl
  rw [if_neg h8]
  by_cases h9 : ch.val < 152
  · rw [if_pos h9, scaled_apply _ _ _ b ch p (by omega),
      inner_apply_146 _ _ _ _ _ _ _ _ _ _ _ _ b (⟨ch.val, by omega⟩ : Fin 154) p (show 146 ≤ ch.val by omega) h9, shiftW_apply x10 _ b _ p hr,
      fin_mod (ch.val - 146) (by omega)]
  rw [if_neg h9]
  by_cases h10 : ch.val = 152
  · rw [if_pos h10, scaled_apply _ _ _ b ch p (by omega), inner_apply_152 _ _ _ _ _ _ _ _ _ _ _ _ b (⟨ch.val, by omega⟩ : Fin 154) p h10, chanSum_apply]
    refine congrArg (fun s => s * x4 (ix3 b (0 : Fin 1) p)) (Finset.sum_congr rfl fun j _ => ?_)
    exact shiftW_apply x10 _ b j p hr
  rw [if_neg h10]
  by_cases h11 : ch.val = 153
  · rw [if_pos h11, scaled_apply _ _ _ b ch p (by omega), inner_apply_153 _ _ _ _ _ _ _ _ _ _ _ _ b (⟨ch.val, by omega⟩ : Fin 154) p h11, chanSum_apply]
    refine congrArg (fun s => s * x4 (ix3 b (0 : Fin 1) p)) (Finset.sum_congr rfl fun j _ => ?_)
    exact shiftW_apply x10 _ b j p hr
  rw [if_neg h11]
  by_cases h12 : ch.val = 154
  · rw [if_pos h12, whole_apply_one _ _ b ch p h12]
    rfl
  rw [if_neg h12, whole_apply_ge _ _ b ch p (by omega), planesW_apply x10 b _ p hr,
    Nat.mod_eq_of_lt (show ch.val - 155 < 6 by omega)]

end Cert.KernelIdeal.KerValue

end
-- ==== Proof.SpecArr.lean ====
/-
  The whole output array as one function of the eleven argument arrays: the element at batch entry `b`, channel
  `ch`, cell `(h, w)` is the specification's `outVal` of the argument elements at the same batch entry and cell.
-/
import proofs.«405264_j2783138808252_1_alg».proof.Proof.Spec
import Idealize.ShloMosaic.Lib.ValueIdx

noncomputable section

namespace Cert.Spec

open Idealize.ShloMosaic Idealize.ShloMosaic.ValueIdx

/-- The output array `[1024, 161, 25, 25]` from the argument arrays, index by index. -/
def outArr (a0 a1 : (⟨4, ![1024, 128, 25, 25]⟩ : Shape).Idx → EReal) (a2 a3 a4 : (⟨3, ![1024, 25, 25]⟩ : Shape).Idx → EReal)
    (a5 a6 a7 : (⟨4, ![1024, 6, 25, 25]⟩ : Shape).Idx → EReal) (a8 a9 : (⟨3, ![1024, 25, 25]⟩ : Shape).Idx → EReal)
    (a10 : (⟨1, ![1024]⟩ : Shape).Idx → BitVec 32) : (⟨4, ![1024, 161, 25, 25]⟩ : Shape).Idx → EReal :=
  fun i => outVal (fun k => a0 (ix4 (i 0) k (i 2) (i 3))) (fun k => a1 (ix4 (i 0) k (i 2) (i 3))) (a2 (ix3 (i 0) (i 2) (i 3)))
    (a3 (ix3 (i 0) (i 2) (i 3))) (a4 (ix3 (i 0) (i 2) (i 3))) (a8 (ix3 (i 0) (i 2) (i 3))) (a9 (ix3 (i 0) (i 2) (i 3)))
    (fun j => a5 (ix4 (i 0) j (i 2) (i 3))) (fun j => a6 (ix4 (i 0) j (i 2) (i 3))) (fun j => a7 (ix4 (i 0) j (i 2) (i 3)))
    (rotOf (a10 (ix1 (i 0)))) (i 1)

end Cert.Spec

end
-- ==== Proof.KerArray.lean ====
/-
  From blocks to the array, and through the reshapes around the region. The kernel's grid has 128 points; point `t`
  stages rows `8 t … 8 t + 7` of every operand (every index map is `t ↦ (t, 0, 0)`), so row `b` of its output block
  is row `8 t + b` of the array, and the 128 output blocks tile the output. Hence the output array after the run
  is, element by element, the specification's `outVal` of the operand arrays as the region finds them; the operand
  arrays are the arguments with the two grid axes flattened (cell `(h, w)` at `25 h + w`), and the program's result is
  the output array under the inverse reshape.
-/
import proofs.«405264_j2783138808252_1_alg».proof.Proof.KerValue
import proofs.«405264_j2783138808252_1_alg».proof.Proof.SpecArr
import Idealize.ShloMosaic.Lib.Pipeline.Value
import Idealize.ShloMosaic.Lib.ValueIdx
import Idealize.ShloMosaic.Lib.StableHlo.Run

set_option maxRecDepth 16384

noncomputable section

namespace Cert.KernelIdeal.KerArray

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output array as one function of the eleven operand arrays (as the region finds them), index by index. -/
def G3 (v0 v1 : Vec Ideal S1024x128x625 .f32) (v2 v3 v4 : Vec Ideal S1024x1x625 .f32) (v5 v6 v7 : Vec Ideal S1024x6x625 .f32)
    (v8 v9 : Vec Ideal S1024x1x625 .f32) (v10 : Vec Ideal S1024x1 .i32) : Vec Ideal S1024x161x625 .f32 :=
  fun j => Cert.Spec.outVal (fun k => v0 (ix3 (j 0) k (j 2))) (fun k => v1 (ix3 (j 0) k (j 2))) (v2 (ix3 (j 0) 0 (j 2)))
    (v3 (ix3 (j 0) 0 (j 2))) (v4 (ix3 (j 0) 0 (j 2))) (v8 (ix3 (j 0) 0 (j 2))) (v9 (ix3 (j 0) 0 (j 2)))
    (fun k => v5 (ix3 (j 0) k (j 2))) (fun k => v6 (ix3 (j 0) k (j 2))) (fun k => v7 (ix3 (j 0) k (j 2)))
    (Cert.Spec.rotOf (v10 (ix2 (j 0) 0))) (j 1)

/-- `outVal` of equal inputs. -/
theorem outVal_congr {es es' ed ed' : Fin 128 → EReal} {om om' oc oc' omem omem' ll ll' fl fl' : EReal} {pv pv' apt apt' pt pt' : Fin 6 → EReal}
    {r r' : Fin 6} (h0 : es = es') (h1 : ed = ed') (h2 : om = om') (h3 : oc = oc') (h4 : omem = omem') (h8 : ll = ll') (h9 : fl = fl')
    (h5 : pv = pv') (h6 : apt = apt') (h7 : pt = pt') (h10 : r = r') (ch : Fin 161) :
    Cert.Spec.outVal es ed om oc omem ll fl pv apt pt r ch = Cert.Spec.outVal es' ed' om' oc' omem' ll' fl' pv' apt' pt' r' ch := by
  subst h0 h1 h2 h3 h4 h8 h9 h5 h6 h7 h10; rfl

/-- Every window's index map is `t ↦ (t, 0, 0)` (decided over the 128 points). -/
theorem idx_facts : ∀ t : Fin cfg0.N,
    win0_0.index t (0 : Fin 3) = t.val ∧ win0_0.index t (1 : Fin 3) = 0 ∧ win0_0.index t (2 : Fin 3) = 0 ∧
    win0_1.index t (0 : Fin 3) = t.val ∧ win0_1.index t (1 : Fin 3) = 0 ∧ win0_1.index t (2 : Fin 3) = 0 ∧
    win0_2.index t (0 : Fin 3) = t.val ∧ win0_2.index t (1 : Fin 3) = 0 ∧ win0_2.index t (2 : Fin 3) = 0 ∧
    win0_3.index t (0 : Fin 3) = t.val ∧ win0_3.index t (1 : Fin 3) = 0 ∧ win0_3.index t (2 : Fin 3) = 0 ∧
    win0_4.index t (0 : Fin 3) = t.val ∧ win0_4.index t (1 : Fin 3) = 0 ∧ win0_4.index t (2 : Fin 3) = 0 ∧
    win0_5.index t (0 : Fin 3) = t.val ∧ win0_5.index t (1 : Fin 3) = 0 ∧ win0_5.index t (2 : Fin 3) = 0 ∧
    win0_6.index t (0 : Fin 3) = t.val ∧ win0_6.index t (1 : Fin 3) = 0 ∧ win0_6.index t (2 : Fin 3) = 0 ∧
    win0_7.index t (0 : Fin 3) = t.val ∧ win0_7.index t (1 : Fin 3) = 0 ∧ win0_7.index t (2 : Fin 3) = 0 ∧
    win0_8.index t (0 : Fin 3) = t.val ∧ win0_8.index t (1 : Fin 3) = 0 ∧ win0_8.index t (2 : Fin 3) = 0 ∧
    win0_9.index t (0 : Fin 3) = t.val ∧ win0_9.index t (1 : Fin 3) = 0 ∧ win0_9.index t (2 : Fin 3) = 0 ∧
    win0_11.index t (0 : Fin 3) = t.val ∧ win0_11.index t (1 : Fin 3) = 0 ∧ win0_11.index t (2 : Fin 3) = 0 ∧
    win0_10.index t (0 : Fin 2) = t.val ∧ win0_10.index t (1 : Fin 2) = 0 :=
  (by decide +kernel : ∀ t : Fin grid0.N, _)

/-- Row `b` of point `t`'s blocks is row `8 t + b` of the arrays. -/
def row (t : Fin cfg0.N) (b : Fin 8) : Fin 1024 :=
  ⟨8 * t.val + b.val, by have h : t.val < 128 := lt_of_lt_of_eq t.isLt N_0; have := b.isLt; omega⟩

/-! ## A block's index in its array -/

theorem emb0 (t : Fin cfg0.N) (b : Fin 8) (k : Fin 128) (p : Fin 625) :
    ((cfg0.win 0).blk t).view.emb (ix3 b k p) = ix3 (row t b) k p := by
  have e := idx_facts t
  funext a; apply Fin.ext
  match a with
  | ⟨0, _⟩ => show win0_0.index t (0 : Fin 3) * 8 + 1 * b.val = 8 * t.val + b.val; omega
  | ⟨1, _⟩ => show win0_0.index t (1 : Fin 3) * 128 + 1 * k.val = k.val; omega
  | ⟨2, _⟩ => show win0_0.index t (2 : Fin 3) * 625 + 1 * p.val = p.val; omega

theorem emb1 (t : Fin cfg0.N) (b : Fin 8) (k : Fin 128) (p : Fin 625) :
    ((cfg0.win 1).blk t).view.emb (ix3 b k p) = ix3 (row t b) k p := by
  have e := idx_facts t
  funext a; apply Fin.ext
  match a with
  | ⟨0, _⟩ => show win0_1.index t (0 : Fin 3) * 8 + 1 * b.val = 8 * t.val + b.val; omega
  | ⟨1, _⟩ => show win0_1.index t (1 : Fin 3) * 128 + 1 * k.val = k.val; omega
  | ⟨2, _⟩ => show win0_1.index t (2 : Fin 3) * 625 + 1 * p.val = p.val; omega

theorem emb2 (t : Fin cfg0.N) (b : Fin 8) (k : Fin 1) (p : Fin 625) :
    ((cfg0.win 2).blk t).view.emb (ix3 b k p) = ix3 (row t b) k p := by
  have e := idx_facts t
  funext a; apply Fin.ext
  match a with
  | ⟨0, _⟩ => show win0_2.index t (0 : Fin 3) * 8 + 1 * b.val = 8 * t.val + b.val; omega
  | ⟨1, _⟩ => show win0_2.index t (1 : Fin 3) * 1 + 1 * k.val = k.val; omega
  | ⟨2, _⟩ => show win0_2.index t (2 : Fin 3) * 625 + 1 * p.val = p.val; omega

theorem emb3 (t : Fin cfg0.N) (b : Fin 8) (k : Fin 1) (p : Fin 625) :
    ((cfg0.win 3).blk t).view.emb (ix3 b k p) = ix3 (row t b) k p := by
  have e := idx_facts t
  funext a; apply Fin.ext
  match a with
  | ⟨0, _⟩ => show win0_3.index t (0 : Fin 3) * 8 + 1 * b.val = 8 * t.val + b.val; omega
  | ⟨1, _⟩ => show win0_3.index t (1 : Fin 3) * 1 + 1 * k.val = k.val; omega
  | ⟨2, _⟩ => show win0_3.index t (2 : Fin 3) * 625 + 1 * p.val = p.val; omega

theorem emb4 (t : Fin cfg0.N) (b : Fin 8) (k : Fin 1) (p : Fin 625) :
    ((cfg0.win 4).blk t).view.emb (ix3 b k p) = ix3 (row t b) k p := by
  have e := idx_facts t
  funext a; apply Fin.ext
  match a with
  | ⟨0, _⟩ => show win0_4.index t (0 : Fin 3) * 8 + 1 * b.val = 8 * t.val + b.val; omega
  | ⟨1, _⟩ => show win0_4.index t (1 : Fin 3) * 1 + 1 * k.val = k.val; omega
  | ⟨2, _⟩ => show win0_4.index t (2 : Fin 3) * 625 + 1 * p.val = p.val; omega

theorem emb5 (t : Fin cfg0.N) (b : Fin 8) (k : Fin 6) (p : Fin 625) :
    ((cfg0.win 5).blk t).view.emb (ix3 b k p) = ix3 (row t b) k p := by
  have e := idx_facts t
  funext a; apply Fin.ext
  match a with
  | ⟨0, _⟩ => show win0_5.index t (0 : Fin 3) * 8 + 1 * b.val = 8 * t.val + b.val; omega
  | ⟨1, _⟩ => show win0_5.index t (1 : Fin 3) * 6 + 1 * k.val = k.val; omega
  | ⟨2, _⟩ => show win0_5.index t (2 : Fin 3) * 625 + 1 * p.val = p.val; omega

theorem emb6 (t : Fin cfg0.N) (b : Fin 8) (k : Fin 6) (p : Fin 625) :
    ((cfg0.win 6).blk t).view.emb (ix3 b k p) = ix3 (row t b) k p := by
  have e := idx_facts t
  funext a; apply Fin.ext
  match a with
  | ⟨0, _⟩ => show win0_6.index t (0 : Fin 3) * 8 + 1 * b.val = 8 * t.val + b.val; omega
  | ⟨1, _⟩ => show win0_6.index t (1 : Fin 3) * 6 + 1 * k.val = k.val; omega
  | ⟨2, _⟩ => show win0_6.index t (2 : Fin 3) * 625 + 1 * p.val = p.val; omega

theorem emb7 (t : Fin cfg0.N) (b : Fin 8) (k : Fin 6) (p : Fin 625) :
    ((cfg0.win 7).blk t).view.emb (ix3 b k p) = ix3 (row t b) k p := by
  have e := idx_facts t
  funext a; apply Fin.ext
  match a with
  | ⟨0, _⟩ => show win0_7.index t (0 : Fin 3) * 8 + 1 * b.val = 8 * t.val + b.val; omega
  | ⟨1, _⟩ => show win0_7.index t (1 : Fin 3) * 6 + 1 * k.val = k.val; omega
  | ⟨2, _⟩ => show win0_7.index t (2 : Fin 3) * 625 + 1 * p.val = p.val; omega

theorem emb8 (t : Fin cfg0.N) (b : Fin 8) (k : Fin 1) (p : Fin 625) :
    ((cfg0.win 8).blk t).view.emb (ix3 b k p) = ix3 (row t b) k p := by
  have e := idx_facts t
  funext a; apply Fin.ext
  match a with
  | ⟨0, _⟩ => show win0_8.index t (0 : Fin 3) * 8 + 1 * b.val = 8 * t.val + b.val; omega
  | ⟨1, _⟩ => show win0_8.index t (1 : Fin 3) * 1 + 1 * k.val = k.val; omega
  | ⟨2, _⟩ => show win0_8.index t (2 : Fin 3) * 625 + 1 * p.val = p.val; omega

theorem emb9 (t : Fin cfg0.N) (b : Fin 8) (k : Fin 1) (p : Fin 625) :
    ((cfg0.win 9).blk t).view.emb (ix3 b k p) = ix3 (row t b) k p := by
  have e := idx_facts t
  funext a; apply Fin.ext
  match a with
  | ⟨0, _⟩ => show win0_9.index t (0 : Fin 3) * 8 + 1 * b.val = 8 * t.val + b.val; omega
  | ⟨1, _⟩ => show win0_9.index t (1 : Fin 3) * 1 + 1 * k.val = k.val; omega
  | ⟨2, _⟩ => show win0_9.index t (2 : Fin 3) * 625 + 1 * p.val = p.val; omega

theorem emb11 (t : Fin cfg0.N) (b : Fin 8) (k : Fin 161) (p : Fin 625) :
    ((cfg0.win 11).blk t).view.emb (ix3 b k p) = ix3 (row t b) k p := by
  have e := idx_facts t
  funext a; apply Fin.ext
  match a with
  | ⟨0, _⟩ => show win0_11.index t (0 : Fin 3) * 8 + 1 * b.val = 8 * t.val + b.val; omega
  | ⟨1, _⟩ => show win0_11.index t (1 : Fin 3) * 161 + 1 * k.val = k.val; omega
  | ⟨2, _⟩ => show win0_11.index t (2 : Fin 3) * 625 + 1 * p.val = p.val; omega

theorem emb10 (t : Fin cfg0.N) (b : Fin 8) :
    ((cfg0.win 10).blk t).view.emb (ix2 b (0 : Fin 1)) = ix2 (row t b) (0 : Fin 1) := by
  have e := idx_facts t
  funext a; apply Fin.ext
  match a with
  | ⟨0, _⟩ => show win0_10.index t (0 : Fin 2) * 8 + 1 * b.val = 8 * t.val + b.val; omega
  | ⟨1, _⟩ => show win0_10.index t (1 : Fin 2) * 1 + 1 * 0 = 0; omega

/-! ## An input block's element is the operand array's element at the block's row -/

theorem iblk0_apply (c : Dev nD) (t : Fin cfg0.N) (b : Fin 8) (k : Fin 128) (p : Fin 625) :
    (iblk m c 0 t : Vec Ideal S8x128x625 .f32) (ix3 b k p) = (V m c main_v0 : Vec Ideal S1024x128x625 .f32) (ix3 (row t b) k p) := by
  show (V m c main_v0 : Vec Ideal S1024x128x625 .f32) (((cfg0.win 0).blk t).view.emb (ix3 b k p)) = _
  rw [emb0]

theorem iblk1_apply (c : Dev nD) (t : Fin cfg0.N) (b : Fin 8) (k : Fin 128) (p : Fin 625) :
    (iblk m c 1 t : Vec Ideal S8x128x625 .f32) (ix3 b k p) = (V m c main_v1 : Vec Ideal S1024x128x625 .f32) (ix3 (row t b) k p) := by
  show (V m c main_v1 : Vec Ideal S1024x128x625 .f32) (((cfg0.win 1).blk t).view.emb (ix3 b k p)) = _
  rw [emb1]

theorem iblk2_apply (c : Dev nD) (t : Fin cfg0.N) (b : Fin 8) (k : Fin 1) (p : Fin 625) :
    (iblk m c 2 t : Vec Ideal S8x1x625 .f32) (ix3 b k p) = (V m c main_v2 : Vec Ideal S1024x1x625 .f32) (ix3 (row t b) k p) := by
  show (V m c main_v2 : Vec Ideal S1024x1x625 .f32) (((cfg0.win 2).blk t).view.emb (ix3 b k p)) = _
  rw [emb2]

theorem iblk3_apply (c : Dev nD) (t : Fin cfg0.N) (b : Fin 8) (k : Fin 1) (p : Fin 625) :
    (iblk m c 3 t : Vec Ideal S8x1x625 .f32) (ix3 b k p) = (V m c main_v3 : Vec Ideal S1024x1x625 .f32) (ix3 (row t b) k p) := by
  show (V m c main_v3 : Vec Ideal S1024x1x625 .f32) (((cfg0.win 3).blk t).view.emb (ix3 b k p)) = _
  rw [emb3]

theorem iblk4_apply (c : Dev nD) (t : Fin cfg0.N) (b : Fin 8) (k : Fin 1) (p : Fin 625) :
    (iblk m c 4 t : Vec Ideal S8x1x625 .f32) (ix3 b k p) = (V m c main_v4 : Vec Ideal S1024x1x625 .f32) (ix3 (row t b) k p) := by
  show (V m c main_v4 : Vec Ideal S1024x1x625 .f32) (((cfg0.win 4).blk t).view.emb (ix3 b k p)) = _
  rw [emb4]

theorem iblk5_apply (c : Dev nD) (t : Fin cfg0.N) (b : Fin 8) (k : Fin 6) (p : Fin 625) :
    (iblk m c 5 t : Vec Ideal S8x6x625 .f32) (ix3 b k p) = (V m c main_v5 : Vec Ideal S1024x6x625 .f32) (ix3 (row t b) k p) := by
  show (V m c main_v5 : Vec Ideal S1024x6x625 .f32) (((cfg0.win 5).blk t).view.emb (ix3 b k p)) = _
  rw [emb5]

theorem iblk6_apply (c : Dev nD) (t : Fin cfg0.N) (b : Fin 8) (k : Fin 6) (p : Fin 625) :
    (iblk m c 6 t : Vec Ideal S8x6x625 .f32) (ix3 b k p) = (V m c main_v6 : Vec Ideal S1024x6x625 .f32) (ix3 (row t b) k p) := by
  show (V m c main_v6 : Vec Ideal S1024x6x625 .f32) (((cfg0.win 6).blk t).view.emb (ix3 b k p)) = _
  rw [emb6]

theorem iblk7_apply (c : Dev nD) (t : Fin cfg0.N) (b : Fin 8) (k : Fin 6) (p : Fin 625) :
    (iblk m c 7 t : Vec Ideal S8x6x625 .f32) (ix3 b k p) = (V m c main_v7 : Vec Ideal S1024x6x625 .f32) (ix3 (row t b) k p) := by
  show (V m c main_v7 : Vec Ideal S1024x6x625 .f32) (((cfg0.win 7).blk t).view.emb (ix3 b k p)) = _
  rw [emb7]

theorem iblk8_apply (c : Dev nD) (t : Fin cfg0.N) (b : Fin 8) (k : Fin 1) (p : Fin 625) :
    (iblk m c 8 t : Vec Ideal S8x1x625 .f32) (ix3 b k p) = (V m c main_v8 : Vec Ideal S1024x1x625 .f32) (ix3 (row t b) k p) := by
  show (V m c main_v8 : Vec Ideal S1024x1x625 .f32) (((cfg0.win 8).blk t).view.emb (ix3 b k p)) = _
  rw [emb8]

theorem iblk9_apply (c : Dev nD) (t : Fin cfg0.N) (b : Fin 8) (k : Fin 1) (p : Fin 625) :
    (iblk m c 9 t : Vec Ideal S8x1x625 .f32) (ix3 b k p) = (V m c main_v9 : Vec Ideal S1024x1x625 .f32) (ix3 (row t b) k p) := by
  show (V m c main_v9 : Vec Ideal S1024x1x625 .f32) (((cfg0.win 9).blk t).view.emb (ix3 b k p)) = _
  rw [emb9]

theorem iblk10_apply (c : Dev nD) (t : Fin cfg0.N) (b : Fin 8) :
    (iblk m c 10 t : Vec Ideal S8x1 .i32) (ix2 b (0 : Fin 1)) = (V m c main_v10 : Vec Ideal S1024x1 .i32) (ix2 (row t b) (0 : Fin 1)) := by
  show (V m c main_v10 : Vec Ideal S1024x1 .i32) (((cfg0.win 10).blk t).view.emb (ix2 b (0 : Fin 1))) = _
  rw [emb10]

/-! ## What point `t` writes back -/

/-- Point `t` writes back block `t` of `G3` of the operand arrays, when every rotation word is in `[0, 6)`. -/
theorem flushed_eq (c : Dev nD)
    (hrot : ∀ b : Fin 1024, ((V m c main_v10 : Vec Ideal S1024x1 .i32) (ix2 b (0 : Fin 1))).toNat < 6) (t : Fin cfg0.N) :
    (dats m 0 c).flushed 11 t = ((cfg0.win 11).blk t).view.read (Elt Ideal)
      (G3 (V m c main_v0) (V m c main_v1) (V m c main_v2) (V m c main_v3) (V m c main_v4) (V m c main_v5) (V m c main_v6) (V m c main_v7) (V m c main_v8) (V m c main_v9) (V m c main_v10)) := by
  show (cfg0.win 11).cut (grid0.coords t) ((dats m 0 c).after 11 t) = _
  rw [after0_11]
  funext y
  obtain ⟨b, ch, p, rfl⟩ : ∃ (b : Fin 8) (ch : Fin 161) (p : Fin 625), y = ix3 b ch p := ⟨y 0, y 1, y 2, eq_ix3 y⟩
  have hr : ((iblk m c 10 t : Vec Ideal S8x1 .i32) (ix2 b (0 : Fin 1))).toNat < 6 := by
    show ((V m c main_v10 : Vec Ideal S1024x1 .i32) (((cfg0.win 10).blk t).view.emb (ix2 b (0 : Fin 1)))).toNat < 6
    rw [emb10]; exact hrot _
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 b ch p)
    = G3 (V m c main_v0) (V m c main_v1) (V m c main_v2) (V m c main_v3) (V m c main_v4) (V m c main_v5) (V m c main_v6) (V m c main_v7) (V m c main_v8) (V m c main_v9) (V m c main_v10) (((cfg0.win 11).blk t).view.emb (ix3 b ch p))
  rw [emb11]
  refine (Cert.KernelIdeal.KerValue.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) b ch p hr).trans ?_
  simp only [iblk0_apply m c t b _ p, iblk1_apply m c t b _ p, iblk2_apply m c t b _ p, iblk3_apply m c t b _ p, iblk4_apply m c t b _ p,
    iblk5_apply m c t b _ p, iblk6_apply m c t b _ p, iblk7_apply m c t b _ p, iblk8_apply m c t b _ p, iblk9_apply m c t b _ p, iblk10_apply m c t b]
  rfl

/-! ## The output blocks tile the output array -/

/-- An index of the output array is in point `t`'s block iff each coordinate is in the block's range on its axis. -/
theorem mem_blk (t : Fin cfg0.N) (i : S1024x161x625.Idx) :
    i ∈ ((cfg0.win 11).blk t).view.set ↔ ∀ a : Fin 3, win0_11.index t a * S8x161x625.size a ≤ (i a).val ∧ (i a).val < win0_11.index t a * S8x161x625.size a + S8x161x625.size a := by
  show i ∈ ((View.whole main_v11).slice (win0_11.rect t)).set ↔ _
  rw [View.set_slice_whole, Rect.mem_set_unit]
  exact Iff.rfl

/-- Row `r` of the output is in the block of point `r / 8`. -/
theorem cover (i : S1024x161x625.Idx) :
    ∃ t : Fin cfg0.N, (cfg0.win 11).flush t = true ∧ i ∈ ((cfg0.win 11).blk t).view.set := by
  have h0 : (i 0).val < 1024 := (i 0).isLt
  have h1 : (i 1).val < 161 := (i 1).isLt
  have h2 : (i 2).val < 625 := (i 2).isLt
  have hN : cfg0.N = 128 := N_0
  refine ⟨⟨(i 0).val / 8, by rw [hN]; omega⟩, flush0_11 _, ?_⟩
  rw [mem_blk]
  have e := idx_facts ⟨(i 0).val / 8, by rw [hN]; omega⟩
  intro a
  match a with
  | ⟨0, _⟩ => show win0_11.index _ (0 : Fin 3) * 8 ≤ (i 0).val ∧ (i 0).val < win0_11.index _ (0 : Fin 3) * 8 + 8; rw [e.2.2.2.2.2.2.2.2.2.2.2.2.2.2.2.2.2.2.2.2.2.2.2.2.2.2.2.2.2.2.1]; show (i 0).val / 8 * 8 ≤ (i 0).val ∧ (i 0).val < (i 0).val / 8 * 8 + 8; omega
  | ⟨1, _⟩ => show win0_11.index _ (1 : Fin 3) * 161 ≤ (i 1).val ∧ (i 1).val < win0_11.index _ (1 : Fin 3) * 161 + 161; rw [e.2.2.2.2.2.2.2.2.2.2.2.2.2.2.2.2.2.2.2.2.2.2.2.2.2.2.2.2.2.2.2.1]; omega
  | ⟨2, _⟩ => show win0_11.index _ (2 : Fin 3) * 625 ≤ (i 2).val ∧ (i 2).val < win0_11.index _ (2 : Fin 3) * 625 + 625; rw [e.2.2.2.2.2.2.2.2.2.2.2.2.2.2.2.2.2.2.2.2.2.2.2.2.2.2.2.2.2.2.2.2.1]; omega

/-- The output array after the run is `G3` of the operand arrays. -/
theorem final (c : Dev nD)
    (hrot : ∀ b : Fin 1024, ((V m c main_v10 : Vec Ideal S1024x1 .i32) (ix2 b (0 : Fin 1))).toNat < 6) :
    (dats m 0 c).arrAt 11 cfg0.N = G3 (V m c main_v0) (V m c main_v1) (V m c main_v2) (V m c main_v3) (V m c main_v4) (V m c main_v5) (V m c main_v6) (V m c main_v7) (V m c main_v8) (V m c main_v9) (V m c main_v10) :=
  (dats m 0 c).arrAt_eq_of_cover 11 (G3 (V m c main_v0) (V m c main_v1) (V m c main_v2) (V m c main_v3) (V m c main_v4) (V m c main_v5) (V m c main_v6) (V m c main_v7) (V m c main_v8) (V m c main_v9) (V m c main_v10)) (fun t _ => flushed_eq m c hrot t) cover

/-! ## The operand arrays are the arguments with the grid flattened -/

/-- The flattened cell of `(h, w)`. -/
def cell (h w : Fin 25) : Fin 625 := ⟨25 * h.val + w.val, by have := h.isLt; have := w.isLt; omega⟩

theorem V_v0 (c : Dev nD) : (V m c main_v0 : Vec Ideal S1024x128x625 .f32)
    = shapeCast S1024x128x625 (m ((c : Thread nD τ).loc main_arg0) : Vec Ideal S1024x128x25x25 .f32) shapeCasts_S1024x128x25x25_S1024x128x625 := by
  show StableHlo.after hostOps0 (fun b => m (c, b)) (Proc.devRef .tc main_v0) = _
  after_results
  rfl

theorem V_v1 (c : Dev nD) : (V m c main_v1 : Vec Ideal S1024x128x625 .f32)
    = shapeCast S1024x128x625 (m ((c : Thread nD τ).loc main_arg1) : Vec Ideal S1024x128x25x25 .f32) shapeCasts_S1024x128x25x25_S1024x128x625 := by
  show StableHlo.after hostOps0 (fun b => m (c, b)) (Proc.devRef .tc main_v1) = _
  after_results
  rfl

theorem V_v2 (c : Dev nD) : (V m c main_v2 : Vec Ideal S1024x1x625 .f32)
    = shapeCast S1024x1x625 (m ((c : Thread nD τ).loc main_arg2) : Vec Ideal S1024x25x25 .f32) shapeCasts_S1024x25x25_S1024x1x625 := by
  show StableHlo.after hostOps0 (fun b => m (c, b)) (Proc.devRef .tc main_v2) = _
  after_results
  rfl

theorem V_v3 (c : Dev nD) : (V m c main_v3 : Vec Ideal S1024x1x625 .f32)
    = shapeCast S1024x1x625 (m ((c : Thread nD τ).loc main_arg3) : Vec Ideal S1024x25x25 .f32) shapeCasts_S1024x25x25_S1024x1x625 := by
  show StableHlo.after hostOps0 (fun b => m (c, b)) (Proc.devRef .tc main_v3) = _
  after_results
  rfl

theorem V_v4 (c : Dev nD) : (V m c main_v4 : Vec Ideal S1024x1x625 .f32)
    = shapeCast S1024x1x625 (m ((c : Thread nD τ).loc main_arg4) : Vec Ideal S1024x25x25 .f32) shapeCasts_S1024x25x25_S1024x1x625 := by
  show StableHlo.after hostOps0 (fun b => m (c, b)) (Proc.devRef .tc main_v4) = _
  after_results
  rfl

theorem V_v5 (c : Dev nD) : (V m c main_v5 : Vec Ideal S1024x6x625 .f32)
    = shapeCast S1024x6x625 (m ((c : Thread nD τ).loc main_arg5) : Vec Ideal S1024x6x25x25 .f32) shapeCasts_S1024x6x25x25_S1024x6x625 := by
  show StableHlo.after hostOps0 (fun b => m (c, b)) (Proc.devRef .tc main_v5) = _
  after_results
  rfl

theorem V_v6 (c : Dev nD) : (V m c main_v6 : Vec Ideal S1024x6x625 .f32)
    = shapeCast S1024x6x625 (m ((c : Thread nD τ).loc main_arg6) : Vec Ideal S1024x6x25x25 .f32) shapeCasts_S1024x6x25x25_S1024x6x625 := by
  show StableHlo.after hostOps0 (fun b => m (c, b)) (Proc.devRef .tc main_v6) = _
  after_results
  rfl

theorem V_v7 (c : Dev nD) : (V m c main_v7 : Vec Ideal S1024x6x625 .f32)
    = shapeCast S1024x6x625 (m ((c : Thread nD τ).loc main_arg7) : Vec Ideal S1024x6x25x25 .f32) shapeCasts_S1024x6x25x25_S1024x6x625 := by
  show StableHlo.after hostOps0 (fun b => m (c, b)) (Proc.devRef .tc main_v7) = _
  after_results
  rfl

theorem V_v8 (c : Dev nD) : (V m c main_v8 : Vec Ideal S1024x1x625 .f32)
    = shapeCast S1024x1x625 (m ((c : Thread nD τ).loc main_arg8) : Vec Ideal S1024x25x25 .f32) shapeCasts_S1024x25x25_S1024x1x625 := by
  show StableHlo.after hostOps0 (fun b => m (c, b)) (Proc.devRef .tc main_v8) = _
  after_results
  rfl

theorem V_v9 (c : Dev nD) : (V m c main_v9 : Vec Ideal S1024x1x625 .f32)
    = shapeCast S1024x1x625 (m ((c : Thread nD τ).loc main_arg9) : Vec Ideal S1024x25x25 .f32) shapeCasts_S1024x25x25_S1024x1x625 := by
  show StableHlo.after hostOps0 (fun b => m (c, b)) (Proc.devRef .tc main_v9) = _
  after_results
  rfl

theorem V_v10 (c : Dev nD) : (V m c main_v10 : Vec Ideal S1024x1 .i32)
    = shapeCast S1024x1 (m ((c : Thread nD τ).loc main_arg10) : Vec Ideal S1024 .i32) shapeCasts_S1024_S1024x1 := by
  show StableHlo.after hostOps0 (fun b => m (c, b)) (Proc.devRef .tc main_v10) = _
  after_results
  rfl

/-! ## The operand arrays read at a flattened cell -/

theorem V_v0_apply (c : Dev nD) (b : Fin 1024) (k : Fin 128) (h w : Fin 25) :
    (V m c main_v0 : Vec Ideal S1024x128x625 .f32) (ix3 b k (cell h w))
      = (m ((c : Thread nD τ).loc main_arg0) : Vec Ideal S1024x128x25x25 .f32) (ix4 b k h w) := by
  rw [V_v0]
  refine shapeCast_apply _ _ (ix3 b k (cell h w)) (ix4 b k h w) ?_
  rw [Shape.rowMajor_val_four, Shape.rowMajor_val_three]
  show ((b.val * 128 + k.val) * 25 + h.val) * 25 + w.val = (b.val * 128 + k.val) * 625 + (25 * h.val + w.val)
  omega

theorem V_v1_apply (c : Dev nD) (b : Fin 1024) (k : Fin 128) (h w : Fin 25) :
    (V m c main_v1 : Vec Ideal S1024x128x625 .f32) (ix3 b k (cell h w))
      = (m ((c : Thread nD τ).loc main_arg1) : Vec Ideal S1024x128x25x25 .f32) (ix4 b k h w) := by
  rw [V_v1]
  refine shapeCast_apply _ _ (ix3 b k (cell h w)) (ix4 b k h w) ?_
  rw [Shape.rowMajor_val_four, Shape.rowMajor_val_three]
  show ((b.val * 128 + k.val) * 25 + h.val) * 25 + w.val = (b.val * 128 + k.val) * 625 + (25 * h.val + w.val)
  omega

theorem V_v5_apply (c : Dev nD) (b : Fin 1024) (k : Fin 6) (h w : Fin 25) :
    (V m c main_v5 : Vec Ideal S1024x6x625 .f32) (ix3 b k (cell h w))
      = (m ((c : Thread nD τ).loc main_arg5) : Vec Ideal S1024x6x25x25 .f32) (ix4 b k h w) := by
  rw [V_v5]
  refine shapeCast_apply _ _ (ix3 b k (cell h w)) (ix4 b k h w) ?_
  rw [Shape.rowMajor_val_four, Shape.rowMajor_val_three]
  show ((b.val * 6 + k.val) * 25 + h.val) * 25 + w.val = (b.val * 6 + k.val) * 625 + (25 * h.val + w.val)
  omega

theorem V_v6_apply (c : Dev nD) (b : Fin 1024) (k : Fin 6) (h w : Fin 25) :
    (V m c main_v6 : Vec Ideal S1024x6x625 .f32) (ix3 b k (cell h w))
      = (m ((c : Thread nD τ).loc main_arg6) : Vec Ideal S1024x6x25x25 .f32) (ix4 b k h w) := by
  rw [V_v6]
  refine shapeCast_apply _ _ (ix3 b k (cell h w)) (ix4 b k h w) ?_
  rw [Shape.rowMajor_val_four, Shape.rowMajor_val_three]
  show ((b.val * 6 + k.val) * 25 + h.val) * 25 + w.val = (b.val * 6 + k.val) * 625 + (25 * h.val + w.val)
  omega

theorem V_v7_apply (c : Dev nD) (b : Fin 1024) (k : Fin 6) (h w : Fin 25) :
    (V m c main_v7 : Vec Ideal S1024x6x625 .f32) (ix3 b k (cell h w))
      = (m ((c : Thread nD τ).loc main_arg7) : Vec Ideal S1024x6x25x25 .f32) (ix4 b k h w) := by
  rw [V_v7]
  refine shapeCast_apply _ _ (ix3 b k (cell h w)) (ix4 b k h w) ?_
  rw [Shape.rowMajor_val_four, Shape.rowMajor_val_three]
  show ((b.val * 6 + k.val) * 25 + h.val) * 25 + w.val = (b.val * 6 + k.val) * 625 + (25 * h.val + w.val)
  omega

theorem V_v2_apply (c : Dev nD) (b : Fin 1024) (h w : Fin 25) :
    (V m c main_v2 : Vec Ideal S1024x1x625 .f32) (ix3 b (0 : Fin 1) (cell h w))
      = (m ((c : Thread nD τ).loc main_arg2) : Vec Ideal S1024x25x25 .f32) (ix3 b h w) := by
  rw [V_v2]
  refine shapeCast_apply _ _ (ix3 b (0 : Fin 1) (cell h w)) (ix3 b h w) ?_
  rw [Shape.rowMajor_val_three, Shape.rowMajor_val_three]
  show (b.val * 25 + h.val) * 25 + w.val = (b.val * 1 + 0) * 625 + (25 * h.val + w.val)
  omega

theorem V_v3_apply (c : Dev nD) (b : Fin 1024) (h w : Fin 25) :
    (V m c main_v3 : Vec Ideal S1024x1x625 .f32) (ix3 b (0 : Fin 1) (cell h w))
      = (m ((c : Thread nD τ).loc main_arg3) : Vec Ideal S1024x25x25 .f32) (ix3 b h w) := by
  rw [V_v3]
  refine shapeCast_apply _ _ (ix3 b (0 : Fin 1) (cell h w)) (ix3 b h w) ?_
  rw [Shape.rowMajor_val_three, Shape.rowMajor_val_three]
  show (b.val * 25 + h.val) * 25 + w.val = (b.val * 1 + 0) * 625 + (25 * h.val + w.val)
  omega

theorem V_v4_apply (c : Dev nD) (b : Fin 1024) (h w : Fin 25) :
    (V m c main_v4 : Vec Ideal S1024x1x625 .f32) (ix3 b (0 : Fin 1) (cell h w))
      = (m ((c : Thread nD τ).loc main_arg4) : Vec Ideal S1024x25x25 .f32) (ix3 b h w) := by
  rw [V_v4]
  refine shapeCast_apply _ _ (ix3 b (0 : Fin 1) (cell h w)) (ix3 b h w) ?_
  rw [Shape.rowMajor_val_three, Shape.rowMajor_val_three]
  show (b.val * 25 + h.val) * 25 + w.val = (b.val * 1 + 0) * 625 + (25 * h.val + w.val)
  omega

theorem V_v8_apply (c : Dev nD) (b : Fin 1024) (h w : Fin 25) :
    (V m c main_v8 : Vec Ideal S1024x1x625 .f32) (ix3 b (0 : Fin 1) (cell h w))
      = (m ((c : Thread nD τ).loc main_arg8) : Vec Ideal S1024x25x25 .f32) (ix3 b h w) := by
  rw [V_v8]
  refine shapeCast_apply _ _ (ix3 b (0 : Fin 1) (cell h w)) (ix3 b h w) ?_
  rw [Shape.rowMajor_val_three, Shape.rowMajor_val_three]
  show (b.val * 25 + h.val) * 25 + w.val = (b.val * 1 + 0) * 625 + (25 * h.val + w.val)
  omega

theorem V_v9_apply (c : Dev nD) (b : Fin 1024) (h w : Fin 25) :
    (V m c main_v9 : Vec Ideal S1024x1x625 .f32) (ix3 b (0 : Fin 1) (cell h w))
      = (m ((c : Thread nD τ).loc main_arg9) : Vec Ideal S1024x25x25 .f32) (ix3 b h w) := by
  rw [V_v9]
  refine shapeCast_apply _ _ (ix3 b (0 : Fin 1) (cell h w)) (ix3 b h w) ?_
  rw [Shape.rowMajor_val_three, Shape.rowMajor_val_three]
  show (b.val * 25 + h.val) * 25 + w.val = (b.val * 1 + 0) * 625 + (25 * h.val + w.val)
  omega

theorem V_v10_apply (c : Dev nD) (b : Fin 1024) :
    (V m c main_v10 : Vec Ideal S1024x1 .i32) (ix2 b (0 : Fin 1))
      = (m ((c : Thread nD τ).loc main_arg10) : Vec Ideal S1024 .i32) (ix1 b) := by
  rw [V_v10]
  refine shapeCast_apply _ _ (ix2 b (0 : Fin 1)) (ix1 b) ?_
  rw [Shape.rowMajor_val_one, Shape.rowMajor_val_two]
  show b.val = b.val * 1 + 0
  omega

/-! ## The program's result -/

/-- The result buffer after the reshape that follows the region: the specification's output array of the arguments,
    when every rotation word is in `[0, 6)`. -/
theorem result_eq (c : Dev nD)
    (hpre : ∀ b : Fin 1024, ((m ((c : Thread nD τ).loc main_arg10) : Vec Ideal S1024 .i32) (ix1 b)).toNat < 6) :
    Pipeline.afterTail₀ cfgs (dats m) 0 (V0 m) [hostOps1] c main_v12
      = Cert.Spec.outArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  have hrot : ∀ b : Fin 1024, ((V m c main_v10 : Vec Ideal S1024x1 .i32) (ix2 b (0 : Fin 1))).toNat < 6 := fun b => by
    rw [V_v10_apply]; exact hpre b
  unfold Pipeline.afterTail₀
  show StableHlo.after hostOps1 _ (Proc.devRef .tc main_v12) = _
  after_results
  have hW : Pipeline.withArrays (cfgs 0).spec c (V0 m c) (fun w => (dats m 0 c).arrAt w (cfgs 0).N) (Proc.devRef .tc main_v11)
      = G3 (V m c main_v0) (V m c main_v1) (V m c main_v2) (V m c main_v3) (V m c main_v4) (V m c main_v5) (V m c main_v6) (V m c main_v7) (V m c main_v8) (V m c main_v9) (V m c main_v10) :=
    (Pipeline.withArrays_arr spec0 launch0.win.arr_inj c _ _ 11).trans (final m c hrot)
  funext i
  obtain ⟨b, ch, h, w, rfl⟩ : ∃ (b : Fin 1024) (ch : Fin 161) (h w : Fin 25), i = ix4 b ch h w :=
    ⟨i 0, i 1, i 2, i 3, eq_ix4 i⟩
  show shapeCast S1024x161x25x25 (Pipeline.withArrays (cfgs 0).spec c (V0 m c) (fun w => (dats m 0 c).arrAt w (cfgs 0).N) (Proc.devRef .tc main_v11))
      shapeCasts_S1024x161x625_S1024x161x25x25 (ix4 b ch h w) = _
  rw [hW]
  refine (shapeCast_apply _ _ (ix4 b ch h w) (ix3 b ch (cell h w)) ?_).trans ?_
  · rw [Shape.rowMajor_val_three, Shape.rowMajor_val_four]
    show (b.val * 161 + ch.val) * 625 + (25 * h.val + w.val) = ((b.val * 161 + ch.val) * 25 + h.val) * 25 + w.val
    omega
  · exact outVal_congr (funext fun k => V_v0_apply m c b k h w) (funext fun k => V_v1_apply m c b k h w) (V_v2_apply m c b h w)
      (V_v3_apply m c b h w) (V_v4_apply m c b h w) (V_v8_apply m c b h w) (V_v9_apply m c b h w) (funext fun k => V_v5_apply m c b k h w)
      (funext fun k => V_v6_apply m c b k h w) (funext fun k => V_v7_apply m c b k h w) (congrArg Cert.Spec.rotOf (V_v10_apply m c b)) ch

/-- The run, read: the result buffer ends at the specification's output array of the arguments and the arguments
    end unchanged, when every rotation word is in `[0, 6)`. -/
theorem run (hpre : ∀ (c : Dev nD) (b : Fin 1024), ((m ((c : Thread nD τ).loc main_arg10) : Vec Ideal S1024 .i32) (ix1 b)).toNat < 6) :
    θ_run defs (onTc (τ := τ) (main (F := Ideal))) ⟨m, fun _ => 0, ρ⟩ fun r => ∀ c : Dev nD,
      r.2.mem ((c : Thread nD τ).loc main_v12) = Cert.Spec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(((h c).2 main_v12 (Pipeline.mem_restRefs_of main_v12 (by decide) (by decide))).trans (result_eq m c (hpre c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.KerArray

end
-- ==== Proof.RefTerm.lean ====
/-
  The reference program's result as ONE pure term of its eleven argument arrays: every host operation of its
  @main applied in order, the three outlined helpers (the floor-modulo `remainder`, `take_along_axis`, `one_hot`)
  written once as functions of their operands. The egocentric shift of the six rotation channels is a gather along
  the channel axis at the index `(j - rot b) mod 6`.
-/
import proofs.«405264_j2783138808252_1_alg».proof.Proof.Gen.ReferenceIdeal
import Idealize.ShloMosaic.PureOps.Ideal

noncomputable section

namespace Cert.ReferenceIdeal.RefValue

open Cert.ReferenceIdeal Cert.ReferenceIdeal.Gen Idealize.ShloMosaic

variable {F : FTy → Type} [FloatOps F]

/-- The floor-modulo of every entry of `x` by the scalar `n` (a divisor `0` replaced by `1`): the truncated
    remainder, moved by `n` where it is non-zero and its sign differs from `n`'s. -/
def remT (x : IVec S1024x6 32) (n : IVec S_ 32) : IVec S1024x6 32 :=
  let v0 : IVec S_ 32 := id n
  let c : IVec S_ 32 := constantI S_ 32 0#32
  let v1 : IVec S_ 1 := cmpi .eq v0 c
  let c_0 : IVec S_ 32 := constantI S_ 32 1#32
  let v2 : IVec S_ 32 := select v1 c_0 v0
  let v3 : IVec S1024x6 32 := broadcastInDim S1024x6 ![] bcast_S_S1024x6 v2
  let v4 : IVec S1024x6 32 := Host.remsi x v3
  let c_1 : IVec S_ 32 := constantI S_ 32 0#32
  let v5 : IVec S1024x6 32 := broadcastInDim S1024x6 ![] bcast_S_S1024x6 c_1
  let v6 : IVec S1024x6 1 := cmpi .ne v4 v5
  let c_2 : IVec S_ 32 := constantI S_ 32 0#32
  let v7 : IVec S1024x6 32 := broadcastInDim S1024x6 ![] bcast_S_S1024x6 c_2
  let v8 : IVec S1024x6 1 := cmpi .slt v4 v7
  let c_3 : IVec S_ 32 := constantI S_ 32 0#32
  let v9 : IVec S_ 1 := cmpi .slt v2 c_3
  let v10 : IVec S1024x6 1 := broadcastInDim S1024x6 ![] bcast_S_S1024x6 v9
  let v11 : IVec S1024x6 1 := cmpi .ne v8 v10
  let v12 : IVec S1024x6 1 := andi v11 v6
  let v13 : IVec S1024x6 32 := broadcastInDim S1024x6 ![] bcast_S_S1024x6 v2
  let v14 : IVec S1024x6 32 := addi v4 v13
  select v12 v14 v4

/-- `take_along_axis` on the channel axis: a negative index moved up by six, the gather of one channel plane per
    index, and the fill value wherever the moved index is outside `[0, 5]`. -/
def takeT (x : FVec F S1024x6x25x25 .f32) (i : IVec S1024x6x1x1 32) : FVec F S1024x6x25x25 .f32 :=
  let c : IVec S_ 32 := constantI S_ 32 0#32
  let v0 : IVec S1024x6x1x1 32 := broadcastInDim S1024x6x1x1 ![] bcast_S_S1024x6x1x1 c
  let v1 : IVec S1024x6x1x1 1 := cmpi .slt i v0
  let c_0 : IVec S_ 32 := constantI S_ 32 6#32
  let v2 : IVec S1024x6x1x1 32 := broadcastInDim S1024x6x1x1 ![] bcast_S_S1024x6x1x1 c_0
  let v3 : IVec S1024x6x1x1 32 := addi i v2
  let v4 : IVec S1024x6x1x1 32 := select v1 v3 i
  let v5 : IVec S1024x6x1 32 := shapeCast S1024x6x1 v4 shapeCasts_S1024x6x1x1_S1024x6x1
  let c_1 : IVec S1 32 := constantI S1 32 5#32
  let c_2 : IVec S_ 32 := constantI S_ 32 0#32
  let v6 : IVec S1024x6x1 32 := broadcastInDim S1024x6x1 ![] bcast_S_S1024x6x1 c_2
  let v7 : IVec S1024x6x1 1 := cmpi .sge v5 v6
  let v8 : IVec S1x1x1 32 := broadcastInDim S1x1x1 ![2] bcast_S1_S1x1x1_2 c_1
  let v9 : IVec S1024x6x1 32 := broadcastInDim S1024x6x1 ![0, 1, 2] bcast_S1x1x1_S1024x6x1_0_1_2 v8
  let v10 : IVec S1024x6x1 1 := cmpi .sle v5 v9
  let v11 : IVec S1024x6x1 1 := andi v7 v10
  let c_3 : IVec S_ 1 := constantI S_ 1 1#1
  let v12 : IVec S1024x6 1 := Host.reduce IntOp.andi v11 c_3 reducesTo_S1024x6x1_S1024x6_d2 h_S_
  let v13 : FVec F S1024x6x25x25 .f32 := Host.gather gather_S1024x6x25x25_S1024x6x1_S1024x6x25x25_23_1_0_0_1_2_112525 x v5
  let v14 : IVec S1024x6x25x25 1 := broadcastInDim S1024x6x25x25 ![0, 1] bcast_S1024x6_S1024x6x25x25_0_1 v12
  let cst : FVec F S_ .f32 := constant S_ .f32 0x7FC00000#32
  let v15 : FVec F S1024x6x25x25 .f32 := broadcastInDim S1024x6x25x25 ![] bcast_S_S1024x6x25x25 cst
  select v14 v13 v15

/-- `one_hot(rot, 6)`: entry `(b, j)` is one where `rot b = j`, else zero. -/
def oneHotT (rot : IVec S1024 32) : FVec F S1024x6 .f32 :=
  let v0 : IVec S1024x1 32 := broadcastInDim S1024x1 ![0] bcast_S1024_S1024x1_0 rot
  let v1 : IVec S1x6 32 := iotaInDim S1x6 32 1
  let v2 : IVec S1024x6 32 := broadcastInDim S1024x6 ![0, 1] bcast_S1024x1_S1024x6_0_1 v0
  let v3 : IVec S1024x6 32 := broadcastInDim S1024x6 ![0, 1] bcast_S1x6_S1024x6_0_1 v1
  let v4 : IVec S1024x6 1 := cmpi .eq v2 v3
  uitofp .f32 v4

/-- The gather index of the egocentric shift: `(j - rot b) mod 6` at `(b, j)`, with two unit axes appended. -/
def shiftIdx (rot : IVec S1024 32) : IVec S1024x6x1x1 32 :=
  let v6 : IVec S6 32 := iotaInDim S6 32 0
  let v7 : IVec S1x6 32 := broadcastInDim S1x6 ![1] bcast_S6_S1x6_1 v6
  let v8 : IVec S1024x1 32 := broadcastInDim S1024x1 ![0] bcast_S1024_S1024x1_0 rot
  let v9 : IVec S1024x6 32 := broadcastInDim S1024x6 ![0, 1] bcast_S1x6_S1024x6_0_1 v7
  let v10 : IVec S1024x6 32 := broadcastInDim S1024x6 ![0, 1] bcast_S1024x1_S1024x6_0_1 v8
  let v11 : IVec S1024x6 32 := subi v9 v10
  let c : IVec S_ 32 := constantI S_ 32 6#32
  let v12 : IVec S1024x6 32 := remT v11 c
  broadcastInDim S1024x6x1x1 ![0, 1] bcast_S1024x6_S1024x6x1x1_0_1 v12

/-- A rank-3 map `[1024, 25, 25]` as the one-channel tensor `[1024, 1, 25, 25]`. -/
def chan1 (x : FVec F S1024x25x25 .f32) : FVec F S1024x1x25x25 .f32 :=
  broadcastInDim S1024x1x25x25 ![0, 2, 3] bcast_S1024x25x25_S1024x1x25x25_0_2_3 x

/-- The sum over the six rotation channels, kept as one channel. -/
def chanSum (x : FVec F S1024x6x25x25 .f32) : FVec F S1024x1x25x25 .f32 :=
  chan1 (Host.reduceAdd x (constant S_ .f32 0x00000000#32) reducesTo_S1024x6x25x25_S1024x25x25_d1 h_S_)

/-- An array scaled by one half. -/
def halved (x : FVec F S1024x6x25x25 .f32) : FVec F S1024x6x25x25 .f32 :=
  mulf x (broadcastInDim S1024x6x25x25 ![] bcast_S_S1024x6x25x25 (constant S_ .f32 0x3F000000#32))

/-- The reference's result: the 154 environment channels times the memory-observability map, then the constant
    channel, then the six compass planes. -/
def refTerm (a0 a1 : FVec F S1024x128x25x25 .f32) (a2 a3 a4 : FVec F S1024x25x25 .f32)
    (a5 a6 a7 : FVec F S1024x6x25x25 .f32) (a8 a9 : FVec F S1024x25x25 .f32) (a10 : IVec S1024 32) :
    FVec F S1024x161x25x25 .f32 :=
  let v0 : FVec F S1024x128x25x25 .f32 := addf a0 a1
  let v1 : FVec F S1024x1x25x25 .f32 := chan1 a4
  let v14 : FVec F S1024x6x25x25 .f32 := takeT (halved a5) (shiftIdx a10)
  let v23 : FVec F S1024x6x25x25 .f32 := takeT (halved a6) (shiftIdx a10)
  let v32 : FVec F S1024x6x25x25 .f32 := takeT a7 (shiftIdx a10)
  let v34 : FVec F S1024x1x25x25 .f32 := chanSum a5
  let v39 : FVec F S1024x140x25x25 .f32 := concatenate S1024x140x25x25 1 [⟨S1024x128x25x25, v0⟩, ⟨S1024x1x25x25, chan1 a2⟩, ⟨S1024x1x25x25, chan1 a3⟩, ⟨S1024x1x25x25, v1⟩, ⟨S1024x6x25x25, v14⟩, ⟨S1024x1x25x25, v34⟩, ⟨S1024x1x25x25, chan1 a8⟩, ⟨S1024x1x25x25, chan1 a9⟩] concatenates_S1024x128x25x25_S1024x1x25x25_S1024x1x25x25_S1024x1x25x25_S1024x6x25x25_S1024x1x25x25_S1024x1x25x25_S1024x1x25x25_S1024x140x25x25_d1
  let v44 : FVec F S1024x154x25x25 .f32 := concatenate S1024x154x25x25 1 [⟨S1024x140x25x25, v39⟩, ⟨S1024x6x25x25, v23⟩, ⟨S1024x6x25x25, v32⟩, ⟨S1024x1x25x25, chanSum v23⟩, ⟨S1024x1x25x25, chanSum v32⟩] concatenates_S1024x140x25x25_S1024x6x25x25_S1024x6x25x25_S1024x1x25x25_S1024x1x25x25_S1024x154x25x25_d1
  let v45 : FVec F S1024x154x25x25 .f32 := broadcastInDim S1024x154x25x25 ![0, 1, 2, 3] bcast_S1024x1x25x25_S1024x154x25x25_0_1_2_3 v1
  let v46 : FVec F S1024x154x25x25 .f32 := mulf v44 v45
  let v47 : FVec F S1024x1x25x25 .f32 := broadcastInDim S1024x1x25x25 ![] bcast_S_S1024x1x25x25 (constant S_ .f32 0x3F800000#32)
  let v49 : FVec F S1024x6x1x1 .f32 := broadcastInDim S1024x6x1x1 ![0, 1] bcast_S1024x6_S1024x6x1x1_0_1 (oneHotT a10)
  let v50 : FVec F S1024x6x25x25 .f32 := broadcastInDim S1024x6x25x25 ![0, 1, 2, 3] bcast_S1024x6x1x1_S1024x6x25x25_0_1_2_3 v49
  concatenate S1024x161x25x25 1 [⟨S1024x154x25x25, v46⟩, ⟨S1024x1x25x25, v47⟩, ⟨S1024x6x25x25, v50⟩] concatenates_S1024x154x25x25_S1024x1x25x25_S1024x6x25x25_S1024x161x25x25_d1

end Cert.ReferenceIdeal.RefValue

end
-- ==== Proof.RefInt.lean ====
/-
  The integer side of the reference's egocentric shift, read at an index. The gather index at `(b, j)` is the
  floor-modulo of `j - rot b` by six, which for a rotation word in `[0, 6)` is `(j + 6 - rot b) mod 6`, a word in
  `[0, 6)`; at such an index `take_along_axis` neither moves the index up by six nor fills, and returns the operand's
  channel plane at that index; and `one_hot` is the indicator of `rot b = j`.
-/
import proofs.«405264_j2783138808252_1_alg».proof.Proof.RefTerm
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The floor-modulo by six of one word -/

/-- The floor-modulo by six of one word: the truncated remainder, moved up by six where it is non-zero and negative. -/
def fmod6 (x : BitVec 32) : BitVec 32 :=
  Scalar.select
    (IntOp.andi (IntOp.cmpi .ne (IntOp.cmpi .slt (IntOp.remsi .host x 6#32) 0#32) (IntOp.cmpi .slt 6#32 0#32))
      (IntOp.cmpi .ne (IntOp.remsi .host x 6#32) 0#32))
    (IntOp.addi (IntOp.remsi .host x 6#32) 6#32) (IntOp.remsi .host x 6#32)

/-- `remT` by the scalar six reads, at every index, the floor-modulo by six of the entry. -/
theorem remT_six_apply (x : IVec S1024x6 32) (i : S1024x6.Idx) :
    remT x (constantI S_ 32 6#32) i = fmod6 (x i) := rfl

/-- For `m`, `n` in `[0, 6)` the floor-modulo by six of the word `m - n` is the word `(m + 6 - n) mod 6`. -/
theorem fmod6_sub (m n : Nat) (hm : m < 6) (hn : n < 6) :
    fmod6 (BitVec.ofNat 32 m - BitVec.ofNat 32 n) = BitVec.ofNat 32 ((m + 6 - n) % 6) := by
  interval_cases m <;> interval_cases n <;> decide

/-! ## The broadcasts of the index computation, read at coordinates -/

/-- A `[1024, 6]` array given two unit axes reads, at `(b, j, 0, 0)`, its entry `(b, j)`. -/
theorem bcast_2_4_apply {α : Type} (x : S1024x6.Idx → α) (b : Fin 1024) (j : Fin 6) :
    broadcastInDim S1024x6x1x1 ![0, 1] bcast_S1024x6_S1024x6x1x1_0_1 x (ix4 b j (0 : Fin 1) (0 : Fin 1)) = x (ix2 b j) :=
  broadcastInDim_apply _ _ x _ (ix2 b j) (fun a => match a with | ⟨0, _⟩ => rfl | ⟨1, _⟩ => rfl)

/-- The iota along the channel axis, broadcast over the batch, reads the word `j` at `(b, j)`. -/
theorem iota_chan_apply (b : Fin 1024) (j : Fin 6) :
    broadcastInDim S1024x6 ![0, 1] bcast_S1x6_S1024x6_0_1
      (broadcastInDim S1x6 ![1] bcast_S6_S1x6_1 (iotaInDim S6 32 0)) (ix2 b j) = BitVec.ofNat 32 j.val := rfl

/-- The rotation words, broadcast along the channel axis, read `rot b` at `(b, j)`. -/
theorem rot_bcast_apply (rot : IVec S1024 32) (b : Fin 1024) (j : Fin 6) :
    broadcastInDim S1024x6 ![0, 1] bcast_S1024x1_S1024x6_0_1
      (broadcastInDim S1024x1 ![0] bcast_S1024_S1024x1_0 rot) (ix2 b j) = rot (ix1 b) := by
  rw [broadcastInDim_apply _ _ _ (ix2 b j) (ix2 b (0 : Fin 1)) (fun a => match a with | ⟨0, _⟩ => rfl | ⟨1, _⟩ => rfl)]
  exact broadcastInDim_apply _ _ rot _ (ix1 b) (fun a => match a with | ⟨0, _⟩ => rfl)

/-- The gather index at `(b, j)`: `(j - rot b)` floor-modulo six. -/
theorem shiftIdx_apply (a10 : IVec S1024 32) (b : Fin 1024) (j : Fin 6) (hr : (a10 (ix1 b)).toNat < 6) :
    shiftIdx a10 (ix4 b j (0 : Fin 1) (0 : Fin 1)) = BitVec.ofNat 32 ((j.val + 6 - (a10 (ix1 b)).toNat) % 6) := by
  have h0 : shiftIdx a10 (ix4 b j (0 : Fin 1) (0 : Fin 1))
      = fmod6 (BitVec.ofNat 32 j.val - a10 (ix1 b)) := by
    unfold shiftIdx
    rw [bcast_2_4_apply, remT_six_apply]
    show fmod6 (IntOp.subi _ _) = _
    rw [iota_chan_apply, rot_bcast_apply]
    rfl
  have hw : a10 (ix1 b) = BitVec.ofNat 32 (a10 (ix1 b)).toNat := by simp
  rw [h0]
  conv_lhs => rw [hw]
  exact fmod6_sub _ _ j.isLt hr

/-! ## `take_along_axis` -/

/-- The index array of `take_along_axis` as gathered: a negative index moved up by six, the trailing unit axis dropped. -/
def movedIdx (i : IVec S1024x6x1x1 32) : IVec S1024x6x1 32 :=
  shapeCast S1024x6x1
    (select (cmpi .slt i (broadcastInDim S1024x6x1x1 ![] bcast_S_S1024x6x1x1 (constantI S_ 32 0#32)))
      (addi i (broadcastInDim S1024x6x1x1 ![] bcast_S_S1024x6x1x1 (constantI S_ 32 6#32))) i)
    shapeCasts_S1024x6x1x1_S1024x6x1

/-- The in-range bit of every gathered index: the conjunction, over the trailing unit axis, of `0 ≤ index` and
    `index ≤ 5`. -/
def inRange (v5 : IVec S1024x6x1 32) : IVec S1024x6 1 :=
  Host.reduce IntOp.andi
    (andi (cmpi .sge v5 (broadcastInDim S1024x6x1 ![] bcast_S_S1024x6x1 (constantI S_ 32 0#32)))
      (cmpi .sle v5 (broadcastInDim S1024x6x1 ![0, 1, 2] bcast_S1x1x1_S1024x6x1_0_1_2
        (broadcastInDim S1x1x1 ![2] bcast_S1_S1x1x1_2 (constantI S1 32 5#32)))))
    (constantI S_ 1 1#1) reducesTo_S1024x6x1_S1024x6_d2 h_S_

/-- `take_along_axis` is the select, on the in-range bit, between the gather at the moved index and the fill. -/
theorem takeT_eq (x : FVec Ideal S1024x6x25x25 .f32) (i : IVec S1024x6x1x1 32) :
    takeT (F := Ideal) x i
      = select (broadcastInDim S1024x6x25x25 ![0, 1] bcast_S1024x6_S1024x6x25x25_0_1 (inRange (movedIdx i)))
          (Host.gather gather_S1024x6x25x25_S1024x6x1_S1024x6x25x25_23_1_0_0_1_2_112525 x (movedIdx i))
          (broadcastInDim S1024x6x25x25 ![] bcast_S_S1024x6x25x25 (constant (F := Ideal) S_ .f32 0x7FC00000#32)) := rfl

/-- A word in `[0, 6)` is not negative: `take_along_axis` does not move it. -/
theorem moved_word : ∀ k : Fin 6,
    Scalar.select (IntOp.cmpi .slt (BitVec.ofNat 32 k.val) 0#32) (IntOp.addi (BitVec.ofNat 32 k.val) 6#32)
      (BitVec.ofNat 32 k.val) = BitVec.ofNat 32 k.val := by decide

/-- A word in `[0, 6)` is at least 0 and at most 5, read signed. -/
theorem inRange_word : ∀ k : Fin 6,
    IntOp.andi (IntOp.cmpi .sge (BitVec.ofNat 32 k.val) 0#32) (IntOp.cmpi .sle (BitVec.ofNat 32 k.val) 5#32) = 1#1 := by
  decide

/-- The moved index at `(b, j, 0)` is a function of the index word at `(b, j, 0, 0)`. -/
theorem movedIdx_apply (i : IVec S1024x6x1x1 32) (b : Fin 1024) (j : Fin 6) :
    movedIdx i (ix3 b j (0 : Fin 1))
      = Scalar.select (IntOp.cmpi .slt (i (ix4 b j (0 : Fin 1) (0 : Fin 1))) 0#32)
          (IntOp.addi (i (ix4 b j (0 : Fin 1) (0 : Fin 1))) 6#32) (i (ix4 b j (0 : Fin 1) (0 : Fin 1))) := by
  have hrm : (S1024x6x1x1.rowMajor (ix4 b j (0 : Fin 1) (0 : Fin 1))).val = (S1024x6x1.rowMajor (ix3 b j (0 : Fin 1))).val := by
    rw [Shape.rowMajor_val_four, Shape.rowMajor_val_three]
    show ((b.val * 6 + j.val) * 1 + 0) * 1 + 0 = (b.val * 6 + j.val) * 1 + 0
    omega
  unfold movedIdx
  rw [shapeCast_apply _ _ (ix3 b j (0 : Fin 1)) (ix4 b j (0 : Fin 1) (0 : Fin 1)) hrm]
  rfl

/-- At an index word that denotes a channel `k` in `[0, 6)` the moved index is that word. -/
theorem movedIdx_of_word (i : IVec S1024x6x1x1 32) (b : Fin 1024) (j : Fin 6) (k : Fin 6)
    (hk : i (ix4 b j (0 : Fin 1) (0 : Fin 1)) = BitVec.ofNat 32 k.val) :
    movedIdx i (ix3 b j (0 : Fin 1)) = BitVec.ofNat 32 k.val := by
  rw [movedIdx_apply, hk]
  exact moved_word k

/-- A left fold by `and` from 1 over `i1` words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- An index of `[1024, 6, 1]` that drops to `(b, j)` is `(b, j, 0)`. -/
theorem eq_of_drop (i : S1024x6x1.Idx) (b : Fin 1024) (j : Fin 6)
    (hi : reducesTo_S1024x6x1_S1024x6_d2.drop i = ix2 b j) : i = ix3 b j (0 : Fin 1) := by
  have h0 : (i 0).val = b.val := by
    rw [← Shape.ReducesTo.drop_apply_val_of_eq reducesTo_S1024x6x1_S1024x6_d2 i 0 0, hi]
  have h1 : (i 1).val = j.val := by
    rw [← Shape.ReducesTo.drop_apply_val_of_eq reducesTo_S1024x6x1_S1024x6_d2 i 1 1, hi]
  funext a
  match a with
  | ⟨0, _⟩ => exact Fin.ext h0
  | ⟨1, _⟩ => exact Fin.ext h1
  | ⟨2, _⟩ => exact Fin.ext (Nat.lt_one_iff.mp (i 2).isLt)

/-- Where the gathered index at `(b, j, 0)` is a word in `[0, 6)`, the in-range bit at `(b, j)` is 1. -/
theorem inRange_apply (v5 : IVec S1024x6x1 32) (b : Fin 1024) (j : Fin 6) (k : Fin 6)
    (hk : v5 (ix3 b j (0 : Fin 1)) = BitVec.ofNat 32 k.val) : inRange v5 (ix2 b j) = 1#1 := by
  unfold inRange
  rw [Host.reduce_eq_foldl]
  refine foldl_andi_one _ _ (fun i hi => ?_)
  rw [List.mem_filter] at hi
  have hi2 : i = ix3 b j (0 : Fin 1) := eq_of_drop i b j (by simpa using hi.2)
  subst hi2
  show IntOp.andi (IntOp.cmpi .sge (v5 (ix3 b j (0 : Fin 1))) 0#32) (IntOp.cmpi .sle (v5 (ix3 b j (0 : Fin 1))) 5#32) = 1#1
  rw [hk]
  exact inRange_word k

/-- The in-range bits, broadcast over the two spatial axes, read the bit of `(b, j)` at `(b, j, h, w)`. -/
theorem bcast_2_4s_apply {α : Type} (x : S1024x6.Idx → α) (b : Fin 1024) (j : Fin 6) (h w : Fin 25) :
    broadcastInDim S1024x6x25x25 ![0, 1] bcast_S1024x6_S1024x6x25x25_0_1 x (ix4 b j h w) = x (ix2 b j) :=
  broadcastInDim_apply _ _ x _ (ix2 b j) (fun a => match a with | ⟨0, _⟩ => rfl | ⟨1, _⟩ => rfl)

/-- The gather's operand index on the batch axis is the result's batch coordinate … -/
theorem gather_axis0 (v5 : IVec S1024x6x1 32) (b : Fin 1024) (j : Fin 6) (h w : Fin 25) :
    (gather_S1024x6x25x25_S1024x6x1_S1024x6x25x25_23_1_0_0_1_2_112525.operandIdx (ix4 b j h w) v5 0).val = b.val := by
  have h1 : gather_S1024x6x25x25_S1024x6x1_S1024x6x25x25_23_1_0_0_1_2_112525.start (ix4 b j h w) v5 0 = 0 := rfl
  have h2 : gather_S1024x6x25x25_S1024x6x1_S1024x6x25x25_23_1_0_0_1_2_112525.batchCoord (ix4 b j h w) 0 = b.val := rfl
  have h3 : gather_S1024x6x25x25_S1024x6x1_S1024x6x25x25_23_1_0_0_1_2_112525.offCoord (ix4 b j h w) 0 = 0 := rfl
  show gather_S1024x6x25x25_S1024x6x1_S1024x6x25x25_23_1_0_0_1_2_112525.start (ix4 b j h w) v5 0 + gather_S1024x6x25x25_S1024x6x1_S1024x6x25x25_23_1_0_0_1_2_112525.batchCoord (ix4 b j h w) 0
    + gather_S1024x6x25x25_S1024x6x1_S1024x6x25x25_23_1_0_0_1_2_112525.offCoord (ix4 b j h w) 0 = b.val
  rw [h1, h2, h3]
  omega

/-- … on the two spatial axes the result's spatial coordinates, first the row … -/
theorem gather_axis2 (v5 : IVec S1024x6x1 32) (b : Fin 1024) (j : Fin 6) (h w : Fin 25) :
    (gather_S1024x6x25x25_S1024x6x1_S1024x6x25x25_23_1_0_0_1_2_112525.operandIdx (ix4 b j h w) v5 2).val = h.val := by
  have h1 : gather_S1024x6x25x25_S1024x6x1_S1024x6x25x25_23_1_0_0_1_2_112525.start (ix4 b j h w) v5 2 = 0 := rfl
  have h2 : gather_S1024x6x25x25_S1024x6x1_S1024x6x25x25_23_1_0_0_1_2_112525.batchCoord (ix4 b j h w) 2 = 0 := rfl
  have h3 : gather_S1024x6x25x25_S1024x6x1_S1024x6x25x25_23_1_0_0_1_2_112525.offCoord (ix4 b j h w) 2 = h.val := rfl
  show gather_S1024x6x25x25_S1024x6x1_S1024x6x25x25_23_1_0_0_1_2_112525.start (ix4 b j h w) v5 2 + gather_S1024x6x25x25_S1024x6x1_S1024x6x25x25_23_1_0_0_1_2_112525.batchCoord (ix4 b j h w) 2
    + gather_S1024x6x25x25_S1024x6x1_S1024x6x25x25_23_1_0_0_1_2_112525.offCoord (ix4 b j h w) 2 = h.val
  rw [h1, h2, h3]
  omega

/-- … then the column … -/
theorem gather_axis3 (v5 : IVec S1024x6x1 32) (b : Fin 1024) (j : Fin 6) (h w : Fin 25) :
    (gather_S1024x6x25x25_S1024x6x1_S1024x6x25x25_23_1_0_0_1_2_112525.operandIdx (ix4 b j h w) v5 3).val = w.val := by
  have h1 : gather_S1024x6x25x25_S1024x6x1_S1024x6x25x25_23_1_0_0_1_2_112525.start (ix4 b j h w) v5 3 = 0 := rfl
  have h2 : gather_S1024x6x25x25_S1024x6x1_S1024x6x25x25_23_1_0_0_1_2_112525.batchCoord (ix4 b j h w) 3 = 0 := rfl
  have h3 : gather_S1024x6x25x25_S1024x6x1_S1024x6x25x25_23_1_0_0_1_2_112525.offCoord (ix4 b j h w) 3 = w.val := rfl
  show gather_S1024x6x25x25_S1024x6x1_S1024x6x25x25_23_1_0_0_1_2_112525.start (ix4 b j h w) v5 3 + gather_S1024x6x25x25_S1024x6x1_S1024x6x25x25_23_1_0_0_1_2_112525.batchCoord (ix4 b j h w) 3
    + gather_S1024x6x25x25_S1024x6x1_S1024x6x25x25_23_1_0_0_1_2_112525.offCoord (ix4 b j h w) 3 = w.val
  rw [h1, h2, h3]
  omega

/-- … and on the channel axis the start index read at `(b, j, 0)`, signed and clamped into `[0, 5]`. -/
theorem gather_axis1 (v5 : IVec S1024x6x1 32) (b : Fin 1024) (j : Fin 6) (h w : Fin 25) :
    (gather_S1024x6x25x25_S1024x6x1_S1024x6x25x25_23_1_0_0_1_2_112525.operandIdx (ix4 b j h w) v5 1).val
      = min (v5 (ix3 b j (0 : Fin 1))).toInt.toNat 5 := by
  have hs : gather_S1024x6x25x25_S1024x6x1_S1024x6x25x25_23_1_0_0_1_2_112525.start (ix4 b j h w) v5 1
      = min (v5 (ix3 b j (0 : Fin 1))).toInt.toNat 5 := by
    unfold GatherDims.start
    rw [dif_pos (show (1 : Fin 4) ∈ gather_S1024x6x25x25_S1024x6x1_S1024x6x25x25_23_1_0_0_1_2_112525.startIndexMap
      from List.mem_singleton.mpr rfl)]
    have hsi : gather_S1024x6x25x25_S1024x6x1_S1024x6x25x25_23_1_0_0_1_2_112525.siIdx (ix4 b j h w)
        ⟨List.idxOf (1 : Fin 4) gather_S1024x6x25x25_S1024x6x1_S1024x6x25x25_23_1_0_0_1_2_112525.startIndexMap,
          List.idxOf_lt_length_iff.2 (List.mem_singleton.mpr rfl)⟩ = ix3 b j (0 : Fin 1) := by
      funext c; refine Fin.ext ?_
      match c with
      | ⟨0, _⟩ => rfl
      | ⟨1, _⟩ => rfl
      | ⟨2, _⟩ => rfl
    rw [hsi]
    rfl
  show gather_S1024x6x25x25_S1024x6x1_S1024x6x25x25_23_1_0_0_1_2_112525.start (ix4 b j h w) v5 1
    + gather_S1024x6x25x25_S1024x6x1_S1024x6x25x25_23_1_0_0_1_2_112525.batchCoord (ix4 b j h w) 1
    + gather_S1024x6x25x25_S1024x6x1_S1024x6x25x25_23_1_0_0_1_2_112525.offCoord (ix4 b j h w) 1 = _
  rw [hs]
  rfl

/-- A word in `[0, 6)`, read signed and clamped into `[0, 5]`, is its own number. -/
theorem clamp_word : ∀ k : Fin 6, min (BitVec.ofNat 32 k.val).toInt.toNat 5 = k.val := by decide

/-- The gather of one channel plane per index: where the gathered index at `(b, j, 0)` is the word of a channel `k` in
    `[0, 6)`, the result at `(b, j, h, w)` is the operand at `(b, k, h, w)`. -/
theorem gather_apply {α : Type} (x : S1024x6x25x25.Idx → α) (v5 : IVec S1024x6x1 32) (b : Fin 1024) (j : Fin 6) (h w : Fin 25)
    (k : Fin 6) (hk : v5 (ix3 b j (0 : Fin 1)) = BitVec.ofNat 32 k.val) :
    Host.gather gather_S1024x6x25x25_S1024x6x1_S1024x6x25x25_23_1_0_0_1_2_112525 x v5 (ix4 b j h w) = x (ix4 b k h w) := by
  unfold Host.gather
  refine congrArg x (funext fun a => Fin.ext ?_)
  match a with
  | ⟨0, _⟩ => exact gather_axis0 v5 b j h w
  | ⟨1, _⟩ => exact (gather_axis1 v5 b j h w).trans (by rw [hk]; exact clamp_word k)
  | ⟨2, _⟩ => exact gather_axis2 v5 b j h w
  | ⟨3, _⟩ => exact gather_axis3 v5 b j h w

/-- `take_along_axis` at an index word that denotes a channel `k` in `[0, 6)`: the operand's plane `k`. -/
theorem takeT_apply (x : FVec Ideal S1024x6x25x25 .f32) (i : IVec S1024x6x1x1 32) (b : Fin 1024) (j : Fin 6) (h w : Fin 25)
    (k : Fin 6) (hk : i (ix4 b j (0 : Fin 1) (0 : Fin 1)) = BitVec.ofNat 32 k.val) :
    takeT (F := Ideal) x i (ix4 b j h w) = x (ix4 b k h w) := by
  have hm := movedIdx_of_word i b j k hk
  rw [takeT_eq, select_apply, bcast_2_4s_apply, inRange_apply _ b j k hm, select_one, gather_apply x _ b j h w k hm]

/-! ## `one_hot` -/

/-- The iota along the channel axis of a `[1, 6]` array, broadcast over the batch, reads the word `j` at `(b, j)`. -/
theorem iota_chan2_apply (b : Fin 1024) (j : Fin 6) :
    broadcastInDim S1024x6 ![0, 1] bcast_S1x6_S1024x6_0_1 (iotaInDim S1x6 32 1) (ix2 b j) = BitVec.ofNat 32 j.val := rfl

/-- `one_hot` at `(b, j)`: one where the rotation word of `b` is `j`, else zero. -/
theorem oneHotT_apply (a10 : IVec S1024 32) (b : Fin 1024) (j : Fin 6) :
    oneHotT (F := Ideal) a10 (ix2 b j) = if a10 (ix1 b) = BitVec.ofNat 32 j.val then 1 else 0 := by
  have h0 : oneHotT (F := Ideal) a10 (ix2 b j)
      = (((IntOp.cmpi .eq (a10 (ix1 b)) (BitVec.ofNat 32 j.val)).toNat : ℝ) : EReal) := by
    unfold oneHotT
    show (((IntOp.cmpi .eq _ _).toNat : ℝ) : EReal) = _
    rw [rot_bcast_apply, iota_chan2_apply]
  rw [h0]
  by_cases h : a10 (ix1 b) = BitVec.ofNat 32 j.val
  · rw [if_pos h, h]; simp [IntOp.cmpi]
  · rw [if_neg h]; simp [IntOp.cmpi, h]

end Cert.ReferenceIdeal.RefValue

end
-- ==== Proof.RefValue.lean ====
/-
  The reference's result read at one index: the element at batch entry `b`, channel `ch`, cell `(h, w)` is the
  specification's `outVal` of the input elements at the same batch entry and cell, when the rotation word of `b`
  is in `[0, 6)`.

  The road: each building block of the reference's term read at an index `(b, _, h, w)` (the one-channel view of a
  rank-3 map, the half scaling, the sum over the six rotation channels, the shifted groups as the specification's
  `rolled`), the three concatenations along the channel axis read piece by piece over explicit channel offsets, the
  broadcast of the memory-observability channel, the constant channel and the compass planes; then the channel
  ranges of `outVal` one by one.
-/
import proofs.«405264_j2783138808252_1_alg».proof.Proof.RefTerm
import proofs.«405264_j2783138808252_1_alg».proof.Proof.RefInt
import proofs.«405264_j2783138808252_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

namespace Read

/-- A rank-3 map read as one channel. -/
theorem chan1_apply (x : FVec Ideal S1024x25x25 .f32) (b : Fin 1024) (h w : Fin 25) :
    chan1 (F := Ideal) x (ix4 b (0 : Fin 1) h w) = x (ix3 b h w) := by
  unfold chan1
  refine broadcastInDim_apply _ _ _ _ (ix3 b h w) ?_
  intro a
  match a with
  | ⟨0, _⟩ => rfl
  | ⟨1, _⟩ => rfl
  | ⟨2, _⟩ => rfl

/-- The half-scaled array at an index. -/
theorem halved_apply (x : FVec Ideal S1024x6x25x25 .f32) (b : Fin 1024) (j : Fin 6) (h w : Fin 25) :
    halved (F := Ideal) x (ix4 b j h w) = x (ix4 b j h w) * Cert.Spec.half := by
  unfold halved
  rw [mulf_apply, broadcastInDim_scalar_apply, constant_apply]
  rfl

/-- The sum over the six channels at an index. -/
theorem chanSum_apply (x : FVec Ideal S1024x6x25x25 .f32) (b : Fin 1024) (h w : Fin 25) :
    chanSum (F := Ideal) x (ix4 b (0 : Fin 1) h w) = ∑ j : Fin 6, x (ix4 b j h w) := by
  unfold chanSum
  rw [chan1_apply, hostReduceAdd_apply,
    Ideal.hostReduceAdd_single reducesTo_S1024x6x25x25_S1024x25x25_d1 (by decide)]
  rw [constant_apply, Ideal.ofBits_zero_f32, zero_add]
  refine Finset.sum_congr rfl fun j _ => ?_
  congr 1
  funext a
  match a with
  | ⟨0, _⟩ => rfl
  | ⟨1, _⟩ => rfl
  | ⟨2, _⟩ => rfl
  | ⟨3, _⟩ => rfl

/-- The rotation a word in `[0, 6)` denotes has the word's value. -/
theorem rotOf_val (a10 : IVec S1024 32) (b : Fin 1024) (hr : (a10 (ix1 b)).toNat < 6) :
    (Cert.Spec.rotOf (a10 (ix1 b))).val = (a10 (ix1 b)).toNat := Nat.mod_eq_of_lt hr

/-- A group of six channels shifted along the channel axis is the group rolled by the rotation. -/
theorem shifted_apply (x : FVec Ideal S1024x6x25x25 .f32) (a10 : IVec S1024 32) (b : Fin 1024) (j : Fin 6)
    (h w : Fin 25) (hr : (a10 (ix1 b)).toNat < 6) :
    takeT (F := Ideal) x (shiftIdx a10) (ix4 b j h w)
      = Cert.Spec.rolled (fun k => x (ix4 b k h w)) (Cert.Spec.rotOf (a10 (ix1 b))) j := by
  rw [takeT_apply x (shiftIdx a10) b j h w ⟨(j.val + 6 - (a10 (ix1 b)).toNat) % 6, Nat.mod_lt _ (by decide)⟩
    (shiftIdx_apply a10 b j hr)]
  unfold Cert.Spec.rolled
  have e : (⟨(j.val + 6 - (a10 (ix1 b)).toNat) % 6, Nat.mod_lt _ (by decide)⟩ : Fin 6)
      = ⟨(j.val + 6 - (Cert.Spec.rotOf (a10 (ix1 b))).val) % 6, Nat.mod_lt _ (by decide)⟩ :=
    Fin.ext (by rw [rotOf_val a10 b hr])
  rw [e]

/-- The half-scaled group shifted: the rolled group of the half-scaled elements. -/
theorem shifted_halved_apply (x : FVec Ideal S1024x6x25x25 .f32) (a10 : IVec S1024 32) (b : Fin 1024) (j : Fin 6)
    (h w : Fin 25) (hr : (a10 (ix1 b)).toNat < 6) :
    takeT (F := Ideal) (halved (F := Ideal) x) (shiftIdx a10) (ix4 b j h w)
      = Cert.Spec.rolled (fun k => x (ix4 b k h w) * Cert.Spec.half) (Cert.Spec.rotOf (a10 (ix1 b))) j := by
  rw [shifted_apply _ a10 b j h w hr]
  exact congrArg (fun f => Cert.Spec.rolled f (Cert.Spec.rotOf (a10 (ix1 b))) j)
    (funext fun k => halved_apply x b k h w)

/-- A concatenation of channel groups along the channel axis read at channel `c`: the piece `k` whose span, starting
    at `pre`, holds `c`, at its own channel `c - pre`. -/
theorem cat4_apply {m n : Nat} (xs : List ((s : Shape) × (s.Idx → Ideal .f32)))
    (hc : Shape.Concatenates (xs.map (·.1)) ⟨4, ![1024, m, 25, 25]⟩ 1)
    (k : Nat) (hk : k < xs.length) (x₁ : (⟨4, ![1024, n, 25, 25]⟩ : Shape).Idx → Ideal .f32)
    (hxk : xs[k] = ⟨⟨4, ![1024, n, 25, 25]⟩, x₁⟩) (pre : Nat)
    (hpre : (((xs.take k).map (·.1)).map fun s => if h : s.rank = 4 then s.size ((1 : Fin 4).cast h.symm) else 0).sum = pre)
    (b : Fin 1024) (c : Fin m) (h w : Fin 25) (i : Fin n) (hci : pre + i.val = c.val) :
    concatenate ⟨4, ![1024, m, 25, 25]⟩ 1 xs hc (ix4 b c h w) = x₁ (ix4 b i h w) := by
  refine concatenate_apply_piece 1 xs hc (ix4 b c h w) k hk _ x₁ hxk rfl pre hpre (ix4 b i h w) ?_ hci
  intro a ha
  match a with
  | ⟨0, _⟩ => rfl
  | ⟨1, _⟩ => exact absurd rfl ha
  | ⟨2, _⟩ => rfl
  | ⟨3, _⟩ => rfl

/-! The three concatenations along the channel axis, one lemma per piece. -/

theorem catA_apply_0 (p0 : FVec Ideal S1024x128x25x25 .f32) (p1 : FVec Ideal S1024x1x25x25 .f32) (p2 : FVec Ideal S1024x1x25x25 .f32) (p3 : FVec Ideal S1024x1x25x25 .f32) (p4 : FVec Ideal S1024x6x25x25 .f32) (p5 : FVec Ideal S1024x1x25x25 .f32) (p6 : FVec Ideal S1024x1x25x25 .f32) (p7 : FVec Ideal S1024x1x25x25 .f32)
    (b : Fin 1024) (c : Fin 140) (h w : Fin 25) (i : Fin 128) (hci : 0 + i.val = c.val) :
    concatenate S1024x140x25x25 1 [⟨S1024x128x25x25, p0⟩, ⟨S1024x1x25x25, p1⟩, ⟨S1024x1x25x25, p2⟩, ⟨S1024x1x25x25, p3⟩, ⟨S1024x6x25x25, p4⟩, ⟨S1024x1x25x25, p5⟩, ⟨S1024x1x25x25, p6⟩, ⟨S1024x1x25x25, p7⟩]
        concatenates_S1024x128x25x25_S1024x1x25x25_S1024x1x25x25_S1024x1x25x25_S1024x6x25x25_S1024x1x25x25_S1024x1x25x25_S1024x1x25x25_S1024x140x25x25_d1 (ix4 b c h w)
      = p0 (ix4 b i h w) :=
  cat4_apply _ _ 0 (by simp) p0 rfl 0 rfl b c h w i hci

theorem catA_apply_1 (p0 : FVec Ideal S1024x128x25x25 .f32) (p1 : FVec Ideal S1024x1x25x25 .f32) (p2 : FVec Ideal S1024x1x25x25 .f32) (p3 : FVec Ideal S1024x1x25x25 .f32) (p4 : FVec Ideal S1024x6x25x25 .f32) (p5 : FVec Ideal S1024x1x25x25 .f32) (p6 : FVec Ideal S1024x1x25x25 .f32) (p7 : FVec Ideal S1024x1x25x25 .f32)
    (b : Fin 1024) (c : Fin 140) (h w : Fin 25) (i : Fin 1) (hci : 128 + i.val = c.val) :
    concatenate S1024x140x25x25 1 [⟨S1024x128x25x25, p0⟩, ⟨S1024x1x25x25, p1⟩, ⟨S1024x1x25x25, p2⟩, ⟨S1024x1x25x25, p3⟩, ⟨S1024x6x25x25, p4⟩, ⟨S1024x1x25x25, p5⟩, ⟨S1024x1x25x25, p6⟩, ⟨S1024x1x25x25, p7⟩]
        concatenates_S1024x128x25x25_S1024x1x25x25_S1024x1x25x25_S1024x1x25x25_S1024x6x25x25_S1024x1x25x25_S1024x1x25x25_S1024x1x25x25_S1024x140x25x25_d1 (ix4 b c h w)
      = p1 (ix4 b i h w) :=
  cat4_apply _ _ 1 (by simp) p1 rfl 128 rfl b c h w i hci

theorem catA_apply_2 (p0 : FVec Ideal S1024x128x25x25 .f32) (p1 : FVec Ideal S1024x1x25x25 .f32) (p2 : FVec Ideal S1024x1x25x25 .f32) (p3 : FVec Ideal S1024x1x25x25 .f32) (p4 : FVec Ideal S1024x6x25x25 .f32) (p5 : FVec Ideal S1024x1x25x25 .f32) (p6 : FVec Ideal S1024x1x25x25 .f32) (p7 : FVec Ideal S1024x1x25x25 .f32)
    (b : Fin 1024) (c : Fin 140) (h w : Fin 25) (i : Fin 1) (hci : 129 + i.val = c.val) :
    concatenate S1024x140x25x25 1 [⟨S1024x128x25x25, p0⟩, ⟨S1024x1x25x25, p1⟩, ⟨S1024x1x25x25, p2⟩, ⟨S1024x1x25x25, p3⟩, ⟨S1024x6x25x25, p4⟩, ⟨S1024x1x25x25, p5⟩, ⟨S1024x1x25x25, p6⟩, ⟨S1024x1x25x25, p7⟩]
        concatenates_S1024x128x25x25_S1024x1x25x25_S1024x1x25x25_S1024x1x25x25_S1024x6x25x25_S1024x1x25x25_S1024x1x25x25_S1024x1x25x25_S1024x140x25x25_d1 (ix4 b c h w)
      = p2 (ix4 b i h w) :=
  cat4_apply _ _ 2 (by simp) p2 rfl 129 rfl b c h w i hci

theorem catA_apply_3 (p0 : FVec Ideal S1024x128x25x25 .f32) (p1 : FVec Ideal S1024x1x25x25 .f32) (p2 : FVec Ideal S1024x1x25x25 .f32) (p3 : FVec Ideal S1024x1x25x25 .f32) (p4 : FVec Ideal S1024x6x25x25 .f32) (p5 : FVec Ideal S1024x1x25x25 .f32) (p6 : FVec Ideal S1024x1x25x25 .f32) (p7 : FVec Ideal S1024x1x25x25 .f32)
    (b : Fin 1024) (c : Fin 140) (h w : Fin 25) (i : Fin 1) (hci : 130 + i.val = c.val) :
    concatenate S1024x140x25x25 1 [⟨S1024x128x25x25, p0⟩, ⟨S1024x1x25x25, p1⟩, ⟨S1024x1x25x25, p2⟩, ⟨S1024x1x25x25, p3⟩, ⟨S1024x6x25x25, p4⟩, ⟨S1024x1x25x25, p5⟩, ⟨S1024x1x25x25, p6⟩, ⟨S1024x1x25x25, p7⟩]
        concatenates_S1024x128x25x25_S1024x1x25x25_S1024x1x25x25_S1024x1x25x25_S1024x6x25x25_S1024x1x25x25_S1024x1x25x25_S1024x1x25x25_S1024x140x25x25_d1 (ix4 b c h w)
      = p3 (ix4 b i h w) :=
  cat4_apply _ _ 3 (by simp) p3 rfl 130 rfl b c h w i hci

theorem catA_apply_4 (p0 : FVec Ideal S1024x128x25x25 .f32) (p1 : FVec Ideal S1024x1x25x25 .f32) (p2 : FVec Ideal S1024x1x25x25 .f32) (p3 : FVec Ideal S1024x1x25x25 .f32) (p4 : FVec Ideal S1024x6x25x25 .f32) (p5 : FVec Ideal S1024x1x25x25 .f32) (p6 : FVec Ideal S1024x1x25x25 .f32) (p7 : FVec Ideal S1024x1x25x25 .f32)
    (b : Fin 1024) (c : Fin 140) (h w : Fin 25) (i : Fin 6) (hci : 131 + i.val = c.val) :
    concatenate S1024x140x25x25 1 [⟨S1024x128x25x25, p0⟩, ⟨S1024x1x25x25, p1⟩, ⟨S1024x1x25x25, p2⟩, ⟨S1024x1x25x25, p3⟩, ⟨S1024x6x25x25, p4⟩, ⟨S1024x1x25x25, p5⟩, ⟨S1024x1x25x25, p6⟩, ⟨S1024x1x25x25, p7⟩]
        concatenates_S1024x128x25x25_S1024x1x25x25_S1024x1x25x25_S1024x1x25x25_S1024x6x25x25_S1024x1x25x25_S1024x1x25x25_S1024x1x25x25_S1024x140x25x25_d1 (ix4 b c h w)
      = p4 (ix4 b i h w) :=
  cat4_apply _ _ 4 (by simp) p4 rfl 131 rfl b c h w i hci

theorem catA_apply_5 (p0 : FVec Ideal S1024x128x25x25 .f32) (p1 : FVec Ideal S1024x1x25x25 .f32) (p2 : FVec Ideal S1024x1x25x25 .f32) (p3 : FVec Ideal S1024x1x25x25 .f32) (p4 : FVec Ideal S1024x6x25x25 .f32) (p5 : FVec Ideal S1024x1x25x25 .f32) (p6 : FVec Ideal S1024x1x25x25 .f32) (p7 : FVec Ideal S1024x1x25x25 .f32)
    (b : Fin 1024) (c : Fin 140) (h w : Fin 25) (i : Fin 1) (hci : 137 + i.val = c.val) :
    concatenate S1024x140x25x25 1 [⟨S1024x128x25x25, p0⟩, ⟨S1024x1x25x25, p1⟩, ⟨S1024x1x25x25, p2⟩, ⟨S1024x1x25x25, p3⟩, ⟨S1024x6x25x25, p4⟩, ⟨S1024x1x25x25, p5⟩, ⟨S1024x1x25x25, p6⟩, ⟨S1024x1x25x25, p7⟩]
        concatenates_S1024x128x25x25_S1024x1x25x25_S1024x1x25x25_S1024x1x25x25_S1024x6x25x25_S1024x1x25x25_S1024x1x25x25_S1024x1x25x25_S1024x140x25x25_d1 (ix4 b c h w)
      = p5 (ix4 b i h w) :=
  cat4_apply _ _ 5 (by simp) p5 rfl 137 rfl b c h w i hci

theorem catA_apply_6 (p0 : FVec Ideal S1024x128x25x25 .f32) (p1 : FVec Ideal S1024x1x25x25 .f32) (p2 : FVec Ideal S1024x1x25x25 .f32) (p3 : FVec Ideal S1024x1x25x25 .f32) (p4 : FVec Ideal S1024x6x25x25 .f32) (p5 : FVec Ideal S1024x1x25x25 .f32) (p6 : FVec Ideal S1024x1x25x25 .f32) (p7 : FVec Ideal S1024x1x25x25 .f32)
    (b : Fin 1024) (c : Fin 140) (h w : Fin 25) (i : Fin 1) (hci : 138 + i.val = c.val) :
    concatenate S1024x140x25x25 1 [⟨S1024x128x25x25, p0⟩, ⟨S1024x1x25x25, p1⟩, ⟨S1024x1x25x25, p2⟩, ⟨S1024x1x25x25, p3⟩, ⟨S1024x6x25x25, p4⟩, ⟨S1024x1x25x25, p5⟩, ⟨S1024x1x25x25, p6⟩, ⟨S1024x1x25x25, p7⟩]
        concatenates_S1024x128x25x25_S1024x1x25x25_S1024x1x25x25_S1024x1x25x25_S1024x6x25x25_S1024x1x25x25_S1024x1x25x25_S1024x1x25x25_S1024x140x25x25_d1 (ix4 b c h w)
      = p6 (ix4 b i h w) :=
  cat4_apply _ _ 6 (by simp) p6 rfl 138 rfl b c h w i hci

theorem catA_apply_7 (p0 : FVec Ideal S1024x128x25x25 .f32) (p1 : FVec Ideal S1024x1x25x25 .f32) (p2 : FVec Ideal S1024x1x25x25 .f32) (p3 : FVec Ideal S1024x1x25x25 .f32) (p4 : FVec Ideal S1024x6x25x25 .f32) (p5 : FVec Ideal S1024x1x25x25 .f32) (p6 : FVec Ideal S1024x1x25x25 .f32) (p7 : FVec Ideal S1024x1x25x25 .f32)
    (b : Fin 1024) (c : Fin 140) (h w : Fin 25) (i : Fin 1) (hci : 139 + i.val = c.val) :
    concatenate S1024x140x25x25 1 [⟨S1024x128x25x25, p0⟩, ⟨S1024x1x25x25, p1⟩, ⟨S1024x1x25x25, p2⟩, ⟨S1024x1x25x25, p3⟩, ⟨S1024x6x25x25, p4⟩, ⟨S1024x1x25x25, p5⟩, ⟨S1024x1x25x25, p6⟩, ⟨S1024x1x25x25, p7⟩]
        concatenates_S1024x128x25x25_S1024x1x25x25_S1024x1x25x25_S1024x1x25x25_S1024x6x25x25_S1024x1x25x25_S1024x1x25x25_S1024x1x25x25_S1024x140x25x25_d1 (ix4 b c h w)
      = p7 (ix4 b i h w) :=
  cat4_apply _ _ 7 (by simp) p7 rfl 139 rfl b c h w i hci

theorem catB_apply_0 (p0 : FVec Ideal S1024x140x25x25 .f32) (p1 : FVec Ideal S1024x6x25x25 .f32) (p2 : FVec Ideal S1024x6x25x25 .f32) (p3 : FVec Ideal S1024x1x25x25 .f32) (p4 : FVec Ideal S1024x1x25x25 .f32)
    (b : Fin 1024) (c : Fin 154) (h w : Fin 25) (i : Fin 140) (hci : 0 + i.val = c.val) :
    concatenate S1024x154x25x25 1 [⟨S1024x140x25x25, p0⟩, ⟨S1024x6x25x25, p1⟩, ⟨S1024x6x25x25, p2⟩, ⟨S1024x1x25x25, p3⟩, ⟨S1024x1x25x25, p4⟩]
        concatenates_S1024x140x25x25_S1024x6x25x25_S1024x6x25x25_S1024x1x25x25_S1024x1x25x25_S1024x154x25x25_d1 (ix4 b c h w)
      = p0 (ix4 b i h w) :=
  cat4_apply _ _ 0 (by simp) p0 rfl 0 rfl b c h w i hci

theorem catB_apply_1 (p0 : FVec Ideal S1024x140x25x25 .f32) (p1 : FVec Ideal S1024x6x25x25 .f32) (p2 : FVec Ideal S1024x6x25x25 .f32) (p3 : FVec Ideal S1024x1x25x25 .f32) (p4 : FVec Ideal S1024x1x25x25 .f32)
    (b : Fin 1024) (c : Fin 154) (h w : Fin 25) (i : Fin 6) (hci : 140 + i.val = c.val) :
    concatenate S1024x154x25x25 1 [⟨S1024x140x25x25, p0⟩, ⟨S1024x6x25x25, p1⟩, ⟨S1024x6x25x25, p2⟩, ⟨S1024x1x25x25, p3⟩, ⟨S1024x1x25x25, p4⟩]
        concatenates_S1024x140x25x25_S1024x6x25x25_S1024x6x25x25_S1024x1x25x25_S1024x1x25x25_S1024x154x25x25_d1 (ix4 b c h w)
      = p1 (ix4 b i h w) :=
  cat4_apply _ _ 1 (by simp) p1 rfl 140 rfl b c h w i hci

theorem catB_apply_2 (p0 : FVec Ideal S1024x140x25x25 .f32) (p1 : FVec Ideal S1024x6x25x25 .f32) (p2 : FVec Ideal S1024x6x25x25 .f32) (p3 : FVec Ideal S1024x1x25x25 .f32) (p4 : FVec Ideal S1024x1x25x25 .f32)
    (b : Fin 1024) (c : Fin 154) (h w : Fin 25) (i : Fin 6) (hci : 146 + i.val = c.val) :
    concatenate S1024x154x25x25 1 [⟨S1024x140x25x25, p0⟩, ⟨S1024x6x25x25, p1⟩, ⟨S1024x6x25x25, p2⟩, ⟨S1024x1x25x25, p3⟩, ⟨S1024x1x25x25, p4⟩]
        concatenates_S1024x140x25x25_S1024x6x25x25_S1024x6x25x25_S1024x1x25x25_S1024x1x25x25_S1024x154x25x25_d1 (ix4 b c h w)
      = p2 (ix4 b i h w) :=
  cat4_apply _ _ 2 (by simp) p2 rfl 146 rfl b c h w i hci

theorem catB_apply_3 (p0 : FVec Ideal S1024x140x25x25 .f32) (p1 : FVec Ideal S1024x6x25x25 .f32) (p2 : FVec Ideal S1024x6x25x25 .f32) (p3 : FVec Ideal S1024x1x25x25 .f32) (p4 : FVec Ideal S1024x1x25x25 .f32)
    (b : Fin 1024) (c : Fin 154) (h w : Fin 25) (i : Fin 1) (hci : 152 + i.val = c.val) :
    concatenate S1024x154x25x25 1 [⟨S1024x140x25x25, p0⟩, ⟨S1024x6x25x25, p1⟩, ⟨S1024x6x25x25, p2⟩, ⟨S1024x1x25x25, p3⟩, ⟨S1024x1x25x25, p4⟩]
        concatenates_S1024x140x25x25_S1024x6x25x25_S1024x6x25x25_S1024x1x25x25_S1024x1x25x25_S1024x154x25x25_d1 (ix4 b c h w)
      = p3 (ix4 b i h w) :=
  cat4_apply _ _ 3 (by simp) p3 rfl 152 rfl b c h w i hci

theorem catB_apply_4 (p0 : FVec Ideal S1024x140x25x25 .f32) (p1 : FVec Ideal S1024x6x25x25 .f32) (p2 : FVec Ideal S1024x6x25x25 .f32) (p3 : FVec Ideal S1024x1x25x25 .f32) (p4 : FVec Ideal S1024x1x25x25 .f32)
    (b : Fin 1024) (c : Fin 154) (h w : Fin 25) (i : Fin 1) (hci : 153 + i.val = c.val) :
    concatenate S1024x154x25x25 1 [⟨S1024x140x25x25, p0⟩, ⟨S1024x6x25x25, p1⟩, ⟨S1024x6x25x25, p2⟩, ⟨S1024x1x25x25, p3⟩, ⟨S1024x1x25x25, p4⟩]
        concatenates_S1024x140x25x25_S1024x6x25x25_S1024x6x25x25_S1024x1x25x25_S1024x1x25x25_S1024x154x25x25_d1 (ix4 b c h w)
      = p4 (ix4 b i h w) :=
  cat4_apply _ _ 4 (by simp) p4 rfl 153 rfl b c h w i hci

theorem catC_apply_0 (p0 : FVec Ideal S1024x154x25x25 .f32) (p1 : FVec Ideal S1024x1x25x25 .f32) (p2 : FVec Ideal S1024x6x25x25 .f32)
    (b : Fin 1024) (c : Fin 161) (h w : Fin 25) (i : Fin 154) (hci : 0 + i.val = c.val) :
    concatenate S1024x161x25x25 1 [⟨S1024x154x25x25, p0⟩, ⟨S1024x1x25x25, p1⟩, ⟨S1024x6x25x25, p2⟩]
        concatenates_S1024x154x25x25_S1024x1x25x25_S1024x6x25x25_S1024x161x25x25_d1 (ix4 b c h w)
      = p0 (ix4 b i h w) :=
  cat4_apply _ _ 0 (by simp) p0 rfl 0 rfl b c h w i hci

theorem catC_apply_1 (p0 : FVec Ideal S1024x154x25x25 .f32) (p1 : FVec Ideal S1024x1x25x25 .f32) (p2 : FVec Ideal S1024x6x25x25 .f32)
    (b : Fin 1024) (c : Fin 161) (h w : Fin 25) (i : Fin 1) (hci : 154 + i.val = c.val) :
    concatenate S1024x161x25x25 1 [⟨S1024x154x25x25, p0⟩, ⟨S1024x1x25x25, p1⟩, ⟨S1024x6x25x25, p2⟩]
        concatenates_S1024x154x25x25_S1024x1x25x25_S1024x6x25x25_S1024x161x25x25_d1 (ix4 b c h w)
      = p1 (ix4 b i h w) :=
  cat4_apply _ _ 1 (by simp) p1 rfl 154 rfl b c h w i hci

theorem catC_apply_2 (p0 : FVec Ideal S1024x154x25x25 .f32) (p1 : FVec Ideal S1024x1x25x25 .f32) (p2 : FVec Ideal S1024x6x25x25 .f32)
    (b : Fin 1024) (c : Fin 161) (h w : Fin 25) (i : Fin 6) (hci : 155 + i.val = c.val) :
    concatenate S1024x161x25x25 1 [⟨S1024x154x25x25, p0⟩, ⟨S1024x1x25x25, p1⟩, ⟨S1024x6x25x25, p2⟩]
        concatenates_S1024x154x25x25_S1024x1x25x25_S1024x6x25x25_S1024x161x25x25_d1 (ix4 b c h w)
      = p2 (ix4 b i h w) :=
  cat4_apply _ _ 2 (by simp) p2 rfl 155 rfl b c h w i hci

/-- The memory-observability channel broadcast over the 154 environment channels. -/
theorem omemB_apply (x : FVec Ideal S1024x1x25x25 .f32) (b : Fin 1024) (c : Fin 154) (h w : Fin 25) :
    broadcastInDim S1024x154x25x25 ![0, 1, 2, 3] bcast_S1024x1x25x25_S1024x154x25x25_0_1_2_3 x (ix4 b c h w)
      = x (ix4 b (0 : Fin 1) h w) := by
  refine broadcastInDim_apply _ _ _ _ (ix4 b (0 : Fin 1) h w) ?_
  intro a
  match a with
  | ⟨0, _⟩ => rfl
  | ⟨1, _⟩ => rfl
  | ⟨2, _⟩ => rfl
  | ⟨3, _⟩ => rfl

/-- The constant channel. -/
theorem oneChan_apply (b : Fin 1024) (h w : Fin 25) :
    broadcastInDim S1024x1x25x25 ![] bcast_S_S1024x1x25x25 (constant (F := Ideal) S_ .f32 0x3F800000#32)
        (ix4 b (0 : Fin 1) h w) = Cert.Spec.one := by
  rw [broadcastInDim_scalar_apply, constant_apply]
  rfl

/-- The compass planes: the indicator of the rotation word, constant over the grid. -/
theorem compass_apply (a10 : IVec S1024 32) (b : Fin 1024) (j : Fin 6) (h w : Fin 25) :
    broadcastInDim S1024x6x25x25 ![0, 1, 2, 3] bcast_S1024x6x1x1_S1024x6x25x25_0_1_2_3
        (broadcastInDim S1024x6x1x1 ![0, 1] bcast_S1024x6_S1024x6x1x1_0_1 (oneHotT (F := Ideal) a10)) (ix4 b j h w)
      = if a10 (ix1 b) = BitVec.ofNat 32 j.val then 1 else 0 := by
  refine (broadcastInDim_apply _ _ _ (ix4 b j h w) (ix4 b j (0 : Fin 1) (0 : Fin 1)) ?_).trans ?_
  · intro a
    match a with
    | ⟨0, _⟩ => rfl
    | ⟨1, _⟩ => rfl
    | ⟨2, _⟩ => rfl
    | ⟨3, _⟩ => rfl
  refine (broadcastInDim_apply _ _ _ (ix4 b j (0 : Fin 1) (0 : Fin 1)) (ix2 b j) ?_).trans ?_
  · intro a
    match a with
    | ⟨0, _⟩ => rfl
    | ⟨1, _⟩ => rfl
  exact oneHotT_apply a10 b j

/-- The indicator of the rotation word against the specification's indicator of the rotation. -/
theorem compass_spec (a10 : IVec S1024 32) (b : Fin 1024) (j : Fin 6) (n : Nat) (hn : n = j.val)
    (hr : (a10 (ix1 b)).toNat < 6) :
    (if a10 (ix1 b) = BitVec.ofNat 32 j.val then (1 : EReal) else 0)
      = if n % 6 = (Cert.Spec.rotOf (a10 (ix1 b))).val then 1 else 0 := by
  rw [rotOf_val a10 b hr]
  have hj := j.isLt
  by_cases hx : a10 (ix1 b) = BitVec.ofNat 32 j.val
  · have ht : (a10 (ix1 b)).toNat = j.val % 2 ^ 32 := by rw [hx, BitVec.toNat_ofNat]
    rw [if_pos hx, if_pos (by omega)]
  · rw [if_neg hx, if_neg]
    intro hc
    apply hx
    apply BitVec.eq_of_toNat_eq
    rw [BitVec.toNat_ofNat]
    omega

/-- The first 154 channels of the result: the environment channel times the memory-observability element. -/
theorem top_env (p0 : FVec Ideal S1024x154x25x25 .f32) (m : FVec Ideal S1024x1x25x25 .f32)
    (p1 : FVec Ideal S1024x1x25x25 .f32) (p2 : FVec Ideal S1024x6x25x25 .f32)
    (b : Fin 1024) (ch : Fin 161) (h w : Fin 25) (c : Fin 154) (hc : 0 + c.val = ch.val) :
    concatenate S1024x161x25x25 1 [⟨S1024x154x25x25, mulf p0 (broadcastInDim S1024x154x25x25 ![0, 1, 2, 3]
          bcast_S1024x1x25x25_S1024x154x25x25_0_1_2_3 m)⟩, ⟨S1024x1x25x25, p1⟩, ⟨S1024x6x25x25, p2⟩]
        concatenates_S1024x154x25x25_S1024x1x25x25_S1024x6x25x25_S1024x161x25x25_d1 (ix4 b ch h w)
      = p0 (ix4 b c h w) * m (ix4 b (0 : Fin 1) h w) := by
  refine (catC_apply_0 _ _ _ b ch h w c hc).trans ?_
  rw [mulf_apply, omemB_apply]

end Read

open Read

theorem refTerm_apply (a0 a1 : FVec Ideal S1024x128x25x25 .f32) (a2 a3 a4 : FVec Ideal S1024x25x25 .f32)
    (a5 a6 a7 : FVec Ideal S1024x6x25x25 .f32) (a8 a9 : FVec Ideal S1024x25x25 .f32) (a10 : IVec S1024 32)
    (b : Fin 1024) (ch : Fin 161) (h w : Fin 25) (hr : (a10 (ix1 b)).toNat < 6) :
    refTerm (F := Ideal) a0 a1 a2 a3 a4 a5 a6 a7 a8 a9 a10 (ix4 b ch h w)
      = Cert.Spec.outVal (fun k => a0 (ix4 b k h w)) (fun k => a1 (ix4 b k h w)) (a2 (ix3 b h w)) (a3 (ix3 b h w))
          (a4 (ix3 b h w)) (a8 (ix3 b h w)) (a9 (ix3 b h w)) (fun j => a5 (ix4 b j h w)) (fun j => a6 (ix4 b j h w))
          (fun j => a7 (ix4 b j h w)) (Cert.Spec.rotOf (a10 (ix1 b))) ch := by
  have hch := ch.isLt
  unfold refTerm
  dsimp only
  by_cases c0 : ch.val < 128
  · rw [Cert.Spec.outVal, dif_pos c0]
    refine (top_env _ _ _ _ b ch h w ⟨ch.val, by omega⟩ (Nat.zero_add _)).trans ?_
    rw [chan1_apply]
    refine congrArg (fun x => x * a4 (ix3 b h w)) ?_
    refine (catB_apply_0 _ _ _ _ _ b _ h w ⟨ch.val, by omega⟩ (Nat.zero_add _)).trans ?_
    refine (catA_apply_0 _ _ _ _ _ _ _ _ b _ h w ⟨ch.val, c0⟩ (Nat.zero_add _)).trans ?_
    rfl
  by_cases c1 : ch.val = 128
  · rw [Cert.Spec.outVal, dif_neg c0, if_pos c1]
    refine (top_env _ _ _ _ b ch h w ⟨ch.val, by omega⟩ (Nat.zero_add _)).trans ?_
    rw [chan1_apply]
    refine congrArg (fun x => x * a4 (ix3 b h w)) ?_
    refine (catB_apply_0 _ _ _ _ _ b _ h w ⟨ch.val, by omega⟩ (Nat.zero_add _)).trans ?_
    refine (catA_apply_1 _ _ _ _ _ _ _ _ b _ h w 0 (by show 128 + 0 = ch.val; omega)).trans ?_
    exact chan1_apply a2 b h w
  by_cases c2 : ch.val = 129
  · rw [Cert.Spec.outVal, dif_neg c0, if_neg c1, if_pos c2]
    refine (top_env _ _ _ _ b ch h w ⟨ch.val, by omega⟩ (Nat.zero_add _)).trans ?_
    rw [chan1_apply]
    refine congrArg (fun x => x * a4 (ix3 b h w)) ?_
    refine (catB_apply_0 _ _ _ _ _ b _ h w ⟨ch.val, by omega⟩ (Nat.zero_add _)).trans ?_
    refine (catA_apply_2 _ _ _ _ _ _ _ _ b _ h w 0 (by show 129 + 0 = ch.val; omega)).trans ?_
    exact chan1_apply a3 b h w
  by_cases c3 : ch.val = 130
  · rw [Cert.Spec.outVal, dif_neg c0, if_neg c1, if_neg c2, if_pos c3]
    refine (top_env _ _ _ _ b ch h w ⟨ch.val, by omega⟩ (Nat.zero_add _)).trans ?_
    rw [chan1_apply]
    refine congrArg (fun x => x * a4 (ix3 b h w)) ?_
    refine (catB_apply_0 _ _ _ _ _ b _ h w ⟨ch.val, by omega⟩ (Nat.zero_add _)).trans ?_
    refine (catA_apply_3 _ _ _ _ _ _ _ _ b _ h w 0 (by show 130 + 0 = ch.val; omega)).trans ?_
    exact chan1_apply a4 b h w
  by_cases c4 : ch.val < 137
  · rw [Cert.Spec.outVal, dif_neg c0, if_neg c1, if_neg c2, if_neg c3, if_pos c4]
    refine (top_env _ _ _ _ b ch h w ⟨ch.val, by omega⟩ (Nat.zero_add _)).trans ?_
    rw [chan1_apply]
    refine congrArg (fun x => x * a4 (ix3 b h w)) ?_
    refine (catB_apply_0 _ _ _ _ _ b _ h w ⟨ch.val, by omega⟩ (Nat.zero_add _)).trans ?_
    refine (catA_apply_4 _ _ _ _ _ _ _ _ b _ h w ⟨ch.val - 131, by omega⟩ (by show 131 + (ch.val - 131) = ch.val; omega)).trans ?_
    refine (shifted_halved_apply a5 a10 b _ h w hr).trans ?_
    exact congrArg (Cert.Spec.rolled _ _) (Fin.ext (by show ch.val - 131 = (ch.val - 131) % 6; omega))
  by_cases c5 : ch.val = 137
  · rw [Cert.Spec.outVal, dif_neg c0, if_neg c1, if_neg c2, if_neg c3, if_neg c4, if_pos c5]
    refine (top_env _ _ _ _ b ch h w ⟨ch.val, by omega⟩ (Nat.zero_add _)).trans ?_
    rw [chan1_apply]
    refine congrArg (fun x => x * a4 (ix3 b h w)) ?_
    refine (catB_apply_0 _ _ _ _ _ b _ h w ⟨ch.val, by omega⟩ (Nat.zero_add _)).trans ?_
    refine (catA_apply_5 _ _ _ _ _ _ _ _ b _ h w 0 (by show 137 + 0 = ch.val; omega)).trans ?_
    exact chanSum_apply a5 b h w
  by_cases c6 : ch.val = 138
  · rw [Cert.Spec.outVal, dif_neg c0, if_neg c1, if_neg c2, if_neg c3, if_neg c4, if_neg c5, if_pos c6]
    refine (top_env _ _ _ _ b ch h w ⟨ch.val, by omega⟩ (Nat.zero_add _)).trans ?_
    rw [chan1_apply]
    refine congrArg (fun x => x * a4 (ix3 b h w)) ?_
    refine (catB_apply_0 _ _ _ _ _ b _ h w ⟨ch.val, by omega⟩ (Nat.zero_add _)).trans ?_
    refine (catA_apply_6 _ _ _ _ _ _ _ _ b _ h w 0 (by show 138 + 0 = ch.val; omega)).trans ?_
    exact chan1_apply a8 b h w
  by_cases c7 : ch.val = 139
  · rw [Cert.Spec.outVal, dif_neg c0, if_neg c1, if_neg c2, if_neg c3, if_neg c4, if_neg c5, if_neg c6, if_pos c7]
    refine (top_env _ _ _ _ b ch h w ⟨ch.val, by omega⟩ (Nat.zero_add _)).trans ?_
    rw [chan1_apply]
    refine congrArg (fun x => x * a4 (ix3 b h w)) ?_
    refine (catB_apply_0 _ _ _ _ _ b _ h w ⟨ch.val, by omega⟩ (Nat.zero_add _)).trans ?_
    refine (catA_apply_7 _ _ _ _ _ _ _ _ b _ h w 0 (by show 139 + 0 = ch.val; omega)).trans ?_
    exact chan1_apply a9 b h w
  by_cases c8 : ch.val < 146
  · rw [Cert.Spec.outVal, dif_neg c0, if_neg c1, if_neg c2, if_neg c3, if_neg c4, if_neg c5, if_neg c6, if_neg c7, if_pos c8]
    refine (top_env _ _ _ _ b ch h w ⟨ch.val, by omega⟩ (Nat.zero_add _)).trans ?_
    rw [chan1_apply]
    refine congrArg (fun x => x * a4 (ix3 b h w)) ?_
    refine (catB_apply_1 _ _ _ _ _ b _ h w ⟨ch.val - 140, by omega⟩ (by show 140 + (ch.val - 140) = ch.val; omega)).trans ?_
    refine (shifted_halved_apply a6 a10 b _ h w hr).trans ?_
    exact congrArg (Cert.Spec.rolled _ _) (Fin.ext (by show ch.val - 140 = (ch.val - 140) % 6; omega))
  by_cases c9 : ch.val < 152
  · rw [Cert.Spec.outVal, dif_neg c0, if_neg c1, if_neg c2, if_neg c3, if_neg c4, if_neg c5, if_neg c6, if_neg c7, if_neg c8, if_pos c9]
    refine (top_env _ _ _ _ b ch h w ⟨ch.val, by omega⟩ (Nat.zero_add _)).trans ?_
    rw [chan1_apply]
    refine congrArg (fun x => x * a4 (ix3 b h w)) ?_
    refine (catB_apply_2 _ _ _ _ _ b _ h w ⟨ch.val - 146, by omega⟩ (by show 146 + (ch.val - 146) = ch.val; omega)).trans ?_
    refine (shifted_apply a7 a10 b _ h w hr).trans ?_
    exact congrArg (Cert.Spec.rolled _ _) (Fin.ext (by show ch.val - 146 = (ch.val - 146) % 6; omega))
  by_cases c10 : ch.val = 152
  · rw [Cert.Spec.outVal, dif_neg c0, if_neg c1, if_neg c2, if_neg c3, if_neg c4, if_neg c5, if_neg c6, if_neg c7, if_neg c8, if_neg c9, if_pos c10]
    refine (top_env _ _ _ _ b ch h w ⟨ch.val, by omega⟩ (Nat.zero_add _)).trans ?_
    rw [chan1_apply]
    refine congrArg (fun x => x * a4 (ix3 b h w)) ?_
    refine (catB_apply_3 _ _ _ _ _ b _ h w 0 (by show 152 + 0 = ch.val; omega)).trans ?_
    refine (chanSum_apply _ b h w).trans ?_
    exact Finset.sum_congr rfl fun j _ => shifted_halved_apply a6 a10 b j h w hr
  by_cases c11 : ch.val = 153
  · rw [Cert.Spec.outVal, dif_neg c0, if_neg c1, if_neg c2, if_neg c3, if_neg c4, if_neg c5, if_neg c6, if_neg c7, if_neg c8, if_neg c9, if_neg c10, if_pos c11]
    refine (top_env _ _ _ _ b ch h w ⟨ch.val, by omega⟩ (Nat.zero_add _)).trans ?_
    rw [chan1_apply]
    refine congrArg (fun x => x * a4 (ix3 b h w)) ?_
    refine (catB_apply_4 _ _ _ _ _ b _ h w 0 (by show 153 + 0 = ch.val; omega)).trans ?_
    refine (chanSum_apply _ b h w).trans ?_
    exact Finset.sum_congr rfl fun j _ => shifted_apply a7 a10 b j h w hr
  by_cases c12 : ch.val = 154
  · rw [Cert.Spec.outVal, dif_neg c0, if_neg c1, if_neg c2, if_neg c3, if_neg c4, if_neg c5, if_neg c6, if_neg c7, if_neg c8, if_neg c9, if_neg c10, if_neg c11, if_pos c12]
    refine (catC_apply_1 _ _ _ b ch h w 0 (by show 154 + 0 = ch.val; omega)).trans ?_
    exact oneChan_apply b h w
  rw [Cert.Spec.outVal, dif_neg c0, if_neg c1, if_neg c2, if_neg c3, if_neg c4, if_neg c5, if_neg c6, if_neg c7, if_neg c8, if_neg c9, if_neg c10, if_neg c11, if_neg c12]
  refine (catC_apply_2 _ _ _ b ch h w ⟨ch.val - 155, by omega⟩ (by show 155 + (ch.val - 155) = ch.val; omega)).trans ?_
  refine (compass_apply a10 b _ h w).trans ?_
  exact compass_spec a10 b _ (ch.val - 155) rfl hr

end Cert.ReferenceIdeal.RefValue

end
-- ==== Proof.RefArr.lean ====
/-
  The reference's result as the specification's output array: index by index it is `outVal` of the argument
  elements at the same batch entry and cell, when every rotation word is in `[0, 6)`.
-/
import proofs.«405264_j2783138808252_1_alg».proof.Proof.RefValue
import proofs.«405264_j2783138808252_1_alg».proof.Proof.SpecArr

noncomputable section

namespace Cert.ReferenceIdeal.RefValue

open Cert.ReferenceIdeal Cert.ReferenceIdeal.Gen Idealize.ShloMosaic Idealize.ShloMosaic.ValueIdx

theorem refTerm_eq (a0 a1 : FVec Ideal S1024x128x25x25 .f32) (a2 a3 a4 : FVec Ideal S1024x25x25 .f32)
    (a5 a6 a7 : FVec Ideal S1024x6x25x25 .f32) (a8 a9 : FVec Ideal S1024x25x25 .f32) (a10 : IVec S1024 32)
    (hr : ∀ b : Fin 1024, (a10 (ix1 b)).toNat < 6) :
    refTerm (F := Ideal) a0 a1 a2 a3 a4 a5 a6 a7 a8 a9 a10 = Cert.Spec.outArr a0 a1 a2 a3 a4 a5 a6 a7 a8 a9 a10 := by
  funext i
  obtain ⟨b, ch, h, w, rfl⟩ : ∃ (b : Fin 1024) (ch : Fin 161) (h w : Fin 25), i = ix4 b ch h w :=
    ⟨i 0, i 1, i 2, i 3, eq_ix4 i⟩
  exact refTerm_apply a0 a1 a2 a3 a4 a5 a6 a7 a8 a9 a10 b ch h w (hr b)

end Cert.ReferenceIdeal.RefValue

end
-- ==== Proof.RefOps.lean ====
/-
  The reference program's @main as the list of its host operations in program order, each call of an outlined
  function (the floor-modulo, take_along_axis, one_hot, where) replaced by that function's operations over the
  call's own buffers; and that every operation touches TensorCore buffers only.
-/
import proofs.«405264_j2783138808252_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 192 operations, in order, the calls unfolded. -/
abbrev ops : List (HloOp τ sig (Elt F)) :=
  [ StableHlo.binary main_arg0 main_arg1 main_v0 (addf : (⟨S1024x128x25x25, .f32⟩ : BufTy).Contents (Elt F) → (⟨S1024x128x25x25, .f32⟩ : BufTy).Contents (Elt F) → (⟨S1024x128x25x25, .f32⟩ : BufTy).Contents (Elt F)),
    StableHlo.unary main_arg4 main_v1 (broadcastInDim S1024x1x25x25 ![0, 2, 3] bcast_S1024x25x25_S1024x1x25x25_0_2_3 : (⟨S1024x25x25, .f32⟩ : BufTy).Contents (Elt F) → (⟨S1024x1x25x25, .f32⟩ : BufTy).Contents (Elt F)),
    StableHlo.nullary main_cst (constant S_ .f32 0x3F000000#32),
    StableHlo.unary main_cst main_v2 (broadcastInDim S1024x6x25x25 ![] bcast_S_S1024x6x25x25 : (⟨S_, .f32⟩ : BufTy).Contents (Elt F) → (⟨S1024x6x25x25, .f32⟩ : BufTy).Contents (Elt F)),
    StableHlo.binary main_arg5 main_v2 main_v3 (mulf : (⟨S1024x6x25x25, .f32⟩ : BufTy).Contents (Elt F) → (⟨S1024x6x25x25, .f32⟩ : BufTy).Contents (Elt F) → (⟨S1024x6x25x25, .f32⟩ : BufTy).Contents (Elt F)),
    StableHlo.nullary main_cst_0 (constant S_ .f32 0x3F000000#32),
    StableHlo.unary main_cst_0 main_v4 (broadcastInDim S1024x6x25x25 ![] bcast_S_S1024x6x25x25 : (⟨S_, .f32⟩ : BufTy).Contents (Elt F) → (⟨S1024x6x25x25, .f32⟩ : BufTy).Contents (Elt F)),
    StableHlo.binary main_arg6 main_v4 main_v5 (mulf : (⟨S1024x6x25x25, .f32⟩ : BufTy).Contents (Elt F) → (⟨S1024x6x25x25, .f32⟩ : BufTy).Contents (Elt F) → (⟨S1024x6x25x25, .f32⟩ : BufTy).Contents (Elt F)),
    StableHlo.nullary main_v6 (iotaInDim S6 32 0),
    StableHlo.unary main_v6 main_v7 (broadcastInDim S1x6 ![1] bcast_S6_S1x6_1 : (⟨S6, .i32⟩ : BufTy).Contents (Elt F) → (⟨S1x6, .i32⟩ : BufTy).Contents (Elt F)),
    StableHlo.unary main_arg10 main_v8 (broadcastInDim S1024x1 ![0] bcast_S1024_S1024x1_0 : (⟨S1024, .i32⟩ : BufTy).Contents (Elt F) → (⟨S1024x1, .i32⟩ : BufTy).Contents (Elt F)),
    StableHlo.unary main_v7 main_v9 (broadcastInDim S1024x6 ![0, 1] bcast_S1x6_S1024x6_0_1 : (⟨S1x6, .i32⟩ : BufTy).Contents (Elt F) → (⟨S1024x6, .i32⟩ : BufTy).Contents (Elt F)),
    StableHlo.unary main_v8 main_v10 (broadcastInDim S1024x6 ![0, 1] bcast_S1024x1_S1024x6_0_1 : (⟨S1024x1, .i32⟩ : BufTy).Contents (Elt F) → (⟨S1024x6, .i32⟩ : BufTy).Contents (Elt F)),
    StableHlo.binary main_v9 main_v10 main_v11 (subi : (⟨S1024x6, .i32⟩ : BufTy).Contents (Elt F) → (⟨S1024x6, .i32⟩ : BufTy).Contents (Elt F) → (⟨S1024x6, .i32⟩ : BufTy).Contents (Elt F)),
    StableHlo.nullary main_c (constantI S_ 32 6#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S1024x6 ![] bcast_S_S1024x6),
    StableHlo.TRef.binary (.of main_v11 : StableHlo.TRef sig ⟨S1024x6, .i32⟩) main_call0.v3 main_call0.v4 Host.remsi,
    StableHlo.TRef.nullary main_call0.c_1 (constantI S_ 32 0#32),
    StableHlo.TRef.unary main_call0.c_1 main_call0.v5 (broadcastInDim S1024x6 ![] bcast_S_S1024x6),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S1024x6 ![] bcast_S_S1024x6),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S1024x6 ![] bcast_S_S1024x6),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S1024x6 ![] bcast_S_S1024x6),
    StableHlo.TRef.binary main_call0.v4 main_call0.v13 main_call0.v14 addi,
    StableHlo.TRef.ternary main_call0.v12 main_call0.v14 main_call0.v4 main_call0.v15 select,
    StableHlo.unary main_v12 main_v13 (broadcastInDim S1024x6x1x1 ![0, 1] bcast_S1024x6_S1024x6x1x1_0_1 : (⟨S1024x6, .i32⟩ : BufTy).Contents (Elt F) → (⟨S1024x6x1x1, .i32⟩ : BufTy).Contents (Elt F)),
    StableHlo.TRef.nullary main_call1.c (constantI S_ 32 0#32),
    StableHlo.TRef.unary main_call1.c main_call1.v0 (broadcastInDim S1024x6x1x1 ![] bcast_S_S1024x6x1x1),
    StableHlo.TRef.binary (.of main_v13 : StableHlo.TRef sig ⟨S1024x6x1x1, .i32⟩) main_call1.v0 main_call1.v1 (cmpi .slt),
    StableHlo.TRef.nullary main_call1.c_0 (constantI S_ 32 6#32),
    StableHlo.TRef.unary main_call1.c_0 main_call1.v2 (broadcastInDim S1024x6x1x1 ![] bcast_S_S1024x6x1x1),
    StableHlo.TRef.binary (.of main_v13 : StableHlo.TRef sig ⟨S1024x6x1x1, .i32⟩) main_call1.v2 main_call1.v3 addi,
    StableHlo.TRef.ternary main_call1.v1 main_call1.v3 (.of main_v13 : StableHlo.TRef sig ⟨S1024x6x1x1, .i32⟩) main_call1.v4 select,
    StableHlo.TRef.reshape main_call1.v4 main_call1.v5 rfl shapeCasts_S1024x6x1x1_S1024x6x1,
    StableHlo.TRef.nullary main_call1.c_1 (constantI S1 32 5#32),
    StableHlo.TRef.nullary main_call1.c_2 (constantI S_ 32 0#32),
    StableHlo.TRef.unary main_call1.c_2 main_call1.v6 (broadcastInDim S1024x6x1 ![] bcast_S_S1024x6x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S1024x6x1 ![0, 1, 2] bcast_S1x1x1_S1024x6x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1024x6x1_S1024x6_d2 h_S_),
    StableHlo.TRef.binary (.of main_v3 : StableHlo.TRef sig ⟨S1024x6x25x25, .f32⟩) main_call1.v5 main_call1.v13 (fun x i => Host.gather gather_S1024x6x25x25_S1024x6x1_S1024x6x25x25_23_1_0_0_1_2_112525 x i),
    StableHlo.TRef.unary main_call1.v12 main_call1.v14 (broadcastInDim S1024x6x25x25 ![0, 1] bcast_S1024x6_S1024x6x25x25_0_1),
    StableHlo.TRef.nullary main_call1.cst (constant S_ .f32 0x7FC00000#32),
    StableHlo.TRef.unary main_call1.cst main_call1.v15 (broadcastInDim S1024x6x25x25 ![] bcast_S_S1024x6x25x25),
    StableHlo.TRef.ternary main_call1.v14 main_call1.v13 main_call1.v15 main_call1.v16 select,
    StableHlo.nullary main_v15 (iotaInDim S6 32 0),
    StableHlo.unary main_v15 main_v16 (broadcastInDim S1x6 ![1] bcast_S6_S1x6_1 : (⟨S6, .i32⟩ : BufTy).Contents (Elt F) → (⟨S1x6, .i32⟩ : BufTy).Contents (Elt F)),
    StableHlo.unary main_arg10 main_v17 (broadcastInDim S1024x1 ![0] bcast_S1024_S1024x1_0 : (⟨S1024, .i32⟩ : BufTy).Contents (Elt F) → (⟨S1024x1, .i32⟩ : BufTy).Contents (Elt F)),
    StableHlo.unary main_v16 main_v18 (broadcastInDim S1024x6 ![0, 1] bcast_S1x6_S1024x6_0_1 : (⟨S1x6, .i32⟩ : BufTy).Contents (Elt F) → (⟨S1024x6, .i32⟩ : BufTy).Contents (Elt F)),
    StableHlo.unary main_v17 main_v19 (broadcastInDim S1024x6 ![0, 1] bcast_S1024x1_S1024x6_0_1 : (⟨S1024x1, .i32⟩ : BufTy).Contents (Elt F) → (⟨S1024x6, .i32⟩ : BufTy).Contents (Elt F)),
    StableHlo.binary main_v18 main_v19 main_v20 (subi : (⟨S1024x6, .i32⟩ : BufTy).Contents (Elt F) → (⟨S1024x6, .i32⟩ : BufTy).Contents (Elt F) → (⟨S1024x6, .i32⟩ : BufTy).Contents (Elt F)),
    StableHlo.nullary main_c_1 (constantI S_ 32 6#32),
    StableHlo.TRef.unary (.of main_c_1 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S1024x6 ![] bcast_S_S1024x6),
    StableHlo.TRef.binary (.of main_v20 : StableHlo.TRef sig ⟨S1024x6, .i32⟩) main_call2.v3 main_call2.v4 Host.remsi,
    StableHlo.TRef.nullary main_call2.c_1 (constantI S_ 32 0#32),
    StableHlo.TRef.unary main_call2.c_1 main_call2.v5 (broadcastInDim S1024x6 ![] bcast_S_S1024x6),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S1024x6 ![] bcast_S_S1024x6),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S1024x6 ![] bcast_S_S1024x6),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S1024x6 ![] bcast_S_S1024x6),
    StableHlo.TRef.binary main_call2.v4 main_call2.v13 main_call2.v14 addi,
    StableHlo.TRef.ternary main_call2.v12 main_call2.v14 main_call2.v4 main_call2.v15 select,
    StableHlo.unary main_v21 main_v22 (broadcastInDim S1024x6x1x1 ![0, 1] bcast_S1024x6_S1024x6x1x1_0_1 : (⟨S1024x6, .i32⟩ : BufTy).Contents (Elt F) → (⟨S1024x6x1x1, .i32⟩ : BufTy).Contents (Elt F)),
    StableHlo.TRef.nullary main_call3.c (constantI S_ 32 0#32),
    StableHlo.TRef.unary main_call3.c main_call3.v0 (broadcastInDim S1024x6x1x1 ![] bcast_S_S1024x6x1x1),
    StableHlo.TRef.binary (.of main_v22 : StableHlo.TRef sig ⟨S1024x6x1x1, .i32⟩) main_call3.v0 main_call3.v1 (cmpi .slt),
    StableHlo.TRef.nullary main_call3.c_0 (constantI S_ 32 6#32),
    StableHlo.TRef.unary main_call3.c_0 main_call3.v2 (broadcastInDim S1024x6x1x1 ![] bcast_S_S1024x6x1x1),
    StableHlo.TRef.binary (.of main_v22 : StableHlo.TRef sig ⟨S1024x6x1x1, .i32⟩) main_call3.v2 main_call3.v3 addi,
    StableHlo.TRef.ternary main_call3.v1 main_call3.v3 (.of main_v22 : StableHlo.TRef sig ⟨S1024x6x1x1, .i32⟩) main_call3.v4 select,
    StableHlo.TRef.reshape main_call3.v4 main_call3.v5 rfl shapeCasts_S1024x6x1x1_S1024x6x1,
    StableHlo.TRef.nullary main_call3.c_1 (constantI S1 32 5#32),
    StableHlo.TRef.nullary main_call3.c_2 (constantI S_ 32 0#32),
    StableHlo.TRef.unary main_call3.c_2 main_call3.v6 (broadcastInDim S1024x6x1 ![] bcast_S_S1024x6x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S1024x6x1 ![0, 1, 2] bcast_S1x1x1_S1024x6x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S1024x6x1_S1024x6_d2 h_S_),
    StableHlo.TRef.binary (.of main_v5 : StableHlo.TRef sig ⟨S1024x6x25x25, .f32⟩) main_call3.v5 main_call3.v13 (fun x i => Host.gather gather_S1024x6x25x25_S1024x6x1_S1024x6x25x25_23_1_0_0_1_2_112525 x i),
    StableHlo.TRef.unary main_call3.v12 main_call3.v14 (broadcastInDim S1024x6x25x25 ![0, 1] bcast_S1024x6_S1024x6x25x25_0_1),
    StableHlo.TRef.nullary main_call3.cst (constant S_ .f32 0x7FC00000#32),
    StableHlo.TRef.unary main_call3.cst main_call3.v15 (broadcastInDim S1024x6x25x25 ![] bcast_S_S1024x6x25x25),
    StableHlo.TRef.ternary main_call3.v14 main_call3.v13 main_call3.v15 main_call3.v16 select,
    StableHlo.nullary main_v24 (iotaInDim S6 32 0),
    StableHlo.unary main_v24 main_v25 (broadcastInDim S1x6 ![1] bcast_S6_S1x6_1 : (⟨S6, .i32⟩ : BufTy).Contents (Elt F) → (⟨S1x6, .i32⟩ : BufTy).Contents (Elt F)),
    StableHlo.unary main_arg10 main_v26 (broadcastInDim S1024x1 ![0] bcast_S1024_S1024x1_0 : (⟨S1024, .i32⟩ : BufTy).Contents (Elt F) → (⟨S1024x1, .i32⟩ : BufTy).Contents (Elt F)),
    StableHlo.unary main_v25 main_v27 (broadcastInDim S1024x6 ![0, 1] bcast_S1x6_S1024x6_0_1 : (⟨S1x6, .i32⟩ : BufTy).Contents (Elt F) → (⟨S1024x6, .i32⟩ : BufTy).Contents (Elt F)),
    StableHlo.unary main_v26 main_v28 (broadcastInDim S1024x6 ![0, 1] bcast_S1024x1_S1024x6_0_1 : (⟨S1024x1, .i32⟩ : BufTy).Contents (Elt F) → (⟨S1024x6, .i32⟩ : BufTy).Contents (Elt F)),
    StableHlo.binary main_v27 main_v28 main_v29 (subi : (⟨S1024x6, .i32⟩ : BufTy).Contents (Elt F) → (⟨S1024x6, .i32⟩ : BufTy).Contents (Elt F) → (⟨S1024x6, .i32⟩ : BufTy).Contents (Elt F)),
    StableHlo.nullary main_c_2 (constantI S_ 32 6#32),
    StableHlo.TRef.unary (.of main_c_2 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S1024x6 ![] bcast_S_S1024x6),
    StableHlo.TRef.binary (.of main_v29 : StableHlo.TRef sig ⟨S1024x6, .i32⟩) main_call4.v3 main_call4.v4 Host.remsi,
    StableHlo.TRef.nullary main_call4.c_1 (constantI S_ 32 0#32),
    StableHlo.TRef.unary main_call4.c_1 main_call4.v5 (broadcastInDim S1024x6 ![] bcast_S_S1024x6),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S1024x6 ![] bcast_S_S1024x6),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S1024x6 ![] bcast_S_S1024x6),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S1024x6 ![] bcast_S_S1024x6),
    StableHlo.TRef.binary main_call4.v4 main_call4.v13 main_call4.v14 addi,
    StableHlo.TRef.ternary main_call4.v12 main_call4.v14 main_call4.v4 main_call4.v15 select,
    StableHlo.unary main_v30 main_v31 (broadcastInDim S1024x6x1x1 ![0, 1] bcast_S1024x6_S1024x6x1x1_0_1 : (⟨S1024x6, .i32⟩ : BufTy).Contents (Elt F) → (⟨S1024x6x1x1, .i32⟩ : BufTy).Contents (Elt F)),
    StableHlo.TRef.nullary main_call5.c (constantI S_ 32 0#32),
    StableHlo.TRef.unary main_call5.c main_call5.v0 (broadcastInDim S1024x6x1x1 ![] bcast_S_S1024x6x1x1),
    StableHlo.TRef.binary (.of main_v31 : StableHlo.TRef sig ⟨S1024x6x1x1, .i32⟩) main_call5.v0 main_call5.v1 (cmpi .slt),
    StableHlo.TRef.nullary main_call5.c_0 (constantI S_ 32 6#32),
    StableHlo.TRef.unary main_call5.c_0 main_call5.v2 (broadcastInDim S1024x6x1x1 ![] bcast_S_S1024x6x1x1),
    StableHlo.TRef.binary (.of main_v31 : StableHlo.TRef sig ⟨S1024x6x1x1, .i32⟩) main_call5.v2 main_call5.v3 addi,
    StableHlo.TRef.ternary main_call5.v1 main_call5.v3 (.of main_v31 : StableHlo.TRef sig ⟨S1024x6x1x1, .i32⟩) main_call5.v4 select,
    StableHlo.TRef.reshape main_call5.v4 main_call5.v5 rfl shapeCasts_S1024x6x1x1_S1024x6x1,
    StableHlo.TRef.nullary main_call5.c_1 (constantI S1 32 5#32),
    StableHlo.TRef.nullary main_call5.c_2 (constantI S_ 32 0#32),
    StableHlo.TRef.unary main_call5.c_2 main_call5.v6 (broadcastInDim S1024x6x1 ![] bcast_S_S1024x6x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S1024x6x1 ![0, 1, 2] bcast_S1x1x1_S1024x6x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S1024x6x1_S1024x6_d2 h_S_),
    StableHlo.TRef.binary (.of main_arg7 : StableHlo.TRef sig ⟨S1024x6x25x25, .f32⟩) main_call5.v5 main_call5.v13 (fun x i => Host.gather gather_S1024x6x25x25_S1024x6x1_S1024x6x25x25_23_1_0_0_1_2_112525 x i),
    StableHlo.TRef.unary main_call5.v12 main_call5.v14 (broadcastInDim S1024x6x25x25 ![0, 1] bcast_S1024x6_S1024x6x25x25_0_1),
    StableHlo.TRef.nullary main_call5.cst (constant S_ .f32 0x7FC00000#32),
    StableHlo.TRef.unary main_call5.cst main_call5.v15 (broadcastInDim S1024x6x25x25 ![] bcast_S_S1024x6x25x25),
    StableHlo.TRef.ternary main_call5.v14 main_call5.v13 main_call5.v15 main_call5.v16 select,
    StableHlo.nullary main_cst_3 (constant S_ .f32 0x00000000#32),
    StableHlo.binary main_arg5 main_cst_3 main_v33 ((fun x v => Host.reduceAdd x v reducesTo_S1024x6x25x25_S1024x25x25_d1 h_S_) : (⟨S1024x6x25x25, .f32⟩ : BufTy).Contents (Elt F) → (⟨S_, .f32⟩ : BufTy).Contents (Elt F) → (⟨S1024x25x25, .f32⟩ : BufTy).Contents (Elt F)),
    StableHlo.unary main_v33 main_v34 (broadcastInDim S1024x1x25x25 ![0, 2, 3] bcast_S1024x25x25_S1024x1x25x25_0_2_3 : (⟨S1024x25x25, .f32⟩ : BufTy).Contents (Elt F) → (⟨S1024x1x25x25, .f32⟩ : BufTy).Contents (Elt F)),
    StableHlo.unary main_arg2 main_v35 (broadcastInDim S1024x1x25x25 ![0, 2, 3] bcast_S1024x25x25_S1024x1x25x25_0_2_3 : (⟨S1024x25x25, .f32⟩ : BufTy).Contents (Elt F) → (⟨S1024x1x25x25, .f32⟩ : BufTy).Contents (Elt F)),
    StableHlo.unary main_arg3 main_v36 (broadcastInDim S1024x1x25x25 ![0, 2, 3] bcast_S1024x25x25_S1024x1x25x25_0_2_3 : (⟨S1024x25x25, .f32⟩ : BufTy).Contents (Elt F) → (⟨S1024x1x25x25, .f32⟩ : BufTy).Contents (Elt F)),
    StableHlo.unary main_arg8 main_v37 (broadcastInDim S1024x1x25x25 ![0, 2, 3] bcast_S1024x25x25_S1024x1x25x25_0_2_3 : (⟨S1024x25x25, .f32⟩ : BufTy).Contents (Elt F) → (⟨S1024x1x25x25, .f32⟩ : BufTy).Contents (Elt F)),
    StableHlo.unary main_arg9 main_v38 (broadcastInDim S1024x1x25x25 ![0, 2, 3] bcast_S1024x25x25_S1024x1x25x25_0_2_3 : (⟨S1024x25x25, .f32⟩ : BufTy).Contents (Elt F) → (⟨S1024x1x25x25, .f32⟩ : BufTy).Contents (Elt F)),
    StableHlo.nary ![main_v0, main_v35, main_v36, main_v1, main_v14, main_v34, main_v37, main_v38] main_v39 (fun u => concatenate S1024x140x25x25 1 [⟨S1024x128x25x25, u 0⟩, ⟨S1024x1x25x25, u 1⟩, ⟨S1024x1x25x25, u 2⟩, ⟨S1024x1x25x25, u 3⟩, ⟨S1024x6x25x25, u 4⟩, ⟨S1024x1x25x25, u 5⟩, ⟨S1024x1x25x25, u 6⟩, ⟨S1024x1x25x25, u 7⟩] concatenates_S1024x128x25x25_S1024x1x25x25_S1024x1x25x25_S1024x1x25x25_S1024x6x25x25_S1024x1x25x25_S1024x1x25x25_S1024x1x25x25_S1024x140x25x25_d1),
    StableHlo.nullary main_cst_4 (constant S_ .f32 0x00000000#32),
    StableHlo.binary main_v23 main_cst_4 main_v40 ((fun x v => Host.reduceAdd x v reducesTo_S1024x6x25x25_S1024x25x25_d1 h_S_) : (⟨S1024x6x25x25, .f32⟩ : BufTy).Contents (Elt F) → (⟨S_, .f32⟩ : BufTy).Contents (Elt F) → (⟨S1024x25x25, .f32⟩ : BufTy).Contents (Elt F)),
    StableHlo.unary main_v40 main_v41 (broadcastInDim S1024x1x25x25 ![0, 2, 3] bcast_S1024x25x25_S1024x1x25x25_0_2_3 : (⟨S1024x25x25, .f32⟩ : BufTy).Contents (Elt F) → (⟨S1024x1x25x25, .f32⟩ : BufTy).Contents (Elt F)),
    StableHlo.nullary main_cst_5 (constant S_ .f32 0x00000000#32),
    StableHlo.binary main_v32 main_cst_5 main_v42 ((fun x v => Host.reduceAdd x v reducesTo_S1024x6x25x25_S1024x25x25_d1 h_S_) : (⟨S1024x6x25x25, .f32⟩ : BufTy).Contents (Elt F) → (⟨S_, .f32⟩ : BufTy).Contents (Elt F) → (⟨S1024x25x25, .f32⟩ : BufTy).Contents (Elt F)),
    StableHlo.unary main_v42 main_v43 (broadcastInDim S1024x1x25x25 ![0, 2, 3] bcast_S1024x25x25_S1024x1x25x25_0_2_3 : (⟨S1024x25x25, .f32⟩ : BufTy).Contents (Elt F) → (⟨S1024x1x25x25, .f32⟩ : BufTy).Contents (Elt F)),
    StableHlo.nary ![main_v39, main_v23, main_v32, main_v41, main_v43] main_v44 (fun u => concatenate S1024x154x25x25 1 [⟨S1024x140x25x25, u 0⟩, ⟨S1024x6x25x25, u 1⟩, ⟨S1024x6x25x25, u 2⟩, ⟨S1024x1x25x25, u 3⟩, ⟨S1024x1x25x25, u 4⟩] concatenates_S1024x140x25x25_S1024x6x25x25_S1024x6x25x25_S1024x1x25x25_S1024x1x25x25_S1024x154x25x25_d1),
    StableHlo.unary main_v1 main_v45 (broadcastInDim S1024x154x25x25 ![0, 1, 2, 3] bcast_S1024x1x25x25_S1024x154x25x25_0_1_2_3 : (⟨S1024x1x25x25, .f32⟩ : BufTy).Contents (Elt F) → (⟨S1024x154x25x25, .f32⟩ : BufTy).Contents (Elt F)),
    StableHlo.binary main_v44 main_v45 main_v46 (mulf : (⟨S1024x154x25x25, .f32⟩ : BufTy).Contents (Elt F) → (⟨S1024x154x25x25, .f32⟩ : BufTy).Contents (Elt F) → (⟨S1024x154x25x25, .f32⟩ : BufTy).Contents (Elt F)),
    StableHlo.nullary main_cst_6 (constant S_ .f32 0x3F800000#32),
    StableHlo.unary main_cst_6 main_v47 (broadcastInDim S1024x1x25x25 ![] bcast_S_S1024x1x25x25 : (⟨S_, .f32⟩ : BufTy).Contents (Elt F) → (⟨S1024x1x25x25, .f32⟩ : BufTy).Contents (Elt F)),
    StableHlo.TRef.unary (.of main_arg10 : StableHlo.TRef sig ⟨S1024, .i32⟩) main_call6.v0 (broadcastInDim S1024x1 ![0] bcast_S1024_S1024x1_0),
    StableHlo.TRef.nullary main_call6.v1 (iotaInDim S1x6 32 1),
    StableHlo.TRef.unary main_call6.v0 main_call6.v2 (broadcastInDim S1024x6 ![0, 1] bcast_S1024x1_S1024x6_0_1),
    StableHlo.TRef.unary main_call6.v1 main_call6.v3 (broadcastInDim S1024x6 ![0, 1] bcast_S1x6_S1024x6_0_1),
    StableHlo.TRef.binary main_call6.v2 main_call6.v3 main_call6.v4 (cmpi .eq),
    StableHlo.TRef.unary main_call6.v4 main_call6.v5 (uitofp .f32),
    StableHlo.unary main_v48 main_v49 (broadcastInDim S1024x6x1x1 ![0, 1] bcast_S1024x6_S1024x6x1x1_0_1 : (⟨S1024x6, .f32⟩ : BufTy).Contents (Elt F) → (⟨S1024x6x1x1, .f32⟩ : BufTy).Contents (Elt F)),
    StableHlo.unary main_v49 main_v50 (broadcastInDim S1024x6x25x25 ![0, 1, 2, 3] bcast_S1024x6x1x1_S1024x6x25x25_0_1_2_3 : (⟨S1024x6x1x1, .f32⟩ : BufTy).Contents (Elt F) → (⟨S1024x6x25x25, .f32⟩ : BufTy).Contents (Elt F)),
    StableHlo.nary ![main_v46, main_v47, main_v50] main_v51 (fun u => concatenate S1024x161x25x25 1 [⟨S1024x154x25x25, u 0⟩, ⟨S1024x1x25x25, u 1⟩, ⟨S1024x6x25x25, u 2⟩] concatenates_S1024x154x25x25_S1024x1x25x25_S1024x6x25x25_S1024x161x25x25_d1) ]

theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., unary_bufs_sub .., unary_bufs_sub .., unary_bufs_sub .., unary_bufs_sub .., nary_bufs_sub .., nullary_bufs_sub .., binary_bufs_sub .., unary_bufs_sub .., nullary_bufs_sub .., binary_bufs_sub .., unary_bufs_sub .., nary_bufs_sub .., unary_bufs_sub .., binary_bufs_sub .., nullary_bufs_sub .., unary_bufs_sub .., unary_bufs_sub .., nullary_bufs_sub .., unary_bufs_sub .., unary_bufs_sub .., binary_bufs_sub .., unary_bufs_sub .., unary_bufs_sub .., unary_bufs_sub .., nary_bufs_sub ..⟩

end Cert.ReferenceIdeal.RefRun

end
-- ==== Proof.RefRun.lean ====
/-
  The reference program's run: its @main is the straight line of its host operations (the outlined functions
  unfolded at their calls), so every weakly fair execution terminates with each buffer at the operations' fold over
  the launch contents; read at the result buffer that fold is the pure term `refTerm` of the eleven argument
  arrays, and read at an argument buffer it is the argument unchanged.
-/
import proofs.«405264_j2783138808252_1_alg».proof.Proof.RefOps
import proofs.«405264_j2783138808252_1_alg».proof.Proof.RefTerm

noncomputable section

namespace Cert.ReferenceIdeal.RefRun

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

-- some two hundred binds re-associated: the rewriting under the chain recurses once per statement
set_option maxRecDepth 8192 in
set_option maxHeartbeats 4000000 in
/-- @main is that straight line: the functions' definitions unfolded at their calls and the records at their
    fields, both sides are one chain of operation steps once sequencing is reassociated. -/
theorem main_eq (c : Dev nD) : main (F := F) c = seq ops := by
  simp only [main, main_part0, main_part1, fn_remainder.body, fn_where.body, fn_take_along_axis.body,
    fn_take_along_axis_0.body, fn_one_hot.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The three concatenations of @main as functions of their operands (each operand at its own type). -/
def cat39 (x0 : FVec F S1024x128x25x25 .f32) (x1 x2 x3 : FVec F S1024x1x25x25 .f32) (x4 : FVec F S1024x6x25x25 .f32)
    (x5 x6 x7 : FVec F S1024x1x25x25 .f32) : FVec F S1024x140x25x25 .f32 :=
  concatenate S1024x140x25x25 1 [⟨S1024x128x25x25, x0⟩, ⟨S1024x1x25x25, x1⟩, ⟨S1024x1x25x25, x2⟩, ⟨S1024x1x25x25, x3⟩, ⟨S1024x6x25x25, x4⟩, ⟨S1024x1x25x25, x5⟩, ⟨S1024x1x25x25, x6⟩, ⟨S1024x1x25x25, x7⟩] concatenates_S1024x128x25x25_S1024x1x25x25_S1024x1x25x25_S1024x1x25x25_S1024x6x25x25_S1024x1x25x25_S1024x1x25x25_S1024x1x25x25_S1024x140x25x25_d1

@[inherit_doc cat39]
def cat44 (x0 : FVec F S1024x140x25x25 .f32) (x1 x2 : FVec F S1024x6x25x25 .f32) (x3 x4 : FVec F S1024x1x25x25 .f32) :
    FVec F S1024x154x25x25 .f32 :=
  concatenate S1024x154x25x25 1 [⟨S1024x140x25x25, x0⟩, ⟨S1024x6x25x25, x1⟩, ⟨S1024x6x25x25, x2⟩, ⟨S1024x1x25x25, x3⟩, ⟨S1024x1x25x25, x4⟩] concatenates_S1024x140x25x25_S1024x6x25x25_S1024x6x25x25_S1024x1x25x25_S1024x1x25x25_S1024x154x25x25_d1

@[inherit_doc cat39]
def cat51 (x0 : FVec F S1024x154x25x25 .f32) (x1 : FVec F S1024x1x25x25 .f32) (x2 : FVec F S1024x6x25x25 .f32) :
    FVec F S1024x161x25x25 .f32 :=
  concatenate S1024x161x25x25 1 [⟨S1024x154x25x25, x0⟩, ⟨S1024x1x25x25, x1⟩, ⟨S1024x6x25x25, x2⟩] concatenates_S1024x154x25x25_S1024x1x25x25_S1024x6x25x25_S1024x161x25x25_d1

/-- Each concatenation's result: the function of its operands' contents, each read at its own reference. -/
theorem v39_step (G : Valuation τ sig (Elt F)) :
    (StableHlo.nary ![main_v0, main_v35, main_v36, main_v1, main_v14, main_v34, main_v37, main_v38] main_v39 (fun u => concatenate S1024x140x25x25 1 [⟨S1024x128x25x25, u 0⟩, ⟨S1024x1x25x25, u 1⟩, ⟨S1024x1x25x25, u 2⟩, ⟨S1024x1x25x25, u 3⟩, ⟨S1024x6x25x25, u 4⟩, ⟨S1024x1x25x25, u 5⟩, ⟨S1024x1x25x25, u 6⟩, ⟨S1024x1x25x25, u 7⟩] concatenates_S1024x128x25x25_S1024x1x25x25_S1024x1x25x25_S1024x1x25x25_S1024x6x25x25_S1024x1x25x25_S1024x1x25x25_S1024x1x25x25_S1024x140x25x25_d1) : HloOp τ sig (Elt F)).result G (no_index (main_v39 : DevRef τ sig))
      = cat39 (G (main_v0 : DevRef τ sig)) (G (main_v35 : DevRef τ sig)) (G (main_v36 : DevRef τ sig)) (G (main_v1 : DevRef τ sig)) (G (main_v14 : DevRef τ sig)) (G (main_v34 : DevRef τ sig)) (G (main_v37 : DevRef τ sig)) (G (main_v38 : DevRef τ sig)) :=
  nary_result ..

@[inherit_doc v39_step]
theorem v44_step (G : Valuation τ sig (Elt F)) :
    (StableHlo.nary ![main_v39, main_v23, main_v32, main_v41, main_v43] main_v44 (fun u => concatenate S1024x154x25x25 1 [⟨S1024x140x25x25, u 0⟩, ⟨S1024x6x25x25, u 1⟩, ⟨S1024x6x25x25, u 2⟩, ⟨S1024x1x25x25, u 3⟩, ⟨S1024x1x25x25, u 4⟩] concatenates_S1024x140x25x25_S1024x6x25x25_S1024x6x25x25_S1024x1x25x25_S1024x1x25x25_S1024x154x25x25_d1) : HloOp τ sig (Elt F)).result G (no_index (main_v44 : DevRef τ sig))
      = cat44 (G (main_v39 : DevRef τ sig)) (G (main_v23 : DevRef τ sig)) (G (main_v32 : DevRef τ sig)) (G (main_v41 : DevRef τ sig)) (G (main_v43 : DevRef τ sig)) :=
  nary_result ..

@[inherit_doc v39_step]
theorem v51_step (G : Valuation τ sig (Elt F)) :
    (StableHlo.nary ![main_v46, main_v47, main_v50] main_v51 (fun u => concatenate S1024x161x25x25 1 [⟨S1024x154x25x25, u 0⟩, ⟨S1024x1x25x25, u 1⟩, ⟨S1024x6x25x25, u 2⟩] concatenates_S1024x154x25x25_S1024x1x25x25_S1024x6x25x25_S1024x161x25x25_d1) : HloOp τ sig (Elt F)).result G (no_index (main_v51 : DevRef τ sig))
      = cat51 (G (main_v46 : DevRef τ sig)) (G (main_v47 : DevRef τ sig)) (G (main_v50 : DevRef τ sig)) :=
  nary_result ..

attribute [local irreducible] Host.reduce Host.gather Host.reduceAdd concatenate Host.remsi in
set_option maxRecDepth 16384 in
set_option maxHeartbeats 4000000 in
/-- The fold at the result buffer is `refTerm` of the argument buffers, by computation: each operation's result
    is rewritten to its function's value at its own buffer and to what was there at any other (one pass, every
    shared intermediate visited once), which leaves the operations' composed term over the argument buffers; that
    term and `refTerm` then differ only in the typed references' transports, the identity at these literal
    references. The reductions, the gather, the concatenations and the remainder are kept folded meanwhile (the
    equation never looks inside them). -/
theorem result_eq (V : Valuation τ sig (Elt F)) :
    after ops V (main_v51 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  simp (disch := decide) only [after_cons, after_nil,
      nullary_result', unary_result', binary_result', ternary_result', reshape_result', v39_step, v44_step, v51_step,
      nullary_result_ne', unary_result_ne', binary_result_ne', ternary_result_ne', reshape_result_ne', nary_result_ne']
  rfl

/-! No operation writes an argument buffer: at each the fold is the launch contents. -/

theorem arg0_eq (V : Valuation τ sig (Elt F)) :
    after ops V (main_arg0 : DevRef τ sig) = V (main_arg0 : DevRef τ sig) := by
  simp (disch := decide) only [after_cons, after_nil, nullary_result_ne', unary_result_ne', binary_result_ne',
    ternary_result_ne', reshape_result_ne', nary_result_ne']

theorem arg1_eq (V : Valuation τ sig (Elt F)) :
    after ops V (main_arg1 : DevRef τ sig) = V (main_arg1 : DevRef τ sig) := by
  simp (disch := decide) only [after_cons, after_nil, nullary_result_ne', unary_result_ne', binary_result_ne',
    ternary_result_ne', reshape_result_ne', nary_result_ne']

theorem arg2_eq (V : Valuation τ sig (Elt F)) :
    after ops V (main_arg2 : DevRef τ sig) = V (main_arg2 : DevRef τ sig) := by
  simp (disch := decide) only [after_cons, after_nil, nullary_result_ne', unary_result_ne', binary_result_ne',
    ternary_result_ne', reshape_result_ne', nary_result_ne']

theorem arg3_eq (V : Valuation τ sig (Elt F)) :
    after ops V (main_arg3 : DevRef τ sig) = V (main_arg3 : DevRef τ sig) := by
  simp (disch := decide) only [after_cons, after_nil, nullary_result_ne', unary_result_ne', binary_result_ne',
    ternary_result_ne', reshape_result_ne', nary_result_ne']

theorem arg4_eq (V : Valuation τ sig (Elt F)) :
    after ops V (main_arg4 : DevRef τ sig) = V (main_arg4 : DevRef τ sig) := by
  simp (disch := decide) only [after_cons, after_nil, nullary_result_ne', unary_result_ne', binary_result_ne',
    ternary_result_ne', reshape_result_ne', nary_result_ne']

theorem arg5_eq (V : Valuation τ sig (Elt F)) :
    after ops V (main_arg5 : DevRef τ sig) = V (main_arg5 : DevRef τ sig) := by
  simp (disch := decide) only [after_cons, after_nil, nullary_result_ne', unary_result_ne', binary_result_ne',
    ternary_result_ne', reshape_result_ne', nary_result_ne']

theorem arg6_eq (V : Valuation τ sig (Elt F)) :
    after ops V (main_arg6 : DevRef τ sig) = V (main_arg6 : DevRef τ sig) := by
  simp (disch := decide) only [after_cons, after_nil, nullary_result_ne', unary_result_ne', binary_result_ne',
    ternary_result_ne', reshape_result_ne', nary_result_ne']

theorem arg7_eq (V : Valuation τ sig (Elt F)) :
    after ops V (main_arg7 : DevRef τ sig) = V (main_arg7 : DevRef τ sig) := by
  simp (disch := decide) only [after_cons, after_nil, nullary_result_ne', unary_result_ne', binary_result_ne',
    ternary_result_ne', reshape_result_ne', nary_result_ne']

theorem arg8_eq (V : Valuation τ sig (Elt F)) :
    after ops V (main_arg8 : DevRef τ sig) = V (main_arg8 : DevRef τ sig) := by
  simp (disch := decide) only [after_cons, after_nil, nullary_result_ne', unary_result_ne', binary_result_ne',
    ternary_result_ne', reshape_result_ne', nary_result_ne']

theorem arg9_eq (V : Valuation τ sig (Elt F)) :
    after ops V (main_arg9 : DevRef τ sig) = V (main_arg9 : DevRef τ sig) := by
  simp (disch := decide) only [after_cons, after_nil, nullary_result_ne', unary_result_ne', binary_result_ne',
    ternary_result_ne', reshape_result_ne', nary_result_ne']

theorem arg10_eq (V : Valuation τ sig (Elt F)) :
    after ops V (main_arg10 : DevRef τ sig) = V (main_arg10 : DevRef τ sig) := by
  simp (disch := decide) only [after_cons, after_nil, nullary_result_ne', unary_result_ne', binary_result_ne',
    ternary_result_ne', reshape_result_ne', nary_result_ne']

/-- The run with the result named: the result buffer ends at `refTerm` of the arguments as launched, and the
    arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v51).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.PreDecode.lean ====
/-
  The added precondition conjunct read back: when the printed precondition is all ones, every rotation word is a
  signed integer in `[0, 6)`, so as a natural number it is below six.
-/
import proofs.«405264_j2783138808252_1_alg».proof.Pre_finite_inputs
import proofs.«405264_j2783138808252_1_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic Idealize.ShloMosaic.ValueIdx

variable {F : FTy → Type} [FloatOps F]

instance : Subsingleton S_.Idx := ⟨fun a b => funext fun d => d.elim0⟩

/-- A 32-bit word that is at least `0` and below `6` as a signed integer is below six as a natural number. -/
theorem toNat_lt_six (x : BitVec 32) (h1 : (0#32).toInt ≤ x.toInt) (h2 : x.toInt < (6#32).toInt) : x.toNat < 6 := by
  have e0 : (0#32 : BitVec 32).toInt = 0 := by decide
  have e6 : (6#32 : BitVec 32).toInt = 6 := by decide
  rw [e0] at h1; rw [e6] at h2
  rw [BitVec.toInt_eq_toNat_cond] at h1 h2
  have := x.isLt
  split at h1 <;> omega

theorem rot_lt (a0 a1 : FVec F S1024x128x25x25 .f32) (a2 a3 a4 : FVec F S1024x25x25 .f32)
    (a5 a6 a7 : FVec F S1024x6x25x25 .f32) (a8 a9 : FVec F S1024x25x25 .f32) (a10 : IVec S1024 32)
    (h : fn (F := F) a0 a1 a2 a3 a4 a5 a6 a7 a8 a9 a10 = fun _ => 1#1) (b : Fin 1024) :
    (a10 (ix1 b)).toNat < 6 := by
  have h0 := congrFun h ix0
  dsimp only [fn, fn_part1, fn_part2, fn_part3] at h0
  obtain ⟨-, h54⟩ := IntOp.andi_eq_one.1 h0
  have hb := Host.reduce_andi_all _ _ _ _ _ h54 (ix1 b)
  obtain ⟨hge, hlt⟩ := IntOp.andi_eq_one.1 hb
  exact toNat_lt_six _ (IntOp.cmpi_sge.1 hge) (IntOp.cmpi_slt.1 hlt)

end Cert.Pre_finite_inputs.Decode

end
-- ==== Proof.lean ====
/-
  The certificate of the egocentric-rotation kernel against its jnp reference, over the extended reals.

  The kernel tiles the batch in blocks of eight rows; within a block it adds the static and dynamic embeddings,
  rotates three six-channel groups cyclically by each row's rotation, sums groups over their channels, multiplies
  the 154 environment channels by the memory-observability map and appends a constant channel and the six indicator
  planes of the rotation. It has no gather: a rotation is the sum over `s` of "rotation word equals `s`" times the
  block rotated by the static amount `s`. The reference gathers channel `(j - rot) mod 6` (floor-modulo) with
  `take_along_axis`. For a rotation word in `[0, 6)` — the added precondition conjunct; outside that range all six
  indicators vanish while the reference still gathers — exactly one indicator is one, and since `0 * x = 0` and
  `0 + x = x` for every extended real the masked sum IS the gathered channel; the floor-modulo index is in range, so
  `take_along_axis`'s negative-index fix and its fill never bind. Both channel sums are zero plus the sum of the six
  channels. No finiteness is used. Both sides are shown equal, element by element, to one specification
  (`Cert.Spec.outVal`, `Cert.Spec.outArr`).

  The frames of the two kernel programs are the generated ones; the reference's frame is its run (its @main is a
  straight line of host operations once the outlined functions are unfolded at their calls) with the result dropped.
  The idealization rewrote nothing, so `preserves` is trivial.
-/
import proofs.«405264_j2783138808252_1_alg».proof.Defs
import proofs.«405264_j2783138808252_1_alg».proof.Proof.Gen.Kernel
import proofs.«405264_j2783138808252_1_alg».proof.Proof.Gen.Kernel.Skeleton
import proofs.«405264_j2783138808252_1_alg».proof.Proof.Gen.Kernel.Launch
import proofs.«405264_j2783138808252_1_alg».proof.Proof.Gen.Kernel.Points
import proofs.«405264_j2783138808252_1_alg».proof.Proof.Gen.Kernel.Frame
import proofs.«405264_j2783138808252_1_alg».proof.Proof.Gen.KernelIdeal
import proofs.«405264_j2783138808252_1_alg».proof.Proof.Gen.KernelIdeal.Skeleton
import proofs.«405264_j2783138808252_1_alg».proof.Proof.Gen.KernelIdeal.Launch
import proofs.«405264_j2783138808252_1_alg».proof.Proof.Gen.KernelIdeal.Points
import proofs.«405264_j2783138808252_1_alg».proof.Proof.Gen.KernelIdeal.Frame
import proofs.«405264_j2783138808252_1_alg».proof.Proof.Gen.ReferenceIdeal
import proofs.«405264_j2783138808252_1_alg».proof.Proof.Gen.Pre_finite_inputs
import proofs.«405264_j2783138808252_1_alg».proof.Proof.KerArray
import proofs.«405264_j2783138808252_1_alg».proof.Proof.RefArr
import proofs.«405264_j2783138808252_1_alg».proof.Proof.RefRun
import proofs.«405264_j2783138808252_1_alg».proof.Proof.PreDecode
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Under the precondition every rotation word is in `[0, 6)`; then the kernel's result and the reference's are
    both the specification's output array of the arguments, which agree. -/
theorem algebraic : Cert.algebraic_KernelIdeal_ReferenceIdeal := by
  intro m ρ m' ρ' hpre hagree
  have hrot : ∀ (c : Dev Cert.KernelIdeal.nD) (b : Fin 1024),
      ((m ((c.tc : Thread Cert.KernelIdeal.nD Cert.KernelIdeal.τ).loc Cert.KernelIdeal.main_arg10) : Vec Ideal Cert.KernelIdeal.S1024 .i32) (ix1 b)).toNat < 6 :=
    fun c b => Cert.Pre_finite_inputs.Decode.rot_lt (F := Ideal) _ _ _ _ _ _ _ _ _ _ _ (hpre c) b
  refine ⟨fun c => Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KerArray.run m ρ hrot, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10⟩ := hagree c
  rw [e0, e1, e2, e3, e4, e5, e6, e7, e8, e9, e10]
  exact Cert.ReferenceIdeal.RefValue.refTerm_eq _ _ _ _ _ _ _ _ _ _ _ (hrot c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
